-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S32 .f32) (main_arg7 : FVec F S32x10 .f32) (main_arg8 : FVec F S10 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x10 .f32 := Host.absf main_arg7
  let main_cst_8 : FVec F S_ .f32 := constant S_ .f32 0x7F800000#32
  let main_v25 : FVec F S32x10 .f32 := broadcastInDim S32x10 ![] bcast_S_S32x10 main_cst_8
  let main_v26 : IVec S32x10 1 := cmpf .olt main_v24 main_v25
  let main_c_9 : IVec S_ 1 := constantI S_ 1 1#1
  let main_v27 : IVec S_ 1 := (fun x v => Host.reduce IntOp.andi x v reducesTo_S32x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : IVec S100000 32) (main_arg3 : FVec F S128x16 .f32) (main_arg4 : FVec F S16 .f32) (main_arg5 : FVec F S16x32 .f32) (main_arg6 : FVec F S32 .f32) (main_arg7 : FVec F S32x10 .f32) (main_arg8 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg5
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg6 main_arg7 main_arg8 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S32x10 : Shape := ⟨2, ![32, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S100000x16 : Shape := ⟨2, ![100000, 16]⟩
abbrev S4000x128 : Shape := ⟨2, ![4000, 128]⟩
abbrev S4000x1 : Shape := ⟨2, ![4000, 1]⟩
abbrev S4000x16 : Shape := ⟨2, ![4000, 16]⟩
abbrev S3200000x16 : Shape := ⟨2, ![3200000, 16]⟩
abbrev S1x16 : Shape := ⟨2, ![1, 16]⟩
abbrev S100000x32 : Shape := ⟨2, ![100000, 32]⟩
abbrev S4000x32 : Shape := ⟨2, ![4000, 32]⟩
abbrev S3200000x32 : Shape := ⟨2, ![3200000, 32]⟩
abbrev S1x32 : Shape := ⟨2, ![1, 32]⟩
abbrev S1x10 : Shape := ⟨2, ![1, 10]⟩
abbrev S256x10 : Shape := ⟨2, ![256, 10]⟩
abbrev S256x32 : Shape := ⟨2, ![256, 32]⟩
abbrev S256x1 : Shape := ⟨2, ![256, 1]⟩
abbrev S4000x256 : Shape := ⟨2, ![4000, 256]⟩

abbrev nBuf : Space → Nat
  | .hbm => 61
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x16, .f32⟩
  | .hbm, ⟨4, _⟩ => ⟨S16, .f32⟩
  | .hbm, ⟨5, _⟩ => ⟨S16x32, .f32⟩
  | .hbm, ⟨6, _⟩ => ⟨S32, .f32⟩
  | .hbm, ⟨7, _⟩ => ⟨S32x10, .f32⟩
  | .hbm, ⟨8, _⟩ => ⟨S10, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .f32⟩
  | .hbm, ⟨14, _⟩ => ⟨S3200000, .f32⟩
  | .hbm, ⟨15, _⟩ => ⟨S_, .f32⟩
  | .hbm, ⟨16, _⟩ => ⟨S100000, .f32⟩
  | .hbm, ⟨17, _⟩ => ⟨S3200000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x16, .bf16⟩
  | .hbm, ⟨25, _⟩ => ⟨S100000x16, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000x16, .bf16⟩
  | .hbm, ⟨35, _⟩ => ⟨S3200000x16, .f32⟩
  | .hbm, ⟨36, _⟩ => ⟨S_, .f32⟩
  | .hbm, ⟨37, _⟩ => ⟨S100000x16, .f32⟩
  | .hbm, ⟨38, _⟩ => ⟨S3200000x1, .i32⟩
  | .hbm, ⟨39, _⟩ => ⟨S100000x16, .f32⟩
  | .hbm, ⟨40, _⟩ => ⟨S1x16, .f32⟩
  | .hbm, ⟨41, _⟩ => ⟨S100000x32, .bf16⟩
  | .hbm, ⟨42, _⟩ => ⟨S100000x32, .f32⟩
  | .hbm, ⟨43, _⟩ => ⟨S_, .i32⟩
  | .hbm, ⟨44, _⟩ => ⟨S3200000, .i32⟩
  | .hbm, ⟨45, _⟩ => ⟨S3200000, .i1⟩
  | .hbm, ⟨46, _⟩ => ⟨S_, .i32⟩
  | .hbm, ⟨47, _⟩ => ⟨S3200000, .i32⟩
  | .hbm, ⟨48, _⟩ => ⟨S3200000, .i32⟩
  | .hbm, ⟨49, _⟩ => ⟨S3200000, .i32⟩
  | .hbm, ⟨50, _⟩ => ⟨S3200000x1, .i32⟩
  | .hbm, ⟨51, _⟩ => ⟨S3200000x32, .bf16⟩
  | .hbm, ⟨52, _⟩ => ⟨S3200000x32, .f32⟩
  | .hbm, ⟨53, _⟩ => ⟨S_, .f32⟩
  | .hbm, ⟨54, _⟩ => ⟨S100000x32, .f32⟩
  | .hbm, ⟨55, _⟩ => ⟨S3200000x1, .i32⟩
  | .hbm, ⟨56, _⟩ => ⟨S100000x32, .f32⟩
  | .hbm, ⟨57, _⟩ => ⟨S100000x1, .i32⟩
  | .hbm, ⟨58, _⟩ => ⟨S1x32, .f32⟩
  | .hbm, ⟨59, _⟩ => ⟨S1x10, .f32⟩
  | .hbm, ⟨60, _⟩ => ⟨S256x10, .f32⟩
  | .local _ .vmem, ⟨0, _⟩ => ⟨S4000x128, .f32⟩
  | .local _ .vmem, ⟨1, _⟩ => ⟨S4000x128, .f32⟩
  | .local _ .vmem, ⟨2, _⟩ => ⟨S128x16, .f32⟩
  | .local _ .vmem, ⟨3, _⟩ => ⟨S4000x1, .f32⟩
  | .local _ .vmem, ⟨4, _⟩ => ⟨S4000x1, .f32⟩
  | .local _ .vmem, ⟨5, _⟩ => ⟨S4000x16, .bf16⟩
  | .local _ .vmem, ⟨6, _⟩ => ⟨S4000x16, .bf16⟩
  | .local _ .vmem, ⟨7, _⟩ => ⟨S4000x16, .f32⟩
  | .local _ .vmem, ⟨8, _⟩ => ⟨S4000x16, .f32⟩
  | .local _ .vmem, ⟨9, _⟩ => ⟨S4000x16, .f32⟩
  | .local _ .vmem, ⟨10, _⟩ => ⟨S4000x16, .f32⟩
  | .local _ .vmem, ⟨11, _⟩ => ⟨S4000x1, .f32⟩
  | .local _ .vmem, ⟨12, _⟩ => ⟨S4000x1, .f32⟩
  | .local _ .vmem, ⟨13, _⟩ => ⟨S4000x16, .f32⟩
  | .local _ .vmem, ⟨14, _⟩ => ⟨S4000x16, .f32⟩
  | .local _ .vmem, ⟨15, _⟩ => ⟨S1x16, .f32⟩
  | .local _ .vmem, ⟨16, _⟩ => ⟨S16x32, .f32⟩
  | .local _ .vmem, ⟨17, _⟩ => ⟨S4000x32, .bf16⟩
  | .local _ .vmem, ⟨18, _⟩ => ⟨S4000x32, .bf16⟩
  | .local _ .vmem, ⟨19, _⟩ => ⟨S4000x32, .f32⟩
  | .local _ .vmem, ⟨20, _⟩ => ⟨S4000x32, .f32⟩
  | .local _ .vmem, ⟨21, _⟩ => ⟨S4000x32, .f32⟩
  | .local _ .vmem, ⟨22, _⟩ => ⟨S4000x32, .f32⟩
  | .local _ .vmem, ⟨23, _⟩ => ⟨S4000x1, .f32⟩
  | .local _ .vmem, ⟨24, _⟩ => ⟨S4000x1, .f32⟩
  | .local _ .vmem, ⟨25, _⟩ => ⟨S4000x32, .f32⟩
  | .local _ .vmem, ⟨26, _⟩ => ⟨S4000x32, .f32⟩
  | .local _ .vmem, ⟨27, _⟩ => ⟨S1x32, .f32⟩
  | .local _ .vmem, ⟨28, _⟩ => ⟨S4000x1, .i32⟩
  | .local _ .vmem, ⟨29, _⟩ => ⟨S4000x1, .i32⟩
  | .local _ .vmem, ⟨30, _⟩ => ⟨S32x10, .f32⟩
  | .local _ .vmem, ⟨31, _⟩ => ⟨S1x10, .f32⟩
  | .local _ .vmem, ⟨32, _⟩ => ⟨S256x10, .f32⟩
  | .local _ .vmem, ⟨33, _⟩ => ⟨S256x32, .f32⟩
  | .local _ .vmem, ⟨34, _⟩ => ⟨S256x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_scratch0 : Ref sig .tc := ⟨.vmem, 33, rfl⟩
abbrev cc2_scratch1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem4_1 : DmaSem sig := 29
abbrev cc2_sem5_0 : DmaSem sig := 30
abbrev cc2_sem6_0 : DmaSem sig := 31
abbrev cc2_sem7_0 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x32 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v40 : BitVec 1 := Scalar.cmpi .eq arg0 c24_i32
  let v41 : BitVec 32 := Scalar.extui v40
  let c0_i32_21 : BitVec 32 := 0#32
  let v42 : BitVec 1 := Scalar.cmpi .ne v41 c0_i32_21
  v42

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S32x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x10 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x16 : S4000x1.Broadcasts S4000x16
  inb_S4000x16_S4000x16_0_0 : ∀ a, (![0, 0] : Fin 2 → Nat) a + S4000x16.size a ≤ S4000x16.size a
  h_S4000x16 : 0 < S4000x16.numel
  packedbf16_S4000x16_S4000x16_0_0 : (Rect.unit (s := S4000x16) ![0, 0] S4000x16.size inb_S4000x16_S4000x16_0_0).PackedRows (EltTy.packing .bf16)
  bcast_S_S100000x16 : S_.BroadcastsInDim S100000x16 (![] : Fin 0 → Fin S100000x16.rank)
  shapeCasts_S16_S1x16 : S16.ShapeCasts S1x16
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x32_S16x32_0_0 : ∀ a, (![0, 0] : Fin 2 → Nat) a + S16x32.size a ≤ S16x32.size a
  h_S16x32 : 0 < S16x32.numel
  broadcasts_S4000x1_S4000x32 : S4000x1.Broadcasts S4000x32
  inb_S4000x32_S4000x32_0_0 : ∀ a, (![0, 0] : Fin 2 → Nat) a + S4000x32.size a ≤ S4000x32.size a
  h_S4000x32 : 0 < S4000x32.numel
  packedbf16_S4000x32_S4000x32_0_0 : (Rect.unit (s := S4000x32) ![0, 0] S4000x32.size inb_S4000x32_S4000x32_0_0).PackedRows (EltTy.packing .bf16)
  bcast_S_S100000x32 : S_.BroadcastsInDim S100000x32 (![] : Fin 0 → Fin S100000x32.rank)
  shapeCasts_S32_S1x32 : S32.ShapeCasts S1x32
  shapeCasts_S10_S1x10 : S10.ShapeCasts S1x10
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S4000x32_S4000x32 : S4000x32.ShapeCasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  iota_S4000x256_d1_w32 : S4000x256.Iotas .tc 32 [1]
  broadcasts_S4000x1_S4000x256 : S4000x1.Broadcasts S4000x256
  natLt_1_32 : 1 < 32
  broadcasts_S256x1_S256x32 : S256x1.Broadcasts S256x32
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  inb_S256x10_S256x10_0_0 : ∀ a, (![0, 0] : Fin 2 → Nat) a + S256x10.size a ≤ S256x10.size a
  h_S256x10 : 0 < S256x10.numel
  scatter_S100000_S3200000x1_S3200000_n_0_0_1_wf : ScatterDims.WF S100000 S3200000x1 S3200000 [] [0] [0] 1
  dot_S4000x128_S128x16_S4000x16_1_0_0_1_n_n_wf : DotDims.WF S4000x128 S128x16 S4000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S4000x16_S16x32_S4000x32_1_0_0_1_n_n_wf : DotDims.WF S4000x16 S16x32 S4000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S4000x256_S4000x32_S256x32_0_0_1_1_n_n_wf : DotDims.WF S4000x256 S4000x32 S256x32 [0] [0] [1] [1] [] []
  dot_S4000x256_S4000x1_S256x1_0_0_1_1_n_n_wf : DotDims.WF S4000x256 S4000x1 S256x1 [0] [0] [1] [1] [] []
  dot_S256x32_S32x10_S256x10_1_0_0_1_n_n_wf : DotDims.WF S256x32 S32x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x16.size a ≤ S100000x16.size a
  hwx0_3 : ∀ i : grid0.Coords, EltTy.bits .bf16 = 32 ∨ (Rect.block (s := S100000x16) S4000x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x16.size a ≤ S100000x16.size a
  hwx0_4 : ∀ i : grid0.Coords, EltTy.bits .f32 = 32 ∨ (Rect.block (s := S100000x16) S4000x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x16.size a ≤ S100000x16.size a
  hwx1_2 : ∀ i : grid1.Coords, EltTy.bits .f32 = 32 ∨ (Rect.block (s := S100000x16) S4000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x32.size a ≤ S16x32.size a
  hwx1_4 : ∀ i : grid1.Coords, EltTy.bits .f32 = 32 ∨ (Rect.block (s := S16x32) S16x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x32.size a ≤ S100000x32.size a
  hwx1_5 : ∀ i : grid1.Coords, EltTy.bits .bf16 = 32 ∨ (Rect.block (s := S100000x32) S4000x32.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x32.size a ≤ S100000x32.size a
  hwx1_6 : ∀ i : grid1.Coords, EltTy.bits .f32 = 32 ∨ (Rect.block (s := S100000x32) S4000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x32.size a ≤ S100000x32.size a
  hwx2_2 : ∀ i : grid2.Coords, EltTy.bits .f32 = 32 ∨ (Rect.block (s := S100000x32) S4000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x1.size a ≤ S100000x1.size a
  hwx2_4 : ∀ i : grid2.Coords, EltTy.bits .i32 = 32 ∨ (Rect.block (s := S100000x1) S4000x1.size (cc2_transform_4 i) (hinb2_4 i)).WholeWords (EltTy.packing .i32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x10.size a ≤ S32x10.size a
  hwx2_5 : ∀ i : grid2.Coords, EltTy.bits .f32 = 32 ∨ (Rect.block (s := S32x10) S32x10.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x10.size a ≤ S1x10.size a
  hwx2_6 : ∀ i : grid2.Coords, EltTy.bits .f32 = 32 ∨ (Rect.block (s := S1x10) S1x10.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x10.size a ≤ S256x10.size a
  hwx2_7 : ∀ i : grid2.Coords, EltTy.bits .f32 = 32 ∨ (Rect.block (s := S256x10) S256x10.size (cc2_transform_7 i) (hinb2_7 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S4000x16_S16x32_S4000x32_1_0_0_1_n_n : DotDims S4000x16 S16x32 S4000x32 where
  lhsContracting := [1]
  rhsContracting := [0]
  lhsNonContracting := [0]
  rhsNonContracting := [1]
  lhsBatch := []
  rhsBatch := []
  wf := dot_S4000x16_S16x32_S4000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S4000x256_S4000x32_S256x32_0_0_1_1_n_n : DotDims S4000x256 S4000x32 S256x32 where
  lhsContracting := [0]
  rhsContracting := [0]
  lhsNonContracting := [1]
  rhsNonContracting := [1]
  lhsBatch := []
  rhsBatch := []
  wf := dot_S4000x256_S4000x32_S256x32_0_0_1_1_n_n_wf
def dot_S4000x256_S4000x1_S256x1_0_0_1_1_n_n : DotDims S4000x256 S4000x1 S256x1 where
  lhsContracting := [0]
  rhsContracting := [0]
  lhsNonContracting := [1]
  rhsNonContracting := [1]
  lhsBatch := []
  rhsBatch := []
  wf := dot_S4000x256_S4000x1_S256x1_0_0_1_1_n_n_wf
def dot_S256x32_S32x10_S256x10_1_0_0_1_n_n : DotDims S256x32 S32x10 S256x10 where
  lhsContracting := [1]
  rhsContracting := [0]
  lhsNonContracting := [0]
  rhsNonContracting := [1]
  lhsBatch := []
  rhsBatch := []
  wf := dot_S256x32_S32x10_S256x10_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S4000x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S4000x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v23) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12_1) S4000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S16x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25_0) S4000x32.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v25_1) S4000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v36) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25_1) S4000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S4000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S32x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S1x10.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v40) S256x10.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S16x32 : Shape := ⟨2, ![16, 32]⟩
abbrev S32 : Shape := ⟨1, ![32]⟩
abbrev S32x10 : Shape := ⟨2, ![32, 10]⟩
abbrev S10 : Shape := ⟨1, ![10]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x32 : Shape := ⟨2, ![100000, 32]⟩
abbrev S3300000x32 : Shape := ⟨2, ![3300000, 32]⟩
abbrev S1x32 : Shape := ⟨2, ![1, 32]⟩
abbrev S256x32 : Shape := ⟨2, ![256, 32]⟩
abbrev S100000x1 : Shape := ⟨2, ![100000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x16, .f32⟩
  | .hbm, ⟨4, _⟩ => ⟨S16, .f32⟩
  | .hbm, ⟨5, _⟩ => ⟨S16x32, .f32⟩
  | .hbm, ⟨6, _⟩ => ⟨S32, .f32⟩
  | .hbm, ⟨7, _⟩ => ⟨S32x10, .f32⟩
  | .hbm, ⟨8, _⟩ => ⟨S10, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S3300000, .i32⟩
  | .hbm, ⟨25, _⟩ => ⟨S3300000, .i1⟩
  | .hbm, ⟨26, _⟩ => ⟨S_, .i32⟩
  | .hbm, ⟨27, _⟩ => ⟨S3300000, .i32⟩
  | .hbm, ⟨28, _⟩ => ⟨S3300000, .i32⟩
  | .hbm, ⟨29, _⟩ => ⟨S3300000, .i32⟩
  | .hbm, ⟨30, _⟩ => ⟨S3300000x1, .i32⟩
  | .hbm, ⟨31, _⟩ => ⟨S3300000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S3300000, .f32⟩
  | .hbm, ⟨42, _⟩ => ⟨S100000x16, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000x16, .f32⟩
  | .hbm, ⟨52, _⟩ => ⟨S3300000x1, .f32⟩
  | .hbm, ⟨53, _⟩ => ⟨S3300000x16, .f32⟩
  | .hbm, ⟨54, _⟩ => ⟨S3300000x16, .f32⟩
  | .hbm, ⟨55, _⟩ => ⟨S_, .f32⟩
  | .hbm, ⟨56, _⟩ => ⟨S100000x16, .f32⟩
  | .hbm, ⟨57, _⟩ => ⟨S3300000x1, .i32⟩
  | .hbm, ⟨58, _⟩ => ⟨S100000x16, .f32⟩
  | .hbm, ⟨59, _⟩ => ⟨S1x16, .f32⟩
  | .hbm, ⟨60, _⟩ => ⟨S100000x16, .f32⟩
  | .hbm, ⟨61, _⟩ => ⟨S100000x16, .f32⟩
  | .hbm, ⟨62, _⟩ => ⟨S_, .f32⟩
  | .hbm, ⟨63, _⟩ => ⟨S100000x16, .f32⟩
  | .hbm, ⟨64, _⟩ => ⟨S100000x16, .f32⟩
  | .hbm, ⟨65, _⟩ => ⟨S100000x32, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x32, .f32⟩
  | .hbm, ⟨75, _⟩ => ⟨S3300000x1, .f32⟩
  | .hbm, ⟨76, _⟩ => ⟨S3300000x32, .f32⟩
  | .hbm, ⟨77, _⟩ => ⟨S3300000x32, .f32⟩
  | .hbm, ⟨78, _⟩ => ⟨S_, .f32⟩
  | .hbm, ⟨79, _⟩ => ⟨S100000x32, .f32⟩
  | .hbm, ⟨80, _⟩ => ⟨S3300000x1, .i32⟩
  | .hbm, ⟨81, _⟩ => ⟨S100000x32, .f32⟩
  | .hbm, ⟨82, _⟩ => ⟨S1x32, .f32⟩
  | .hbm, ⟨83, _⟩ => ⟨S100000x32, .f32⟩
  | .hbm, ⟨84, _⟩ => ⟨S100000x32, .f32⟩
  | .hbm, ⟨85, _⟩ => ⟨S_, .f32⟩
  | .hbm, ⟨86, _⟩ => ⟨S100000x32, .f32⟩
  | .hbm, ⟨87, _⟩ => ⟨S100000x32, .f32⟩
  | .hbm, ⟨88, _⟩ => ⟨S_, .f32⟩
  | .hbm, ⟨89, _⟩ => ⟨S256x32, .f32⟩
  | .hbm, ⟨90, _⟩ => ⟨S100000x1, .i32⟩
  | .hbm, ⟨91, _⟩ => ⟨S256x32, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S256, .f32⟩
  | .hbm, ⟨96, _⟩ => ⟨S100000x1, .i32⟩
  | .hbm, ⟨97, _⟩ => ⟨S256, .f32⟩
  | .hbm, ⟨98, _⟩ => ⟨S_, .f32⟩
  | .hbm, ⟨99, _⟩ => ⟨S256, .f32⟩
  | .hbm, ⟨100, _⟩ => ⟨S256, .f32⟩
  | .hbm, ⟨101, _⟩ => ⟨S256x1, .f32⟩
  | .hbm, ⟨102, _⟩ => ⟨S256x32, .f32⟩
  | .hbm, ⟨103, _⟩ => ⟨S256x32, .f32⟩
  | .hbm, ⟨104, _⟩ => ⟨S256x10, .f32⟩
  | .hbm, ⟨105, _⟩ => ⟨S1x10, .f32⟩
  | .hbm, ⟨106, _⟩ => ⟨S256x10, .f32⟩
  | .hbm, ⟨107, _⟩ => ⟨S256x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_c_7 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call1_cst : Ref sig .tc := ⟨.hbm, 85, rfl⟩
abbrev main_call1_v0 : Ref sig .tc := ⟨.hbm, 86, rfl⟩
abbrev main_v62 : Ref sig .tc := ⟨.hbm, 87, rfl⟩
abbrev main_cst_10 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S256x32 : S_.BroadcastsInDim S256x32 (![] : Fin 0 → Fin S256x32.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x32_0_1 : S256x1.BroadcastsInDim S256x32 (![0, 1] : Fin 2 → Fin S256x32.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x32_S100000x32_1_0_0_1_n_n_wf : DotDims.WF S100000x16 S16x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  scatter_S256x32_S100000x1_S100000x32_1_0_0_1_wf : ScatterDims.WF S256x32 S100000x1 S100000x32 [1] [0] [0] 1
  scatter_S256_S100000x1_S100000_n_0_0_1_wf : ScatterDims.WF S256 S100000x1 S100000 [] [0] [0] 1
  dot_S256x32_S32x10_S256x10_1_0_0_1_n_n_wf : DotDims.WF S256x32 S32x10 S256x10 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def scatter_S256x32_S100000x1_S100000x32_1_0_0_1 : ScatterDims S256x32 S100000x1 S100000x32 where
  updateWindowDims := [1]
  insertedWindowDims := [0]
  scatterDimsToOperandDims := [0]
  indexVectorDim := 1
  wf := scatter_S256x32_S100000x1_S100000x32_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x32_S32x10_S256x10_1_0_0_1_n_n : DotDims S256x32 S32x10 S256x10 where
  lhsContracting := [1]
  rhsContracting := [0]
  lhsNonContracting := [0]
  rhsNonContracting := [1]
  lhsBatch := []
  rhsBatch := []
  wf := dot_S256x32_S32x10_S256x10_1_0_0_1_n_n_wf

class Facts : Prop extends Facts₀ where

variable [Facts]
-- ==== Proof.K.Region0.lean ====
/-
  The frame half of the first TensorCore region of the kernel program (the node features times the first weight,
  scaled by the normalising factor), at a parameter `V`: the TensorCore's buffer contents when the region is entered.

  The region walks 25 grid points.  At point t it sees five windows: rows [4000 t, 4000 t + 4000) of the node
  features (128 columns), the whole 128 x 16 weight (resident: brought in once, its block index never moves), the
  same rows of the one-column factor, and the same rows of two 16-column results, one of half-width floats and one
  of single floats.  The body reads the three inputs whole, reads each result buffer (the value is dropped) and
  overwrites it whole.  So what a result buffer holds after the body is a closed function of the three input blocks
  at the point (`out0_3`, `out0_4`): the one store's payload laid over the whole buffer.

  Stated here: each window's block at a point as read off `V` (`iblk0`); that an input's staging buffer holds its
  block at every point whether or not it was brought in there (`before0_W`); the body's triple on whole staging
  buffers (`sound_kernel0`); the proof data of the pipeline (`dat0`) and its body obligation at every point
  (`body_obligation0`).  Everything is generic in the float model `F`.
-/
import proofs.«400167_j37993280700520_3_alg».proof.Proof.Gen.Kernel.Launch
import proofs.«400167_j37993280700520_3_alg».proof.Proof.Gen.Kernel.Skeleton
import proofs.«400167_j37993280700520_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4000 rows: the structural check recurses once per coordinate of the long axis
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`: the window's view at that point reading its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The node features' staging buffer holds rows [4000 t, 4000 t + 4000) at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point: it is brought in at the first point only, and
    at a later point its block index is the one before's, so the buffer, which the body leaves as found, still holds
    this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The factor's staging buffer holds rows [4000 t, 4000 t + 4000) of the factor at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_0 : Rect S4000x128 := Rect.unit (s := S4000x128) ![0, 0] S4000x128.size inb_S4000x128_S4000x128_0_0
abbrev r0_1 : Rect S128x16 := Rect.unit (s := S128x16) ![0, 0] S128x16.size inb_S128x16_S128x16_0_0
abbrev r0_2 : Rect S4000x1 := Rect.unit (s := S4000x1) ![0, 0] S4000x1.size inb_S4000x1_S4000x1_0_0
abbrev r0_3 : Rect S4000x16 := Rect.unit (s := S4000x16) ![0, 0] S4000x16.size inb_S4000x16_S4000x16_0_0

/-! ## What the body leaves in each result window's buffer -/

/-- The half-width result's staging buffer after the body, from the three input blocks: its one whole-buffer
    store, the product of the features and the weight scaled once by the factor, narrowed. -/
def out0_3 (x0 : Vec F S4000x128 .f32) (x1 : Vec F S128x16 .f32) (x2 : Vec F S4000x1 .f32) : Vec F S4000x16 .bf16 :=
  View.canon [⟨r0_3, k0_pay3 (View.ld x0 r0_0) (View.ld x1 r0_1) (View.ld x2 r0_2)⟩]

/-- The single-float result's staging buffer after the body: its one whole-buffer store, the same product scaled
    twice by the factor. -/
def out0_4 (x0 : Vec F S4000x128 .f32) (x1 : Vec F S128x16 .f32) (x2 : Vec F S4000x1 .f32) : Vec F S4000x16 .f32 :=
  View.canon [⟨r0_3, k0_pay4 (View.ld x0 r0_0) (View.ld x1 r0_1) (View.ld x2 r0_2)⟩]

/-- One store of the whole buffer covers it (the half-width result). -/
theorem cover0_3 (p0 : Vec F S4000x16 .bf16) (y : S4000x16.Idx) :
    ∃ pc ∈ ([⟨r0_3, p0⟩] : List (View.Piece (Elt F) S4000x16 .bf16)), y ∈ pc.1.set :=
  View.cover_of_tiled [⟨r0_3, p0⟩] S4000x16.size (by rfl) y

/-- One store of the whole buffer covers it (the single-float result). -/
theorem cover0_4 (p0 : Vec F S4000x16 .f32) (y : S4000x16.Idx) :
    ∃ pc ∈ ([⟨r0_3, p0⟩] : List (View.Piece (Elt F) S4000x16 .f32)), y ∈ pc.1.set :=
  View.cover_of_tiled [⟨r0_3, p0⟩] S4000x16.size (by rfl) y

/-! ## The body's triple -/

set_option maxHeartbeats 1000000 in
/-- The kernel body on whole staging buffers, the inputs' at read contents `x0 x1 x2` and the results' at anything, runs
    to the continuation holding the inputs' as they were and each result's at `out0_W` of the inputs.  The body's two
    reads of the result buffers find whatever is there and the values are dropped. -/
theorem sound_kernel0 (c : Dev nD) (E : Set ℕ) (i : grid0.Coords) (arg1 : Memref sig .tc .vmem S4000x128 .f32) (harg1 : arg1.IsWhole) (arg2 : Memref sig .tc .vmem S128x16 .f32) (harg2 : arg2.IsWhole) (arg3 : Memref sig .tc .vmem S4000x1 .f32) (harg3 : arg3.IsWhole) (arg4 : Memref sig .tc .vmem S4000x16 .bf16) (harg4 : arg4.IsWhole) (arg5 : Memref sig .tc .vmem S4000x16 .f32) (harg5 : arg5.IsWhole)
    (x0 : Vec F S4000x128 .f32) (x1 : Vec F S128x16 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__matmul_scale_kernel i arg1 harg1 arg2 harg2 arg3 harg3 arg4 harg4 arg5 harg5) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of the region's pipeline on core `c`: the arrays as the region finds them; after the body at point
    `t` each input's buffer at its block and each result's at `out0_W` of the input blocks; the invariant is the
    untouched scoped rest and generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current staging buffer holds its block at every point, brought in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's debts, and the five staging buffers whole, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Frame

end
-- ==== Proof.K.Region1.lean ====
/-
  Region 1 (the second convolution layer's dense half), the body's side of its frame, at any float
  model and at parameter contents V of the core's buffers when the region is entered.

  The kernel at grid point t reads five blocks: rows [4000 t, 4000 t + 4000) of the aggregate (16 wide), of the
  per-node factor (1 wide) and of the self-loop term (16 wide), and the whole bias row (1 x 16) and weight
  (16 x 32), the last two resident: brought in at the first point and never moved.  It overwrites the whole of
  two output blocks (4000 x 32, one narrow and one wide), each by a single store that covers the buffer, so
  what it leaves in them is a closed function of the five input blocks.
-/
import proofs.«400167_j37993280700520_3_alg».proof.Proof.Gen.Kernel.Launch
import proofs.«400167_j37993280700520_3_alg».proof.Proof.Gen.Kernel.Skeleton
import proofs.«400167_j37993280700520_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the contents of the core's buffers when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether or not it was brought in there:
    where it was not, the block index has not moved since the point before, and the body leaves the buffer as
    it found it.  Stated for any proof data over the entry arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The two resident windows: brought in once, at the first point; their block index is constant, so the same
    argument applies at every later point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_0 : Rect S4000x1 := Rect.unit (s := S4000x1) ![0, 0] S4000x1.size inb_S4000x1_S4000x1_0_0
abbrev r1_1 : Rect S4000x16 := Rect.unit (s := S4000x16) ![0, 0] S4000x16.size inb_S4000x16_S4000x16_0_0
abbrev r1_2 : Rect S1x16 := Rect.unit (s := S1x16) ![0, 0] S1x16.size inb_S1x16_S1x16_0_0
abbrev r1_3 : Rect S16x32 := Rect.unit (s := S16x32) ![0, 0] S16x32.size inb_S16x32_S16x32_0_0
abbrev r1_4 : Rect S4000x32 := Rect.unit (s := S4000x32) ![0, 0] S4000x32.size inb_S4000x32_S4000x32_0_0

/-! ## What the body leaves in each output window's buffer -/

/-- The narrow output's buffer after the body, from the five input blocks (in window order): its one store. -/
def out1_5 (x0 : Vec F S4000x16 .f32) (x1 : Vec F S4000x1 .f32) (x2 : Vec F S4000x16 .f32) (x3 : Vec F S1x16 .f32) (x4 : Vec F S16x32 .f32) : Vec F S4000x32 .bf16 :=
  View.canon [⟨r1_4, k1_pay3 (View.ld x1 r1_0) (View.ld x0 r1_1) (View.ld x2 r1_1) (View.ld x3 r1_2) (View.ld x4 r1_3)⟩]

/-- The wide output's buffer after the body, likewise. -/
def out1_6 (x0 : Vec F S4000x16 .f32) (x1 : Vec F S4000x1 .f32) (x2 : Vec F S4000x16 .f32) (x3 : Vec F S1x16 .f32) (x4 : Vec F S16x32 .f32) : Vec F S4000x32 .f32 :=
  View.canon [⟨r1_4, k1_pay4 (View.ld x1 r1_0) (View.ld x0 r1_1) (View.ld x2 r1_1) (View.ld x3 r1_2) (View.ld x4 r1_3)⟩]

/-- The one store of each output is of the whole buffer, so it covers it. -/
theorem cover1_5 (p0 : Vec F S4000x32 .bf16) (y : S4000x32.Idx) :
    ∃ pc ∈ ([⟨r1_4, p0⟩] : List (View.Piece (Elt F) S4000x32 .bf16)), y ∈ pc.1.set :=
  View.cover_of_tiled [⟨r1_4, p0⟩] S4000x32.size (by rfl) y
theorem cover1_6 (p0 : Vec F S4000x32 .f32) (y : S4000x32.Idx) :
    ∃ pc ∈ ([⟨r1_4, p0⟩] : List (View.Piece (Elt F) S4000x32 .f32)), y ∈ pc.1.set :=
  View.cover_of_tiled [⟨r1_4, p0⟩] S4000x32.size (by rfl) y

/-! ## The body's triple -/

set_option maxHeartbeats 1000000 in
/-- The body on whole buffers, the five inputs' at contents x0 .. x4 and the two outputs' at anything, runs to a
    state where the inputs' are as they were and the outputs' hold out1_5 and out1_6 of the inputs.  (The body
    also loads each output buffer before it stores into it; the loaded value is not used.) -/
theorem sound_kernel1 (c : Dev nD) (E : Set ℕ) (i : grid1.Coords)
    (arg1 : Memref sig .tc .vmem S4000x16 .f32) (harg1 : arg1.IsWhole) (arg2 : Memref sig .tc .vmem S4000x1 .f32) (harg2 : arg2.IsWhole)
    (arg3 : Memref sig .tc .vmem S4000x16 .f32) (harg3 : arg3.IsWhole) (arg4 : Memref sig .tc .vmem S1x16 .f32) (harg4 : arg4.IsWhole)
    (arg5 : Memref sig .tc .vmem S16x32 .f32) (harg5 : arg5.IsWhole) (arg6 : Memref sig .tc .vmem S4000x32 .bf16) (harg6 : arg6.IsWhole)
    (arg7 : Memref sig .tc .vmem S4000x32 .f32) (harg7 : arg7.IsWhole)
    (x0 : Vec F S4000x16 .f32) (x1 : Vec F S4000x1 .f32) (x2 : Vec F S4000x16 .f32) (x3 : Vec F S1x16 .f32) (x4 : Vec F S16x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__gcn_layer_kernel i arg1 harg1 arg2 harg2 arg3 harg3 arg4 harg4 arg5 harg5 arg6 harg6 arg7 harg7) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The pipeline's proof data -/

/-- The proof data of the region's pipeline on core c: the arrays as the region finds them; after the body at
    point t each input's buffer at its block and each output's at out1_5 / out1_6 of the input blocks; the
    invariant is the untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Frame

end
-- ==== Proof.K.Region2Body.lean ====
/- The pooling and read-out region at one grid point. The node rows are visited in 25 blocks of 4000; two
   accumulators are carried from block to block: per graph, the sum of its nodes' activated second-layer
   feature rows (256 by 32), and the number of its nodes (256 by 1). Five functions name what a point leaves:
   sumZero and cntZero, the accumulators once cleared (all zeros); sumNext and cntNext, the accumulators after
   a block is added to the values found (a node's row and a count of one go to the graph its id names); and
   outLast, the result block (256 by 10): the per-graph mean, the count taken as at least one, times the
   read-out weight, plus the read-out bias. The three theorems at the end state the body's behaviour: at the
   first point the accumulators are cleared and then the block is added; at a middle point the block is added
   to what was found; at the last point the block is added and the result block is stored from the completed
   accumulators. The result block is left unstored at every point but the last. -/
import proofs.«400167_j37993280700520_3_alg».proof.Proof.Gen.Kernel.Launch
import proofs.«400167_j37993280700520_3_alg».proof.Proof.Gen.Kernel.Skeleton
import proofs.«400167_j37993280700520_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

/-! # The pooling and read-out kernel at one grid point

The third kernel walks the node rows in 25 blocks of 4000. It carries two running totals from block to
block: per graph, the sum of the second layer's activated features of its nodes (256 by 32), and the number
of its nodes (256 by 1). At the first block both totals are cleared before the block is added; at every
block the block's contribution is added; at the last block the totals are turned into the mean, multiplied
by the read-out weight, and shifted by the read-out bias, which is the kernel's only output (256 by 10).

This module names what one block does to the totals and to the output, as functions of the block's inputs
and of the totals it found, and proves, for the three kinds of point, that the kernel body leaves exactly
those values. -/

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point leaves -/

/-- The feature totals after the first point's clearing: zero everywhere. -/
def sumZero : Vec F S256x32 .f32 := k2_pay3

/-- The node counts after the first point's clearing: zero everywhere. -/
def cntZero : Vec F S256x1 .f32 := k2_pay4

/-- The feature totals after a point that found them at `s`: to `s` is added, per graph, the sum over the
    block's rows belonging to that graph of the activated second-layer feature row (the factor `x1` times the
    aggregate `x0`, plus the self-loop term `x2`, plus the bias `x3`, clipped below at zero), the membership
    read off the graph ids `x4`. -/
def sumNext (x0 : Vec F S4000x32 .f32) (x1 : Vec F S4000x1 .f32) (x2 : Vec F S4000x32 .f32) (x3 : Vec F S1x32 .f32)
    (x4 : Vec F S4000x1 .i32) (s : Vec F S256x32 .f32) : Vec F S256x32 .f32 :=
  k2_pay7 x1 x0 x2 x3 x4 s

/-- The node counts after a point that found them at `s`: to `s` is added, per graph, the number of the
    block's rows whose graph id `x4` names that graph. -/
def cntNext (x4 : Vec F S4000x1 .i32) (s : Vec F S256x1 .f32) : Vec F S256x1 .f32 :=
  k2_pay1 (k2_pay6 x4) s

/-- The output the last point stores, from the totals `s9`, `s10` it has just completed: the per-graph mean
    (the feature total over the count, the count taken as at least one) times the read-out weight `x5`, plus
    the read-out bias `x6`. -/
def outLast (x5 : Vec F S32x10 .f32) (x6 : Vec F S1x10 .f32) (s9 : Vec F S256x32 .f32) (s10 : Vec F S256x1 .f32) :
    Vec F S256x10 .f32 :=
  k2_pay2 s9 s10 x5 x6

theorem sumZero_eq : sumZero (F := F) = k2_pay3 := rfl
theorem cntZero_eq : cntZero (F := F) = k2_pay4 := rfl
theorem sumNext_eq (x0 : Vec F S4000x32 .f32) (x1 : Vec F S4000x1 .f32) (x2 : Vec F S4000x32 .f32) (x3 : Vec F S1x32 .f32)
    (x4 : Vec F S4000x1 .i32) (s : Vec F S256x32 .f32) : sumNext x0 x1 x2 x3 x4 s = k2_pay7 x1 x0 x2 x3 x4 s := rfl
theorem cntNext_eq (x4 : Vec F S4000x1 .i32) (s : Vec F S256x1 .f32) : cntNext x4 s = k2_pay1 (k2_pay6 x4) s := rfl
theorem outLast_eq (x5 : Vec F S32x10 .f32) (x6 : Vec F S1x10 .f32) (s9 : Vec F S256x32 .f32) (s10 : Vec F S256x1 .f32) :
    outLast x5 x6 s9 s10 = k2_pay2 s9 s10 x5 x6 := rfl

/-! ## The branch conditions, decided over the 25 block numbers -/

/-- The clearing branch is taken exactly at block 0. -/
theorem first_cond_iff (n : Fin 25) :
    (Scalar.cmpi .ne (Scalar.extui (Scalar.cmpi .eq (BitVec.ofNat 32 n.val) 0#32)) 0#32 = 1#1) ↔ n.val = 0 := by
  revert n; decide +kernel

/-- The read-out branch is taken exactly at block 24. -/
theorem last_cond_iff (i : grid2.Coords) : k2_cond2 i = 1#1 ↔ (i 0).val = 24 := by
  have h : ∀ n : Fin 25,
      (Scalar.cmpi .ne (Scalar.extui (Scalar.cmpi .eq (BitVec.ofNat 32 n.val) 24#32)) 0#32 = 1#1) ↔ n.val = 24 := by
    decide +kernel
  exact h (i 0)

/-! ## Whole-buffer stores and loads -/

/-- The offsets of every access of this kernel: zero on both axes. -/
theorem off_zero : (![0, 0] : Fin 2 → Nat) = fun _ => 0 := funext fun a => by fin_cases a <;> rfl

/-- A buffer whose LAST store went through the whole-shape rectangle reads as that store's payload, whatever
    was stored before and whatever it held at first. -/
theorem read_writes_whole {S : Shape} {e : EltTy} {sp : Space} (v : View sig .tc sp S e) (f : v.ty.Contents (Elt F))
    {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-! ## The three kinds of point -/

set_option maxHeartbeats 4000000 in
/-- The first point: whatever the totals held, they are cleared and the block is added to the cleared totals; the output buffer is not stored into. -/
theorem sound_kernel2_first (c : Dev nD) (E : Set ℕ) (i : grid2.Coords) (hi : (i 0).val = 0)
    (arg1 : Memref sig .tc .vmem S4000x32 .f32) (harg1 : arg1.IsWhole) (arg2 : Memref sig .tc .vmem S4000x1 .f32) (harg2 : arg2.IsWhole) (arg3 : Memref sig .tc .vmem S4000x32 .f32) (harg3 : arg3.IsWhole) (arg4 : Memref sig .tc .vmem S1x32 .f32) (harg4 : arg4.IsWhole) (arg5 : Memref sig .tc .vmem S4000x1 .i32) (harg5 : arg5.IsWhole) (arg6 : Memref sig .tc .vmem S32x10 .f32) (harg6 : arg6.IsWhole) (arg7 : Memref sig .tc .vmem S1x10 .f32) (harg7 : arg7.IsWhole) (arg8 : Memref sig .tc .vmem S256x10 .f32) (harg8 : arg8.IsWhole) (arg9 : Memref sig .tc .vmem S256x32 .f32) (harg9 : arg9.IsWhole) (arg10 : Memref sig .tc .vmem S256x1 .f32) (harg10 : arg10.IsWhole)
    (x0 : Vec F S4000x32 .f32) (x1 : Vec F S4000x1 .f32) (x2 : Vec F S4000x32 .f32) (x3 : Vec F S1x32 .f32) (x4 : Vec F S4000x1 .i32) (x5 : Vec F S32x10 .f32) (x6 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ owns (c : Thread nD τ) arg9 fullShare (sumNext x0 x1 x2 x3 x4 sumZero) ∗ owns (c : Thread nD τ) arg10 fullShare (cntNext x4 cntZero)) -∗ K ⟨⟩))
      ⊢ wp frame (wpE (defs₀ (F := F)) Variants.none c none) E (cc2__pool_fc_kernel i arg1 harg1 arg2 harg2 arg3 harg3 arg4 harg4 arg5 harg5 arg6 harg6 arg7 harg7 arg8 harg8 arg9 harg9 arg10 harg10) K := by
  simp only [cc2__pool_fc_kernel_eq_skeleton]; unfold cc2__pool_fc_kernel_skel
  simp only [k2_part1_eq_skeleton]; unfold k2_part1_skel
  have hc1 : (Scalar.cmpi .ne (Scalar.extui (Scalar.cmpi .eq (BitVec.ofNat 32 (i 0).val) 0#32)) 0#32) = 1#1 :=
    (first_cond_iff (i 0)).mpr hi
  have hc2 : ¬ (k2_cond2 i = 1#1) := fun h => by have h0 := (last_cond_iff i).mp h; omega
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf1 hf2 hf3 hf4 hf5 hf6 hf7
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _, f8; isplitr; · ipureintro; rfl
    iexact H8
  isplitl [H9]
  · iexists _; isplitr
    swap; · iexact H9
    ipureintro
    refine (read_writes_whole (S := S256x32) _ _ off_zero _ _ _).trans ?_
    sl_unfold_words
    simp only [View.readAt_eq_ld, View.ld_unit_zero (S := S4000x32) off_zero, View.ld_unit_zero (S := S4000x1) off_zero,
      View.ld_unit_zero (S := S1x32) off_zero, View.ld_unit_zero (S := S256x32) off_zero, View.ld_unit_zero (S := S256x1) off_zero,
      View.ld_unit_zero (S := S32x10) off_zero, View.ld_unit_zero (S := S1x10) off_zero,
      View.readCov_unit_zero (S := S256x32) _ off_zero, View.readCov_unit_zero (S := S256x1) _ off_zero]
    rfl
  iexists _; isplitr
  swap; · iexact H10
  ipureintro
  refine (read_writes_whole (S := S256x1) _ _ off_zero _ _ _).trans ?_
  sl_unfold_words
  simp only [View.readAt_eq_ld, View.ld_unit_zero (S := S4000x32) off_zero, View.ld_unit_zero (S := S4000x1) off_zero,
      View.ld_unit_zero (S := S1x32) off_zero, View.ld_unit_zero (S := S256x32) off_zero, View.ld_unit_zero (S := S256x1) off_zero,
      View.ld_unit_zero (S := S32x10) off_zero, View.ld_unit_zero (S := S1x10) off_zero,
    View.readCov_unit_zero (S := S256x32) _ off_zero, View.readCov_unit_zero (S := S256x1) _ off_zero]
  rfl

set_option maxHeartbeats 4000000 in
/-- A middle point: the block is added to the totals it found; the output buffer is not stored into. -/
theorem sound_kernel2_mid (c : Dev nD) (E : Set ℕ) (i : grid2.Coords) (hi0 : (i 0).val ≠ 0) (hi1 : (i 0).val ≠ 24)
    (arg1 : Memref sig .tc .vmem S4000x32 .f32) (harg1 : arg1.IsWhole) (arg2 : Memref sig .tc .vmem S4000x1 .f32) (harg2 : arg2.IsWhole) (arg3 : Memref sig .tc .vmem S4000x32 .f32) (harg3 : arg3.IsWhole) (arg4 : Memref sig .tc .vmem S1x32 .f32) (harg4 : arg4.IsWhole) (arg5 : Memref sig .tc .vmem S4000x1 .i32) (harg5 : arg5.IsWhole) (arg6 : Memref sig .tc .vmem S32x10 .f32) (harg6 : arg6.IsWhole) (arg7 : Memref sig .tc .vmem S1x10 .f32) (harg7 : arg7.IsWhole) (arg8 : Memref sig .tc .vmem S256x10 .f32) (harg8 : arg8.IsWhole) (arg9 : Memref sig .tc .vmem S256x32 .f32) (harg9 : arg9.IsWhole) (arg10 : Memref sig .tc .vmem S256x1 .f32) (harg10 : arg10.IsWhole)
    (x0 : Vec F S4000x32 .f32) (x1 : Vec F S4000x1 .f32) (x2 : Vec F S4000x32 .f32) (x3 : Vec F S1x32 .f32) (x4 : Vec F S4000x1 .i32) (x5 : Vec F S32x10 .f32) (x6 : Vec F S1x10 .f32) (s9 : Vec F S256x32 .f32) (s10 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare s9 ∗ owns (c : Thread nD τ) arg10 fullShare s10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ owns (c : Thread nD τ) arg9 fullShare (sumNext x0 x1 x2 x3 x4 s9) ∗ owns (c : Thread nD τ) arg10 fullShare (cntNext x4 s10)) -∗ K ⟨⟩))
      ⊢ wp frame (wpE (defs₀ (F := F)) Variants.none c none) E (cc2__pool_fc_kernel i arg1 harg1 arg2 harg2 arg3 harg3 arg4 harg4 arg5 harg5 arg6 harg6 arg7 harg7 arg8 harg8 arg9 harg9 arg10 harg10) K := by
  simp only [cc2__pool_fc_kernel_eq_skeleton]; unfold cc2__pool_fc_kernel_skel
  simp only [k2_part1_eq_skeleton]; unfold k2_part1_skel
  have hc1 : ¬ ((Scalar.cmpi .ne (Scalar.extui (Scalar.cmpi .eq (BitVec.ofNat 32 (i 0).val) 0#32)) 0#32) = 1#1) :=
    fun h => hi0 ((first_cond_iff (i 0)).mp h)
  have hc2 : ¬ (k2_cond2 i = 1#1) := fun h => hi1 ((last_cond_iff i).mp h)
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  subst hf1 hf2 hf3 hf4 hf5 hf6 hf7 hf9 hf10
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _, f8; isplitr; · ipureintro; rfl
    iexact H8
  isplitl [H9]
  · iexists _; isplitr
    swap; · iexact H9
    ipureintro
    refine (read_writes_whole (S := S256x32) _ _ off_zero _ _ _).trans ?_
    simp only [View.readAt_eq_ld, View.ld_unit_zero (S := S4000x32) off_zero, View.ld_unit_zero (S := S4000x1) off_zero,
      View.ld_unit_zero (S := S1x32) off_zero, View.ld_unit_zero (S := S256x32) off_zero, View.ld_unit_zero (S := S256x1) off_zero,
      View.ld_unit_zero (S := S32x10) off_zero, View.ld_unit_zero (S := S1x10) off_zero]
    rfl
  iexists _; isplitr
  swap; · iexact H10
  ipureintro
  refine (read_writes_whole (S := S256x1) _ _ off_zero _ _ _).trans ?_
  simp only [View.readAt_eq_ld, View.ld_unit_zero (S := S4000x32) off_zero, View.ld_unit_zero (S := S4000x1) off_zero,
      View.ld_unit_zero (S := S1x32) off_zero, View.ld_unit_zero (S := S256x32) off_zero, View.ld_unit_zero (S := S256x1) off_zero,
      View.ld_unit_zero (S := S32x10) off_zero, View.ld_unit_zero (S := S1x10) off_zero]
  rfl

set_option maxHeartbeats 4000000 in
/-- The last point: the block is added to the totals it found, and the output is stored from the completed totals. -/
theorem sound_kernel2_last (c : Dev nD) (E : Set ℕ) (i : grid2.Coords) (hi : (i 0).val = 24)
    (arg1 : Memref sig .tc .vmem S4000x32 .f32) (harg1 : arg1.IsWhole) (arg2 : Memref sig .tc .vmem S4000x1 .f32) (harg2 : arg2.IsWhole) (arg3 : Memref sig .tc .vmem S4000x32 .f32) (harg3 : arg3.IsWhole) (arg4 : Memref sig .tc .vmem S1x32 .f32) (harg4 : arg4.IsWhole) (arg5 : Memref sig .tc .vmem S4000x1 .i32) (harg5 : arg5.IsWhole) (arg6 : Memref sig .tc .vmem S32x10 .f32) (harg6 : arg6.IsWhole) (arg7 : Memref sig .tc .vmem S1x10 .f32) (harg7 : arg7.IsWhole) (arg8 : Memref sig .tc .vmem S256x10 .f32) (harg8 : arg8.IsWhole) (arg9 : Memref sig .tc .vmem S256x32 .f32) (harg9 : arg9.IsWhole) (arg10 : Memref sig .tc .vmem S256x1 .f32) (harg10 : arg10.IsWhole)
    (x0 : Vec F S4000x32 .f32) (x1 : Vec F S4000x1 .f32) (x2 : Vec F S4000x32 .f32) (x3 : Vec F S1x32 .f32) (x4 : Vec F S4000x1 .i32) (x5 : Vec F S32x10 .f32) (x6 : Vec F S1x10 .f32) (s9 : Vec F S256x32 .f32) (s10 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare s9 ∗ owns (c : Thread nD τ) arg10 fullShare s10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (outLast x5 x6 (sumNext x0 x1 x2 x3 x4 s9) (cntNext x4 s10)) ∗ owns (c : Thread nD τ) arg9 fullShare (sumNext x0 x1 x2 x3 x4 s9) ∗ owns (c : Thread nD τ) arg10 fullShare (cntNext x4 s10)) -∗ K ⟨⟩))
      ⊢ wp frame (wpE (defs₀ (F := F)) Variants.none c none) E (cc2__pool_fc_kernel i arg1 harg1 arg2 harg2 arg3 harg3 arg4 harg4 arg5 harg5 arg6 harg6 arg7 harg7 arg8 harg8 arg9 harg9 arg10 harg10) K := by
  simp only [cc2__pool_fc_kernel_eq_skeleton]; unfold cc2__pool_fc_kernel_skel
  simp only [k2_part1_eq_skeleton]; unfold k2_part1_skel
  have hc1 : ¬ ((Scalar.cmpi .ne (Scalar.extui (Scalar.cmpi .eq (BitVec.ofNat 32 (i 0).val) 0#32)) 0#32) = 1#1) :=
    fun h => by have h0 := (first_cond_iff (i 0)).mp h; omega
  have hc2 : k2_cond2 i = 1#1 := (last_cond_iff i).mpr hi
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  subst hf1 hf2 hf3 hf4 hf5 hf6 hf7 hf9 hf10
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_writes_whole (S := S256x10) _ _ off_zero _ _ _).trans ?_
    sl_unfold_words
    simp only [View.readAt_eq_ld, View.ld_unit_zero (S := S4000x32) off_zero, View.ld_unit_zero (S := S4000x1) off_zero,
      View.ld_unit_zero (S := S1x32) off_zero, View.ld_unit_zero (S := S256x32) off_zero, View.ld_unit_zero (S := S256x1) off_zero,
      View.ld_unit_zero (S := S32x10) off_zero, View.ld_unit_zero (S := S1x10) off_zero,
      View.readCov_unit_zero (S := S256x32) _ off_zero, View.readCov_unit_zero (S := S256x1) _ off_zero]
    rfl
  isplitl [H9]
  · iexists _; isplitr
    swap; · iexact H9
    ipureintro
    refine (read_writes_whole (S := S256x32) _ _ off_zero _ _ _).trans ?_
    simp only [View.readAt_eq_ld, View.ld_unit_zero (S := S4000x32) off_zero, View.ld_unit_zero (S := S4000x1) off_zero,
      View.ld_unit_zero (S := S1x32) off_zero, View.ld_unit_zero (S := S256x32) off_zero, View.ld_unit_zero (S := S256x1) off_zero,
      View.ld_unit_zero (S := S32x10) off_zero, View.ld_unit_zero (S := S1x10) off_zero]
    rfl
  iexists _; isplitr
  swap; · iexact H10
  ipureintro
  refine (read_writes_whole (S := S256x1) _ _ off_zero _ _ _).trans ?_
  simp only [View.readAt_eq_ld, View.ld_unit_zero (S := S4000x32) off_zero, View.ld_unit_zero (S := S4000x1) off_zero,
      View.ld_unit_zero (S := S1x32) off_zero, View.ld_unit_zero (S := S256x32) off_zero, View.ld_unit_zero (S := S256x1) off_zero,
      View.ld_unit_zero (S := S32x10) off_zero, View.ld_unit_zero (S := S1x10) off_zero]
  rfl

end Cert.Kernel.Frame

end
-- ==== Proof.K.Region2.lean ====
/-
  The pooling and read-out call as one pipeline region: its proof data.

  The call visits the 25 blocks of 4000 node rows in order and keeps two running totals between points: per
  graph, the sum of the activated second-layer feature rows of its nodes (256 by 32) and the number of its
  nodes (256 by 1). What the two hold after point n is a recursion over the points (`accAt2`): at the first
  point the block's contribution added to cleared totals, afterwards added to what the point before left.
  The region invariant carries the two totals from point to point: before the first point they hold
  anything, after point n exactly `accAt2` at n. The result block (256 by 10) is stored at the last point
  only, as the read-out of the completed totals; at every other point the result window is idle and its
  buffer comes back as it was found. The body obligation is proved by cases on the point (first, middle,
  last), and two entailments join the invariant to the class invariant where the region begins and ends.
-/
import proofs.«400167_j37993280700520_3_alg».proof.Proof.Gen.Kernel.Launch
import proofs.«400167_j37993280700520_3_alg».proof.Proof.Gen.Kernel.Skeleton
import proofs.«400167_j37993280700520_3_alg».proof.Proof.Gen.Kernel.Points
import proofs.«400167_j37993280700520_3_alg».proof.Proof.K.Region2Body
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 2: the pooling and read-out call as one pipeline region

The call walks the 25 blocks of 4000 node rows. Two buffers of the kernel's own are carried from point to
point: the per-graph feature totals and the per-graph node counts. This module states what the two hold
after each point as a recursion over the points, puts them into the region's invariant, and proves the body
obligation by the three kinds of point (first, middle, last). The output window is stored only at the last
point; at every other point its buffer is handed back as found. -/

section Region2

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The two carried buffers after each point -/

/-- The feature totals and the node counts after point `n`: at the first point the block's contribution added
    to the cleared totals, afterwards added to what the point before left. -/
def accAt2 (c : Dev nD) : (n : ℕ) → n < cfg2.N → Vec F S256x32 .f32 × Vec F S256x1 .f32
  | 0, hn =>
    (sumNext (iblk2 V c 0 ⟨0, hn⟩) (iblk2 V c 1 ⟨0, hn⟩) (iblk2 V c 2 ⟨0, hn⟩) (iblk2 V c 3 ⟨0, hn⟩) (iblk2 V c 4 ⟨0, hn⟩) sumZero,
     cntNext (iblk2 V c 4 ⟨0, hn⟩) cntZero)
  | n + 1, hn =>
    (sumNext (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
        (accAt2 c n (Nat.lt_of_succ_lt hn)).1,
     cntNext (iblk2 V c 4 ⟨n + 1, hn⟩) (accAt2 c n (Nat.lt_of_succ_lt hn)).2)

theorem accAt2_zero (c : Dev nD) (hn : 0 < cfg2.N) :
    accAt2 V c 0 hn =
      (sumNext (iblk2 V c 0 ⟨0, hn⟩) (iblk2 V c 1 ⟨0, hn⟩) (iblk2 V c 2 ⟨0, hn⟩) (iblk2 V c 3 ⟨0, hn⟩) (iblk2 V c 4 ⟨0, hn⟩) sumZero,
       cntNext (iblk2 V c 4 ⟨0, hn⟩) cntZero) := rfl

theorem accAt2_succ (c : Dev nD) (n : ℕ) (hn : n + 1 < cfg2.N) :
    accAt2 V c (n + 1) hn =
      (sumNext (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
          (accAt2 V c n (Nat.lt_of_succ_lt hn)).1,
       cntNext (iblk2 V c 4 ⟨n + 1, hn⟩) (accAt2 V c n (Nat.lt_of_succ_lt hn)).2) := rfl

/-- The output: the read-out of the totals the last point completes. -/
def out2_7 (c : Dev nD) : Vec F S256x10 .f32 :=
  outLast (iblk2 V c 5 ⟨24, by decide⟩) (iblk2 V c 6 ⟨24, by decide⟩) (accAt2 V c 24 (by decide)).1 (accAt2 V c 24 (by decide)).2

end Region2

section Region2b

variable (V : (c : Dev nD) → (b : Ref sig .tc) → Buf (Elt F) ((c : Thread nD τ).loc b))

/-! ## The schedule: the grid's coordinate, and where the output window is idle -/

/-- The grid has one axis: a point's coordinate is its position. -/
theorem coord2 : ∀ t : Fin cfg2.N, ((grid2.coords t) 0).val = t.val :=
  (by decide +kernel : ∀ t : Fin grid2.N, ((grid2.coords t) 0).val = t.val)

theorem N2_eq : cfg2.N = 25 := N_2

/-- No input window is ever idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
/-- The output window is idle at every point but the last, -/
theorem idleAt2_7 : ∀ t : Fin cfg2.N, t.val ≠ 24 → cfg2.idle 7 (grid2.coords t) = true :=
  (by decide +kernel : ∀ t : Fin grid2.N, t.val ≠ 24 → cfg2.idle 7 (grid2.coords t) = true)
/-- live at the last, -/
theorem liveAt2_7 : ∀ t : Fin cfg2.N, t.val = 24 → cfg2.idle 7 (grid2.coords t) = false :=
  (by decide +kernel : ∀ t : Fin grid2.N, t.val = 24 → cfg2.idle 7 (grid2.coords t) = false)
/-- and written back at the last only. -/
theorem noFlush2_7 (t : Fin cfg2.N) (h : t.val ≠ 24) : (cfg2.win 7).flush t = false := by
  have hN : t.val < 25 := lt_of_lt_of_eq t.isLt N2_eq
  cases hf : (cfg2.win 7).flush t with
  | false => rfl
  | true => exact absurd ((flush2_7 t).mp hf) (by omega)

end Region2b

section Region2c

variable (V : (c : Dev nD) → (b : Ref sig .tc) → Buf (Elt F) ((c : Thread nD τ).loc b))

/-! ## What the input windows' buffers hold

Each input's current buffer holds its block at every point, whether the point fetches it or not: where it is
not fetched the block index has not moved (the three whole operands are fetched at the first point only). This
holds for any proof data whose array is the region-entry contents and whose body leaves the block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The two carried buffers as memrefs, and the class invariant spelt over them -/

/-- The feature totals' buffer and the node counts' buffer, whole. -/
abbrev scM2_0 : Memref sig .tc .vmem S256x32 .f32 := Memref.whole cc2_scratch0
abbrev scM2_1 : Memref sig .tc .vmem S256x1 .f32 := Memref.whole cc2_scratch1

/-- The core's other scoped buffers (the other calls' staging buffers), at some contents each, unopened. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- The scoped buffers that are no staging buffer of this call, split at the two carried buffers. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))
          ∗ rest2 c) :=
  Pipeline.scopedRest_split_of_list spec2 c [cc2_scratch0, cc2_scratch1] (by decide) (by decide)

/-- The class invariant: the two carried buffers at anything, the other scoped buffers, the generator register. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

/-! ## The region invariant -/

/-- Before point `n`: before the first point the class invariant; afterwards the two carried buffers at what
    the point before left, beside the other scoped buffers and the generator register. -/
def PhiS2 (c : Dev nD) : (n : ℕ) → n ≤ cfg2.N → sProp 𝕄
  | 0, _ => Pipeline.ΦA spec2 c
  | n + 1, hn => iprop(iprop(iprop(owns (c : Thread nD τ) scM2_0 fullShare (accAt2 V c n hn).1 ∗ owns (c : Thread nD τ) scM2_1 fullShare (accAt2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (accAt2 V c n hn).1 ∗ owns (c : Thread nD τ) scM2_1 fullShare (accAt2 V c n hn).2) ∗ rest2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (accAt2 V c (n - 1) (by omega)).1 ∗ owns (c : Thread nD τ) scM2_1 fullShare (accAt2 V c (n - 1) (by omega)).2) ∗ rest2 c) ∗ (∃ r, prngReg c r)) := by
  cases n with
  | zero => exact absurd rfl hz
  | succ n => rfl

/-- The totals at a point that is not the first, over what the point before left. -/
theorem accAt2_pos (c : Dev nD) (t : Fin cfg2.N) (hz : t.val ≠ 0) :
    accAt2 V c t.val t.isLt =
      (sumNext (iblk2 V c 0 t) (iblk2 V c 1 t) (iblk2 V c 2 t) (iblk2 V c 3 t) (iblk2 V c 4 t)
          (accAt2 V c (t.val - 1) (Nat.lt_of_le_of_lt (Nat.sub_le _ _) t.isLt)).1,
       cntNext (iblk2 V c 4 t) (accAt2 V c (t.val - 1) (Nat.lt_of_le_of_lt (Nat.sub_le _ _) t.isLt)).2) := by
  obtain ⟨n, hn⟩ := t
  cases n with
  | zero => exact absurd rfl hz
  | succ n => rfl

theorem accAt2_first (c : Dev nD) (t : Fin cfg2.N) (hz : t.val = 0) :
    accAt2 V c t.val t.isLt =
      (sumNext (iblk2 V c 0 t) (iblk2 V c 1 t) (iblk2 V c 2 t) (iblk2 V c 3 t) (iblk2 V c 4 t) sumZero,
       cntNext (iblk2 V c 4 t) cntZero) := by
  obtain ⟨n, hn⟩ := t
  cases n with
  | zero => rfl
  | succ n => exact absurd hz (Nat.succ_ne_zero n)

/-! ## The pipeline's proof data -/

/-- The arrays as the region finds them; after the body each input's buffer at its block and the output's at
    the read-out of the completed totals (consulted at the last point only); the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 V c
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 V c := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- The output window's buffer is never fetched into, and before the last point never stored into nor written
    back: the body finds in it what it held when the region began. -/
theorem before2_7 (c : Dev nD) (t : Fin cfg2.N) (d) : (dat2 V c).before 7 t d = d := by
  have hN : t.val < 25 := lt_of_lt_of_eq t.isLt N2_eq
  rw [(dat2 V c).before_idle_run 7 (fun t => (cfg2.win 7).fetch_out rfl t) d t.val t (le_refl _)
    (fun j _ hj => ⟨idleAt2_7 j (by omega), noFlush2_7 j (by omega)⟩)]
  unfold Dat.before
  rw [if_neg (by rw [(cfg2.win 7).fetch_out rfl]; exact Bool.false_ne_true), if_pos (by simp only [Nat.sub_self])]

end Region2c

section Region2d

variable (V : (c : Dev nD) → (b : Ref sig .tc) → Buf (Elt F) ((c : Thread nD τ).loc b))

/-- The output as the last point computes it: the read-out of that point's totals. -/
theorem out2_7_eq (c : Dev nD) (t : Fin cfg2.N) (h : t.val = 24) :
    out2_7 V c = outLast (iblk2 V c 5 t) (iblk2 V c 6 t) (accAt2 V c t.val t.isLt).1 (accAt2 V c t.val t.isLt).2 := by
  have ht : t = ⟨24, by decide⟩ := Fin.ext h
  subst ht; rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any point. The inputs' buffers hold their blocks; the point is the first, a middle one or the
    last; the invariant hands the body the two carried buffers (at anything at the first point, at what the point
    before left afterwards) and takes them back at this point's totals; the output's buffer comes back as found
    except at the last point, where it holds the read-out; the other scoped buffers, the generator register and
    the core's debts pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = PhiS2 V c (t.val + 1) t.isLt from rfl, PhiS2_succ]
  have hN : t.val < 25 := lt_of_lt_of_eq t.isLt N2_eq
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  by_cases h0 : t.val = 0
  · -- the first point: the totals are cleared, then the block is added
    rw [Dat.leavesExact_idle (dat2 V c) 7 t (idleAt2_7 t (by omega)) (noFlush2_7 t (by omega))]
    simp only [before2_7]
    rw [accAt2_first V c t h0, PhiS2_castSucc V c t, PhiS2_zero V c _ _ h0, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_first c Set.univ (grid2.coords t) ((coord2 t).trans h0) _ _ _ _ _ _ _ _ _ _ _ _ _ _ _ _ _ _ _ _
      (iblk2 V c 0 t) (iblk2 V c 1 t) (iblk2 V c 2 t) (iblk2 V c 3 t) (iblk2 V c 4 t) (iblk2 V c 5 t) (iblk2 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]
          · iexact HS0
          · iexact HS1
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h24 : t.val = 24
    · -- the last point: the block is added to what the point before left, and the output is stored
      rw [show (dat2 V c).leavesExact 7 t = owns (c : Thread nD τ) (st2_7 t) fullShare ((dat2 V c).after 7 t) from by
        unfold Dat.leavesExact; rw [liveAt2_7 t h24], after2_7, out2_7_eq V c t h24]
      rw [accAt2_pos V c t h0, PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_last c Set.univ (grid2.coords t) ((coord2 t).trans h24) _ _ _ _ _ _ _ _ _ _ _ _ _ _ _ _ _ _ _ _
        (iblk2 V c 0 t) (iblk2 V c 1 t) (iblk2 V c 2 t) (iblk2 V c 3 t) (iblk2 V c 4 t) (iblk2 V c 5 t) (iblk2 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]
            · iexact HS0
            · iexact HS1
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a middle point: the block is added to what the point before left
      rw [Dat.leavesExact_idle (dat2 V c) 7 t (idleAt2_7 t h24) (noFlush2_7 t h24)]
      simp only [before2_7]
      rw [accAt2_pos V c t h0, PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_mid c Set.univ (grid2.coords t) (fun h => h0 ((coord2 t).symm.trans h)) (fun h => h24 ((coord2 t).symm.trans h)) _ _ _ _ _ _ _ _ _ _ _ _ _ _ _ _ _ _ _ _
        (iblk2 V c 0 t) (iblk2 V c 1 t) (iblk2 V c 2 t) (iblk2 V c 3 t) (iblk2 V c 4 t) (iblk2 V c 5 t) (iblk2 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]
            · iexact HS0
            · iexact HS1
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the totals are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

/-- The same after the last point. -/
theorem hout2 (c : Dev nD) : (dat2 V c).Φ (Fin.last cfg2.N) ⊢ Pipeline.ΦA spec2 c :=
  Phi_out2 V c _ (by rw [Fin.val_last]; have : cfg2.N = 25 := N_2; omega)

end Region2d

end Cert.Kernel.Frame

end
-- ==== Proof.K.Run.lean ====
/-
  The run of the kernel program's @main, from the launch to the return, as six segments: three stretches of host
  operations and, after each, one TensorCore region.

  The buffer contents at each segment boundary are a fold from the launch memory: a host stretch maps the contents
  through its operations; a region leaves each of its windows' arrays at what its write-backs make of it (an input's
  array as entered, an output's with every block written back) and every other buffer as entered.  The thread state
  between two segments is "every unscoped buffer whole at the boundary's contents, the generator register at some
  state, nothing owed".  Each region is entered by splitting its windows' arrays out of the unscoped buffers and left
  by putting them back at the exit contents; its invariant takes the generator register and the scoped buffers that
  are no staging buffer, and gives them back.  For the third region the invariant between points also names what two
  scratch buffers hold, so it is reached from, and returned to, the plain form through that region's two bridging
  facts.

  From the run: every final state holds each unscoped buffer at the last boundary's contents (`run_all`), and since
  no host operation and no region writes an argument array, each argument ends as launched (`frame`).
-/
import proofs.«400167_j37993280700520_3_alg».proof.Proof.K.Region0
import proofs.«400167_j37993280700520_3_alg».proof.Proof.K.Region1
import proofs.«400167_j37993280700520_3_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: each of its windows' arrays at what the pipeline leaves (an input as entered, an output with
    its write-backs folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it held
    at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: each of its windows' arrays at what the pipeline leaves (an input as entered, an output with
    its write-backs folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it held
    at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: each of its windows' arrays at what the pipeline leaves (an input as entered, an output with
    its write-backs folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it held
    at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched

No host operation writes an argument array and no region has one as an output window: a region either reads it
through an input window, whose array the pipeline leaves as entered, or does not touch it.  So the fold at an
argument's buffer walks back to the launch memory. -/

/-- The references the first host stretch writes. -/
abbrev wr0 : List (Ref sig .tc) := [main_v0, main_v1, main_v2, main_v3, main_cst, main_v4, main_cst_0, main_v5, main_v6, main_v7, main_cst_1, main_v8, main_v9, main_v10, main_v11]
/-- A buffer that is none of them keeps its contents through the stretch. -/
theorem keeps0 (Vv : Valuation τ sig (Elt F)) (b : Ref sig .tc) (hb : ∀ r ∈ wr0, b ≠ r) :
    StableHlo.after hostOps0 Vv (Proc.devRef .tc b) = Vv (Proc.devRef .tc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- The references the second host stretch writes. -/
abbrev wr1 : List (Ref sig .tc) := [main_c, main_v13, main_v14, main_c_2, main_v15, main_v16, main_v17, main_v18, main_v19, main_v20, main_cst_3, main_v21, main_v22, main_v23, main_v24]
/-- A buffer that is none of them keeps its contents through the stretch. -/
theorem keeps1 (Vv : Valuation τ sig (Elt F)) (b : Ref sig .tc) (hb : ∀ r ∈ wr1, b ≠ r) :
    StableHlo.after hostOps1 Vv (Proc.devRef .tc b) = Vv (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- The references the third host stretch writes. -/
abbrev wr2 : List (Ref sig .tc) := [main_c_4, main_v26, main_v27, main_c_5, main_v28, main_v29, main_v30, main_v31, main_v32, main_v33, main_cst_6, main_v34, main_v35, main_v36, main_v37, main_v38, main_v39]
/-- A buffer that is none of them keeps its contents through the stretch. -/
theorem keeps2 (Vv : Valuation τ sig (Elt F)) (b : Ref sig .tc) (hb : ∀ r ∈ wr2, b ≠ r) :
    StableHlo.after hostOps2 Vv (Proc.devRef .tc b) = Vv (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := keeps2 _ main_arg0 (by decide)
    _ = W3 m ρ c (Proc.devRef .tc main_arg0) := W4_of_ne m ρ c main_arg0 (by decide)
    _ = W2 m ρ c (Proc.devRef .tc main_arg0) := keeps1 _ main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := keeps0 _ main_arg0 (by decide)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := keeps2 _ main_arg1 (by decide)
    _ = W3 m ρ c (Proc.devRef .tc main_arg1) := W4_of_ne m ρ c main_arg1 (by decide)
    _ = W2 m ρ c (Proc.devRef .tc main_arg1) := keeps1 _ main_arg1 (by decide)
    _ = W1 m ρ c (Proc.devRef .tc main_arg1) := W2_of_ne m ρ c main_arg1 (by decide)
    _ = W0 m ρ c (Proc.devRef .tc main_arg1) := keeps0 _ main_arg1 (by decide)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := keeps2 _ main_arg2 (by decide)
    _ = W3 m ρ c (Proc.devRef .tc main_arg2) := W4_of_ne m ρ c main_arg2 (by decide)
    _ = W2 m ρ c (Proc.devRef .tc main_arg2) := keeps1 _ main_arg2 (by decide)
    _ = W1 m ρ c (Proc.devRef .tc main_arg2) := W2_of_ne m ρ c main_arg2 (by decide)
    _ = W0 m ρ c (Proc.devRef .tc main_arg2) := keeps0 _ main_arg2 (by decide)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := keeps2 _ main_arg3 (by decide)
    _ = W3 m ρ c (Proc.devRef .tc main_arg3) := W4_of_ne m ρ c main_arg3 (by decide)
    _ = W2 m ρ c (Proc.devRef .tc main_arg3) := keeps1 _ main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := keeps0 _ main_arg3 (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := keeps2 _ main_arg4 (by decide)
    _ = W3 m ρ c (Proc.devRef .tc main_arg4) := W4_of_ne m ρ c main_arg4 (by decide)
    _ = W2 m ρ c (Proc.devRef .tc main_arg4) := keeps1 _ main_arg4 (by decide)
    _ = W1 m ρ c (Proc.devRef .tc main_arg4) := W2_of_ne m ρ c main_arg4 (by decide)
    _ = W0 m ρ c (Proc.devRef .tc main_arg4) := keeps0 _ main_arg4 (by decide)
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := keeps2 _ main_arg5 (by decide)
    _ = W3 m ρ c (Proc.devRef .tc main_arg5) := (W4_arr m ρ c 4).trans (((dat1 (V3 m ρ) c).arrAt_in 4 rfl _).trans (A_eq1 (V3 m ρ) c 4))
    _ = W2 m ρ c (Proc.devRef .tc main_arg5) := keeps1 _ main_arg5 (by decide)
    _ = W1 m ρ c (Proc.devRef .tc main_arg5) := W2_of_ne m ρ c main_arg5 (by decide)
    _ = W0 m ρ c (Proc.devRef .tc main_arg5) := keeps0 _ main_arg5 (by decide)
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := keeps2 _ main_arg6 (by decide)
    _ = W3 m ρ c (Proc.devRef .tc main_arg6) := W4_of_ne m ρ c main_arg6 (by decide)
    _ = W2 m ρ c (Proc.devRef .tc main_arg6) := keeps1 _ main_arg6 (by decide)
    _ = W1 m ρ c (Proc.devRef .tc main_arg6) := W2_of_ne m ρ c main_arg6 (by decide)
    _ = W0 m ρ c (Proc.devRef .tc main_arg6) := keeps0 _ main_arg6 (by decide)
    _ = m ((c : Thread nD τ).loc main_arg6) := rfl
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := (W6_arr m ρ c 5).trans (((dat2 (V5 m ρ) c).arrAt_in 5 rfl _).trans (A_eq2 (V5 m ρ) c 5))
    _ = W4 m ρ c (Proc.devRef .tc main_arg7) := keeps2 _ main_arg7 (by decide)
    _ = W3 m ρ c (Proc.devRef .tc main_arg7) := W4_of_ne m ρ c main_arg7 (by decide)
    _ = W2 m ρ c (Proc.devRef .tc main_arg7) := keeps1 _ main_arg7 (by decide)
    _ = W1 m ρ c (Proc.devRef .tc main_arg7) := W2_of_ne m ρ c main_arg7 (by decide)
    _ = W0 m ρ c (Proc.devRef .tc main_arg7) := keeps0 _ main_arg7 (by decide)
    _ = m ((c : Thread nD τ).loc main_arg7) := rfl
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := keeps2 _ main_arg8 (by decide)
    _ = W3 m ρ c (Proc.devRef .tc main_arg8) := W4_of_ne m ρ c main_arg8 (by decide)
    _ = W2 m ρ c (Proc.devRef .tc main_arg8) := keeps1 _ main_arg8 (by decide)
    _ = W1 m ρ c (Proc.devRef .tc main_arg8) := W2_of_ne m ρ c main_arg8 (by decide)
    _ = W0 m ρ c (Proc.devRef .tc main_arg8) := keeps0 _ main_arg8 (by decide)
    _ = m ((c : Thread nD τ).loc main_arg8) := rfl

/-! # The proof data family and the thread state -/

/-- The prefetched tables' admissible contents: no pipeline has a table. -/
abbrev adm : (p : Fin 3) → (pcfgs (F := F) p).Adm := fun p => (cfgs p).toPCfg_adm
/-- Every pipeline's proof data, each at its region's entry contents: a literal case split, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left with
    those references at the stretch's image of `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- Nor of the second. -/
theorem hostOps1_fresh : (hostOps1 : List (HloOp τ sig (Elt F))).Forall fun op => op.fresh = ∅ := by
  simp only [List.Forall]; repeat' constructor
/-- Nor of the third. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W6`, the generator
    register at some state. -/
abbrev Tₙ (c : Dev nD) : sProp 𝕄 := iprop(StableHlo.held (c : Thread nD τ) (Pipeline.ucRefs τ sig) (W6 m ρ c) ∗ ∃ r, prngReg c r)

/-! # The regions as segments -/

-- applying a library lemma stated over the pinned configuration unifies with the printed one only when unification
-- may unfold plain definitions in a metavariable's type
set_option backward.isDefEq.respectTransparency.types false in
/-- Region 0 over the thread state: entered from every unscoped buffer at `W1`, left at `W2` (what the next segment is entered from).
    Its windows' arrays are split out of the unscoped buffers on entry and put back at the exit contents on exit; the
    generator register goes into the region's invariant and comes back; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification
-- may unfold plain definitions in a metavariable's type
set_option backward.isDefEq.respectTransparency.types false in
/-- Region 1 over the thread state: entered from every unscoped buffer at `W3`, left at `W4` (what the next segment is entered from).
    Its windows' arrays are split out of the unscoped buffers on entry and put back at the exit contents on exit; the
    generator register goes into the region's invariant and comes back; nothing is owed; the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification
-- may unfold plain definitions in a metavariable's type
set_option backward.isDefEq.respectTransparency.types false in
/-- Region 2 over the thread state: entered from every unscoped buffer at `W5`, left at `W6` (what the launch reads at the end).
    Its windows' arrays are split out of the unscoped buffers on entry and put back at the exit contents on exit; the
    generator register goes into the region's invariant and comes back; nothing is owed; the kernel has no semaphore of
    its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    refine BIBase.Entails.trans ?_ (hin2 (V5 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V5 m ρ) c).Φ (Fin.last cfg2.N) from rfl]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's six segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of the segments: it is the chain of its items, and the segments' run is that chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state holds each unscoped buffer of each core at the last
    boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME, at any float model: every weakly fair execution of @main terminates, nothing faulting, and every final
    state has the nine argument arrays as launched: each is an unscoped buffer, read off `run_all` and walked back to
    the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run _ _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩)
    (run_all m ρ)

end Cert.Kernel.Frame

end
-- ==== Proof.KI.Region0.lean ====
/-
  The frame half of the first TensorCore region of the kernel program (the node features times the first weight,
  scaled by the normalising factor), at a parameter `V`: the TensorCore's buffer contents when the region is entered.

  The region walks 25 grid points.  At point t it sees five windows: rows [4000 t, 4000 t + 4000) of the node
  features (128 columns), the whole 128 x 16 weight (resident: brought in once, its block index never moves), the
  same rows of the one-column factor, and the same rows of two 16-column results, one of half-width floats and one
  of single floats.  The body reads the three inputs whole, reads each result buffer (the value is dropped) and
  overwrites it whole.  So what a result buffer holds after the body is a closed function of the three input blocks
  at the point (`out0_3`, `out0_4`): the one store's payload laid over the whole buffer.

  Stated here: each window's block at a point as read off `V` (`iblk0`); that an input's staging buffer holds its
  block at every point whether or not it was brought in there (`before0_W`); the body's triple on whole staging
  buffers (`sound_kernel0`); the proof data of the pipeline (`dat0`) and its body obligation at every point
  (`body_obligation0`).  Everything is generic in the float model `F`.
-/
import proofs.«400167_j37993280700520_3_alg».proof.Proof.Gen.KernelIdeal.Launch
import proofs.«400167_j37993280700520_3_alg».proof.Proof.Gen.KernelIdeal.Skeleton
import proofs.«400167_j37993280700520_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4000 rows: the structural check recurses once per coordinate of the long axis
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`: the window's view at that point reading its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The node features' staging buffer holds rows [4000 t, 4000 t + 4000) at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point: it is brought in at the first point only, and
    at a later point its block index is the one before's, so the buffer, which the body leaves as found, still holds
    this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The factor's staging buffer holds rows [4000 t, 4000 t + 4000) of the factor at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_0 : Rect S4000x128 := Rect.unit (s := S4000x128) ![0, 0] S4000x128.size inb_S4000x128_S4000x128_0_0
abbrev r0_1 : Rect S128x16 := Rect.unit (s := S128x16) ![0, 0] S128x16.size inb_S128x16_S128x16_0_0
abbrev r0_2 : Rect S4000x1 := Rect.unit (s := S4000x1) ![0, 0] S4000x1.size inb_S4000x1_S4000x1_0_0
abbrev r0_3 : Rect S4000x16 := Rect.unit (s := S4000x16) ![0, 0] S4000x16.size inb_S4000x16_S4000x16_0_0

/-! ## What the body leaves in each result window's buffer -/

/-- The half-width result's staging buffer after the body, from the three input blocks: its one whole-buffer
    store, the product of the features and the weight scaled once by the factor, narrowed. -/
def out0_3 (x0 : Vec F S4000x128 .f32) (x1 : Vec F S128x16 .f32) (x2 : Vec F S4000x1 .f32) : Vec F S4000x16 .bf16 :=
  View.canon [⟨r0_3, k0_pay3 (View.ld x0 r0_0) (View.ld x1 r0_1) (View.ld x2 r0_2)⟩]

/-- The single-float result's staging buffer after the body: its one whole-buffer store, the same product scaled
    twice by the factor. -/
def out0_4 (x0 : Vec F S4000x128 .f32) (x1 : Vec F S128x16 .f32) (x2 : Vec F S4000x1 .f32) : Vec F S4000x16 .f32 :=
  View.canon [⟨r0_3, k0_pay4 (View.ld x0 r0_0) (View.ld x1 r0_1) (View.ld x2 r0_2)⟩]

/-- One store of the whole buffer covers it (the half-width result). -/
theorem cover0_3 (p0 : Vec F S4000x16 .bf16) (y : S4000x16.Idx) :
    ∃ pc ∈ ([⟨r0_3, p0⟩] : List (View.Piece (Elt F) S4000x16 .bf16)), y ∈ pc.1.set :=
  View.cover_of_tiled [⟨r0_3, p0⟩] S4000x16.size (by rfl) y

/-- One store of the whole buffer covers it (the single-float result). -/
theorem cover0_4 (p0 : Vec F S4000x16 .f32) (y : S4000x16.Idx) :
    ∃ pc ∈ ([⟨r0_3, p0⟩] : List (View.Piece (Elt F) S4000x16 .f32)), y ∈ pc.1.set :=
  View.cover_of_tiled [⟨r0_3, p0⟩] S4000x16.size (by rfl) y

/-! ## The body's triple -/

set_option maxHeartbeats 1000000 in
/-- The kernel body on whole staging buffers, the inputs' at read contents `x0 x1 x2` and the results' at anything, runs
    to the continuation holding the inputs' as they were and each result's at `out0_W` of the inputs.  The body's two
    reads of the result buffers find whatever is there and the values are dropped. -/
theorem sound_kernel0 (c : Dev nD) (E : Set ℕ) (i : grid0.Coords) (arg1 : Memref sig .tc .vmem S4000x128 .f32) (harg1 : arg1.IsWhole) (arg2 : Memref sig .tc .vmem S128x16 .f32) (harg2 : arg2.IsWhole) (arg3 : Memref sig .tc .vmem S4000x1 .f32) (harg3 : arg3.IsWhole) (arg4 : Memref sig .tc .vmem S4000x16 .bf16) (harg4 : arg4.IsWhole) (arg5 : Memref sig .tc .vmem S4000x16 .f32) (harg5 : arg5.IsWhole)
    (x0 : Vec F S4000x128 .f32) (x1 : Vec F S128x16 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__matmul_scale_kernel i arg1 harg1 arg2 harg2 arg3 harg3 arg4 harg4 arg5 harg5) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of the region's pipeline on core `c`: the arrays as the region finds them; after the body at point
    `t` each input's buffer at its block and each result's at `out0_W` of the input blocks; the invariant is the
    untouched scoped rest and generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current staging buffer holds its block at every point, brought in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's debts, and the five staging buffers whole, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Frame

end
-- ==== Proof.KI.Region1.lean ====
/-
  Region 1 (the second convolution layer's dense half), the body's side of its frame, at any float
  model and at parameter contents V of the core's buffers when the region is entered.

  The kernel at grid point t reads five blocks: rows [4000 t, 4000 t + 4000) of the aggregate (16 wide), of the
  per-node factor (1 wide) and of the self-loop term (16 wide), and the whole bias row (1 x 16) and weight
  (16 x 32), the last two resident: brought in at the first point and never moved.  It overwrites the whole of
  two output blocks (4000 x 32, one narrow and one wide), each by a single store that covers the buffer, so
  what it leaves in them is a closed function of the five input blocks.
-/
import proofs.«400167_j37993280700520_3_alg».proof.Proof.Gen.KernelIdeal.Launch
import proofs.«400167_j37993280700520_3_alg».proof.Proof.Gen.KernelIdeal.Skeleton
import proofs.«400167_j37993280700520_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the contents of the core's buffers when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether or not it was brought in there:
    where it was not, the block index has not moved since the point before, and the body leaves the buffer as
    it found it.  Stated for any proof data over the entry arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The two resident windows: brought in once, at the first point; their block index is constant, so the same
    argument applies at every later point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_0 : Rect S4000x1 := Rect.unit (s := S4000x1) ![0, 0] S4000x1.size inb_S4000x1_S4000x1_0_0
abbrev r1_1 : Rect S4000x16 := Rect.unit (s := S4000x16) ![0, 0] S4000x16.size inb_S4000x16_S4000x16_0_0
abbrev r1_2 : Rect S1x16 := Rect.unit (s := S1x16) ![0, 0] S1x16.size inb_S1x16_S1x16_0_0
abbrev r1_3 : Rect S16x32 := Rect.unit (s := S16x32) ![0, 0] S16x32.size inb_S16x32_S16x32_0_0
abbrev r1_4 : Rect S4000x32 := Rect.unit (s := S4000x32) ![0, 0] S4000x32.size inb_S4000x32_S4000x32_0_0

/-! ## What the body leaves in each output window's buffer -/

/-- The narrow output's buffer after the body, from the five input blocks (in window order): its one store. -/
def out1_5 (x0 : Vec F S4000x16 .f32) (x1 : Vec F S4000x1 .f32) (x2 : Vec F S4000x16 .f32) (x3 : Vec F S1x16 .f32) (x4 : Vec F S16x32 .f32) : Vec F S4000x32 .bf16 :=
  View.canon [⟨r1_4, k1_pay3 (View.ld x1 r1_0) (View.ld x0 r1_1) (View.ld x2 r1_1) (View.ld x3 r1_2) (View.ld x4 r1_3)⟩]

/-- The wide output's buffer after the body, likewise. -/
def out1_6 (x0 : Vec F S4000x16 .f32) (x1 : Vec F S4000x1 .f32) (x2 : Vec F S4000x16 .f32) (x3 : Vec F S1x16 .f32) (x4 : Vec F S16x32 .f32) : Vec F S4000x32 .f32 :=
  View.canon [⟨r1_4, k1_pay4 (View.ld x1 r1_0) (View.ld x0 r1_1) (View.ld x2 r1_1) (View.ld x3 r1_2) (View.ld x4 r1_3)⟩]

/-- The one store of each output is of the whole buffer, so it covers it. -/
theorem cover1_5 (p0 : Vec F S4000x32 .bf16) (y : S4000x32.Idx) :
    ∃ pc ∈ ([⟨r1_4, p0⟩] : List (View.Piece (Elt F) S4000x32 .bf16)), y ∈ pc.1.set :=
  View.cover_of_tiled [⟨r1_4, p0⟩] S4000x32.size (by rfl) y
theorem cover1_6 (p0 : Vec F S4000x32 .f32) (y : S4000x32.Idx) :
    ∃ pc ∈ ([⟨r1_4, p0⟩] : List (View.Piece (Elt F) S4000x32 .f32)), y ∈ pc.1.set :=
  View.cover_of_tiled [⟨r1_4, p0⟩] S4000x32.size (by rfl) y

/-! ## The body's triple -/

set_option maxHeartbeats 1000000 in
/-- The body on whole buffers, the five inputs' at contents x0 .. x4 and the two outputs' at anything, runs to a
    state where the inputs' are as they were and the outputs' hold out1_5 and out1_6 of the inputs.  (The body
    also loads each output buffer before it stores into it; the loaded value is not used.) -/
theorem sound_kernel1 (c : Dev nD) (E : Set ℕ) (i : grid1.Coords)
    (arg1 : Memref sig .tc .vmem S4000x16 .f32) (harg1 : arg1.IsWhole) (arg2 : Memref sig .tc .vmem S4000x1 .f32) (harg2 : arg2.IsWhole)
    (arg3 : Memref sig .tc .vmem S4000x16 .f32) (harg3 : arg3.IsWhole) (arg4 : Memref sig .tc .vmem S1x16 .f32) (harg4 : arg4.IsWhole)
    (arg5 : Memref sig .tc .vmem S16x32 .f32) (harg5 : arg5.IsWhole) (arg6 : Memref sig .tc .vmem S4000x32 .bf16) (harg6 : arg6.IsWhole)
    (arg7 : Memref sig .tc .vmem S4000x32 .f32) (harg7 : arg7.IsWhole)
    (x0 : Vec F S4000x16 .f32) (x1 : Vec F S4000x1 .f32) (x2 : Vec F S4000x16 .f32) (x3 : Vec F S1x16 .f32) (x4 : Vec F S16x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__gcn_layer_kernel i arg1 harg1 arg2 harg2 arg3 harg3 arg4 harg4 arg5 harg5 arg6 harg6 arg7 harg7) K := by
  simp only [cc1__gcn_layer_kernel_eq_skeleton]; unfold cc1__gcn_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The pipeline's proof data -/

/-- The proof data of the region's pipeline on core c: the arrays as the region finds them; after the body at
    point t each input's buffer at its block and each output's at out1_5 / out1_6 of the input blocks; the
    invariant is the untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Frame

end
-- ==== Proof.KI.Region2Body.lean ====
/- The pooling and read-out region at one grid point. The node rows are visited in 25 blocks of 4000; two
   accumulators are carried from block to block: per graph, the sum of its nodes' activated second-layer
   feature rows (256 by 32), and the number of its nodes (256 by 1). Five functions name what a point leaves:
   sumZero and cntZero, the accumulators once cleared (all zeros); sumNext and cntNext, the accumulators after
   a block is added to the values found (a node's row and a count of one go to the graph its id names); and
   outLast, the result block (256 by 10): the per-graph mean, the count taken as at least one, times the
   read-out weight, plus the read-out bias. The three theorems at the end state the body's behaviour: at the
   first point the accumulators are cleared and then the block is added; at a middle point the block is added
   to what was found; at the last point the block is added and the result block is stored from the completed
   accumulators. The result block is left unstored at every point but the last. -/
import proofs.«400167_j37993280700520_3_alg».proof.Proof.Gen.KernelIdeal.Launch
import proofs.«400167_j37993280700520_3_alg».proof.Proof.Gen.KernelIdeal.Skeleton
import proofs.«400167_j37993280700520_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

/-! # The pooling and read-out kernel at one grid point

The third kernel walks the node rows in 25 blocks of 4000. It carries two running totals from block to
block: per graph, the sum of the second layer's activated features of its nodes (256 by 32), and the number
of its nodes (256 by 1). At the first block both totals are cleared before the block is added; at every
block the block's contribution is added; at the last block the totals are turned into the mean, multiplied
by the read-out weight, and shifted by the read-out bias, which is the kernel's only output (256 by 10).

This module names what one block does to the totals and to the output, as functions of the block's inputs
and of the totals it found, and proves, for the three kinds of point, that the kernel body leaves exactly
those values. -/

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point leaves -/

/-- The feature totals after the first point's clearing: zero everywhere. -/
def sumZero : Vec F S256x32 .f32 := k2_pay3

/-- The node counts after the first point's clearing: zero everywhere. -/
def cntZero : Vec F S256x1 .f32 := k2_pay4

/-- The feature totals after a point that found them at `s`: to `s` is added, per graph, the sum over the
    block's rows belonging to that graph of the activated second-layer feature row (the factor `x1` times the
    aggregate `x0`, plus the self-loop term `x2`, plus the bias `x3`, clipped below at zero), the membership
    read off the graph ids `x4`. -/
def sumNext (x0 : Vec F S4000x32 .f32) (x1 : Vec F S4000x1 .f32) (x2 : Vec F S4000x32 .f32) (x3 : Vec F S1x32 .f32)
    (x4 : Vec F S4000x1 .i32) (s : Vec F S256x32 .f32) : Vec F S256x32 .f32 :=
  k2_pay7 x1 x0 x2 x3 x4 s

/-- The node counts after a point that found them at `s`: to `s` is added, per graph, the number of the
    block's rows whose graph id `x4` names that graph. -/
def cntNext (x4 : Vec F S4000x1 .i32) (s : Vec F S256x1 .f32) : Vec F S256x1 .f32 :=
  k2_pay1 (k2_pay6 x4) s

/-- The output the last point stores, from the totals `s9`, `s10` it has just completed: the per-graph mean
    (the feature total over the count, the count taken as at least one) times the read-out weight `x5`, plus
    the read-out bias `x6`. -/
def outLast (x5 : Vec F S32x10 .f32) (x6 : Vec F S1x10 .f32) (s9 : Vec F S256x32 .f32) (s10 : Vec F S256x1 .f32) :
    Vec F S256x10 .f32 :=
  k2_pay2 s9 s10 x5 x6

theorem sumZero_eq : sumZero (F := F) = k2_pay3 := rfl
theorem cntZero_eq : cntZero (F := F) = k2_pay4 := rfl
theorem sumNext_eq (x0 : Vec F S4000x32 .f32) (x1 : Vec F S4000x1 .f32) (x2 : Vec F S4000x32 .f32) (x3 : Vec F S1x32 .f32)
    (x4 : Vec F S4000x1 .i32) (s : Vec F S256x32 .f32) : sumNext x0 x1 x2 x3 x4 s = k2_pay7 x1 x0 x2 x3 x4 s := rfl
theorem cntNext_eq (x4 : Vec F S4000x1 .i32) (s : Vec F S256x1 .f32) : cntNext x4 s = k2_pay1 (k2_pay6 x4) s := rfl
theorem outLast_eq (x5 : Vec F S32x10 .f32) (x6 : Vec F S1x10 .f32) (s9 : Vec F S256x32 .f32) (s10 : Vec F S256x1 .f32) :
    outLast x5 x6 s9 s10 = k2_pay2 s9 s10 x5 x6 := rfl

/-! ## The branch conditions, decided over the 25 block numbers -/

/-- The clearing branch is taken exactly at block 0. -/
theorem first_cond_iff (n : Fin 25) :
    (Scalar.cmpi .ne (Scalar.extui (Scalar.cmpi .eq (BitVec.ofNat 32 n.val) 0#32)) 0#32 = 1#1) ↔ n.val = 0 := by
  revert n; decide +kernel

/-- The read-out branch is taken exactly at block 24. -/
theorem last_cond_iff (i : grid2.Coords) : k2_cond2 i = 1#1 ↔ (i 0).val = 24 := by
  have h : ∀ n : Fin 25,
      (Scalar.cmpi .ne (Scalar.extui (Scalar.cmpi .eq (BitVec.ofNat 32 n.val) 24#32)) 0#32 = 1#1) ↔ n.val = 24 := by
    decide +kernel
  exact h (i 0)

/-! ## Whole-buffer stores and loads -/

/-- The offsets of every access of this kernel: zero on both axes. -/
theorem off_zero : (![0, 0] : Fin 2 → Nat) = fun _ => 0 := funext fun a => by fin_cases a <;> rfl

/-- A buffer whose LAST store went through the whole-shape rectangle reads as that store's payload, whatever
    was stored before and whatever it held at first. -/
theorem read_writes_whole {S : Shape} {e : EltTy} {sp : Space} (v : View sig .tc sp S e) (f : v.ty.Contents (Elt F))
    {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-! ## The three kinds of point -/

set_option maxHeartbeats 4000000 in
/-- The first point: whatever the totals held, they are cleared and the block is added to the cleared totals; the output buffer is not stored into. -/
theorem sound_kernel2_first (c : Dev nD) (E : Set ℕ) (i : grid2.Coords) (hi : (i 0).val = 0)
    (arg1 : Memref sig .tc .vmem S4000x32 .f32) (harg1 : arg1.IsWhole) (arg2 : Memref sig .tc .vmem S4000x1 .f32) (harg2 : arg2.IsWhole) (arg3 : Memref sig .tc .vmem S4000x32 .f32) (harg3 : arg3.IsWhole) (arg4 : Memref sig .tc .vmem S1x32 .f32) (harg4 : arg4.IsWhole) (arg5 : Memref sig .tc .vmem S4000x1 .i32) (harg5 : arg5.IsWhole) (arg6 : Memref sig .tc .vmem S32x10 .f32) (harg6 : arg6.IsWhole) (arg7 : Memref sig .tc .vmem S1x10 .f32) (harg7 : arg7.IsWhole) (arg8 : Memref sig .tc .vmem S256x10 .f32) (harg8 : arg8.IsWhole) (arg9 : Memref sig .tc .vmem S256x32 .f32) (harg9 : arg9.IsWhole) (arg10 : Memref sig .tc .vmem S256x1 .f32) (harg10 : arg10.IsWhole)
    (x0 : Vec F S4000x32 .f32) (x1 : Vec F S4000x1 .f32) (x2 : Vec F S4000x32 .f32) (x3 : Vec F S1x32 .f32) (x4 : Vec F S4000x1 .i32) (x5 : Vec F S32x10 .f32) (x6 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ owns (c : Thread nD τ) arg9 fullShare (sumNext x0 x1 x2 x3 x4 sumZero) ∗ owns (c : Thread nD τ) arg10 fullShare (cntNext x4 cntZero)) -∗ K ⟨⟩))
      ⊢ wp frame (wpE (defs₀ (F := F)) Variants.none c none) E (cc2__pool_fc_kernel i arg1 harg1 arg2 harg2 arg3 harg3 arg4 harg4 arg5 harg5 arg6 harg6 arg7 harg7 arg8 harg8 arg9 harg9 arg10 harg10) K := by
  simp only [cc2__pool_fc_kernel_eq_skeleton]; unfold cc2__pool_fc_kernel_skel
  simp only [k2_part1_eq_skeleton]; unfold k2_part1_skel
  have hc1 : (Scalar.cmpi .ne (Scalar.extui (Scalar.cmpi .eq (BitVec.ofNat 32 (i 0).val) 0#32)) 0#32) = 1#1 :=
    (first_cond_iff (i 0)).mpr hi
  have hc2 : ¬ (k2_cond2 i = 1#1) := fun h => by have h0 := (last_cond_iff i).mp h; omega
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf1 hf2 hf3 hf4 hf5 hf6 hf7
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _, f8; isplitr; · ipureintro; rfl
    iexact H8
  isplitl [H9]
  · iexists _; isplitr
    swap; · iexact H9
    ipureintro
    refine (read_writes_whole (S := S256x32) _ _ off_zero _ _ _).trans ?_
    sl_unfold_words
    simp only [View.readAt_eq_ld, View.ld_unit_zero (S := S4000x32) off_zero, View.ld_unit_zero (S := S4000x1) off_zero,
      View.ld_unit_zero (S := S1x32) off_zero, View.ld_unit_zero (S := S256x32) off_zero, View.ld_unit_zero (S := S256x1) off_zero,
      View.ld_unit_zero (S := S32x10) off_zero, View.ld_unit_zero (S := S1x10) off_zero,
      View.readCov_unit_zero (S := S256x32) _ off_zero, View.readCov_unit_zero (S := S256x1) _ off_zero]
    rfl
  iexists _; isplitr
  swap; · iexact H10
  ipureintro
  refine (read_writes_whole (S := S256x1) _ _ off_zero _ _ _).trans ?_
  sl_unfold_words
  simp only [View.readAt_eq_ld, View.ld_unit_zero (S := S4000x32) off_zero, View.ld_unit_zero (S := S4000x1) off_zero,
      View.ld_unit_zero (S := S1x32) off_zero, View.ld_unit_zero (S := S256x32) off_zero, View.ld_unit_zero (S := S256x1) off_zero,
      View.ld_unit_zero (S := S32x10) off_zero, View.ld_unit_zero (S := S1x10) off_zero,
    View.readCov_unit_zero (S := S256x32) _ off_zero, View.readCov_unit_zero (S := S256x1) _ off_zero]
  rfl

set_option maxHeartbeats 4000000 in
/-- A middle point: the block is added to the totals it found; the output buffer is not stored into. -/
theorem sound_kernel2_mid (c : Dev nD) (E : Set ℕ) (i : grid2.Coords) (hi0 : (i 0).val ≠ 0) (hi1 : (i 0).val ≠ 24)
    (arg1 : Memref sig .tc .vmem S4000x32 .f32) (harg1 : arg1.IsWhole) (arg2 : Memref sig .tc .vmem S4000x1 .f32) (harg2 : arg2.IsWhole) (arg3 : Memref sig .tc .vmem S4000x32 .f32) (harg3 : arg3.IsWhole) (arg4 : Memref sig .tc .vmem S1x32 .f32) (harg4 : arg4.IsWhole) (arg5 : Memref sig .tc .vmem S4000x1 .i32) (harg5 : arg5.IsWhole) (arg6 : Memref sig .tc .vmem S32x10 .f32) (harg6 : arg6.IsWhole) (arg7 : Memref sig .tc .vmem S1x10 .f32) (harg7 : arg7.IsWhole) (arg8 : Memref sig .tc .vmem S256x10 .f32) (harg8 : arg8.IsWhole) (arg9 : Memref sig .tc .vmem S256x32 .f32) (harg9 : arg9.IsWhole) (arg10 : Memref sig .tc .vmem S256x1 .f32) (harg10 : arg10.IsWhole)
    (x0 : Vec F S4000x32 .f32) (x1 : Vec F S4000x1 .f32) (x2 : Vec F S4000x32 .f32) (x3 : Vec F S1x32 .f32) (x4 : Vec F S4000x1 .i32) (x5 : Vec F S32x10 .f32) (x6 : Vec F S1x10 .f32) (s9 : Vec F S256x32 .f32) (s10 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare s9 ∗ owns (c : Thread nD τ) arg10 fullShare s10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ owns (c : Thread nD τ) arg9 fullShare (sumNext x0 x1 x2 x3 x4 s9) ∗ owns (c : Thread nD τ) arg10 fullShare (cntNext x4 s10)) -∗ K ⟨⟩))
      ⊢ wp frame (wpE (defs₀ (F := F)) Variants.none c none) E (cc2__pool_fc_kernel i arg1 harg1 arg2 harg2 arg3 harg3 arg4 harg4 arg5 harg5 arg6 harg6 arg7 harg7 arg8 harg8 arg9 harg9 arg10 harg10) K := by
  simp only [cc2__pool_fc_kernel_eq_skeleton]; unfold cc2__pool_fc_kernel_skel
  simp only [k2_part1_eq_skeleton]; unfold k2_part1_skel
  have hc1 : ¬ ((Scalar.cmpi .ne (Scalar.extui (Scalar.cmpi .eq (BitVec.ofNat 32 (i 0).val) 0#32)) 0#32) = 1#1) :=
    fun h => hi0 ((first_cond_iff (i 0)).mp h)
  have hc2 : ¬ (k2_cond2 i = 1#1) := fun h => hi1 ((last_cond_iff i).mp h)
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  subst hf1 hf2 hf3 hf4 hf5 hf6 hf7 hf9 hf10
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _, f8; isplitr; · ipureintro; rfl
    iexact H8
  isplitl [H9]
  · iexists _; isplitr
    swap; · iexact H9
    ipureintro
    refine (read_writes_whole (S := S256x32) _ _ off_zero _ _ _).trans ?_
    simp only [View.readAt_eq_ld, View.ld_unit_zero (S := S4000x32) off_zero, View.ld_unit_zero (S := S4000x1) off_zero,
      View.ld_unit_zero (S := S1x32) off_zero, View.ld_unit_zero (S := S256x32) off_zero, View.ld_unit_zero (S := S256x1) off_zero,
      View.ld_unit_zero (S := S32x10) off_zero, View.ld_unit_zero (S := S1x10) off_zero]
    rfl
  iexists _; isplitr
  swap; · iexact H10
  ipureintro
  refine (read_writes_whole (S := S256x1) _ _ off_zero _ _ _).trans ?_
  simp only [View.readAt_eq_ld, View.ld_unit_zero (S := S4000x32) off_zero, View.ld_unit_zero (S := S4000x1) off_zero,
      View.ld_unit_zero (S := S1x32) off_zero, View.ld_unit_zero (S := S256x32) off_zero, View.ld_unit_zero (S := S256x1) off_zero,
      View.ld_unit_zero (S := S32x10) off_zero, View.ld_unit_zero (S := S1x10) off_zero]
  rfl

set_option maxHeartbeats 4000000 in
/-- The last point: the block is added to the totals it found, and the output is stored from the completed totals. -/
theorem sound_kernel2_last (c : Dev nD) (E : Set ℕ) (i : grid2.Coords) (hi : (i 0).val = 24)
    (arg1 : Memref sig .tc .vmem S4000x32 .f32) (harg1 : arg1.IsWhole) (arg2 : Memref sig .tc .vmem S4000x1 .f32) (harg2 : arg2.IsWhole) (arg3 : Memref sig .tc .vmem S4000x32 .f32) (harg3 : arg3.IsWhole) (arg4 : Memref sig .tc .vmem S1x32 .f32) (harg4 : arg4.IsWhole) (arg5 : Memref sig .tc .vmem S4000x1 .i32) (harg5 : arg5.IsWhole) (arg6 : Memref sig .tc .vmem S32x10 .f32) (harg6 : arg6.IsWhole) (arg7 : Memref sig .tc .vmem S1x10 .f32) (harg7 : arg7.IsWhole) (arg8 : Memref sig .tc .vmem S256x10 .f32) (harg8 : arg8.IsWhole) (arg9 : Memref sig .tc .vmem S256x32 .f32) (harg9 : arg9.IsWhole) (arg10 : Memref sig .tc .vmem S256x1 .f32) (harg10 : arg10.IsWhole)
    (x0 : Vec F S4000x32 .f32) (x1 : Vec F S4000x1 .f32) (x2 : Vec F S4000x32 .f32) (x3 : Vec F S1x32 .f32) (x4 : Vec F S4000x1 .i32) (x5 : Vec F S32x10 .f32) (x6 : Vec F S1x10 .f32) (s9 : Vec F S256x32 .f32) (s10 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare s9 ∗ owns (c : Thread nD τ) arg10 fullShare s10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (outLast x5 x6 (sumNext x0 x1 x2 x3 x4 s9) (cntNext x4 s10)) ∗ owns (c : Thread nD τ) arg9 fullShare (sumNext x0 x1 x2 x3 x4 s9) ∗ owns (c : Thread nD τ) arg10 fullShare (cntNext x4 s10)) -∗ K ⟨⟩))
      ⊢ wp frame (wpE (defs₀ (F := F)) Variants.none c none) E (cc2__pool_fc_kernel i arg1 harg1 arg2 harg2 arg3 harg3 arg4 harg4 arg5 harg5 arg6 harg6 arg7 harg7 arg8 harg8 arg9 harg9 arg10 harg10) K := by
  simp only [cc2__pool_fc_kernel_eq_skeleton]; unfold cc2__pool_fc_kernel_skel
  simp only [k2_part1_eq_skeleton]; unfold k2_part1_skel
  have hc1 : ¬ ((Scalar.cmpi .ne (Scalar.extui (Scalar.cmpi .eq (BitVec.ofNat 32 (i 0).val) 0#32)) 0#32) = 1#1) :=
    fun h => by have h0 := (first_cond_iff (i 0)).mp h; omega
  have hc2 : k2_cond2 i = 1#1 := (last_cond_iff i).mpr hi
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  subst hf1 hf2 hf3 hf4 hf5 hf6 hf7 hf9 hf10
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_writes_whole (S := S256x10) _ _ off_zero _ _ _).trans ?_
    sl_unfold_words
    simp only [View.readAt_eq_ld, View.ld_unit_zero (S := S4000x32) off_zero, View.ld_unit_zero (S := S4000x1) off_zero,
      View.ld_unit_zero (S := S1x32) off_zero, View.ld_unit_zero (S := S256x32) off_zero, View.ld_unit_zero (S := S256x1) off_zero,
      View.ld_unit_zero (S := S32x10) off_zero, View.ld_unit_zero (S := S1x10) off_zero,
      View.readCov_unit_zero (S := S256x32) _ off_zero, View.readCov_unit_zero (S := S256x1) _ off_zero]
    rfl
  isplitl [H9]
  · iexists _; isplitr
    swap; · iexact H9
    ipureintro
    refine (read_writes_whole (S := S256x32) _ _ off_zero _ _ _).trans ?_
    simp only [View.readAt_eq_ld, View.ld_unit_zero (S := S4000x32) off_zero, View.ld_unit_zero (S := S4000x1) off_zero,
      View.ld_unit_zero (S := S1x32) off_zero, View.ld_unit_zero (S := S256x32) off_zero, View.ld_unit_zero (S := S256x1) off_zero,
      View.ld_unit_zero (S := S32x10) off_zero, View.ld_unit_zero (S := S1x10) off_zero]
    rfl
  iexists _; isplitr
  swap; · iexact H10
  ipureintro
  refine (read_writes_whole (S := S256x1) _ _ off_zero _ _ _).trans ?_
  simp only [View.readAt_eq_ld, View.ld_unit_zero (S := S4000x32) off_zero, View.ld_unit_zero (S := S4000x1) off_zero,
      View.ld_unit_zero (S := S1x32) off_zero, View.ld_unit_zero (S := S256x32) off_zero, View.ld_unit_zero (S := S256x1) off_zero,
      View.ld_unit_zero (S := S32x10) off_zero, View.ld_unit_zero (S := S1x10) off_zero]
  rfl

end Cert.KernelIdeal.Frame

end
-- ==== Proof.KI.Region2.lean ====
/-
  The pooling and read-out call as one pipeline region: its proof data.

  The call visits the 25 blocks of 4000 node rows in order and keeps two running totals between points: per
  graph, the sum of the activated second-layer feature rows of its nodes (256 by 32) and the number of its
  nodes (256 by 1). What the two hold after point n is a recursion over the points (`accAt2`): at the first
  point the block's contribution added to cleared totals, afterwards added to what the point before left.
  The region invariant carries the two totals from point to point: before the first point they hold
  anything, after point n exactly `accAt2` at n. The result block (256 by 10) is stored at the last point
  only, as the read-out of the completed totals; at every other point the result window is idle and its
  buffer comes back as it was found. The body obligation is proved by cases on the point (first, middle,
  last), and two entailments join the invariant to the class invariant where the region begins and ends.
-/
import proofs.«400167_j37993280700520_3_alg».proof.Proof.Gen.KernelIdeal.Launch
import proofs.«400167_j37993280700520_3_alg».proof.Proof.Gen.KernelIdeal.Skeleton
import proofs.«400167_j37993280700520_3_alg».proof.Proof.Gen.KernelIdeal.Points
import proofs.«400167_j37993280700520_3_alg».proof.Proof.KI.Region2Body
import Idealize.ShloMosaic.Lib.Pipeline.FrameBody
import Idealize.ShloMosaic.Lib.Pipeline.TableIdle
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2: the pooling and read-out call as one pipeline region

The call walks the 25 blocks of 4000 node rows. Two buffers of the kernel's own are carried from point to
point: the per-graph feature totals and the per-graph node counts. This module states what the two hold
after each point as a recursion over the points, puts them into the region's invariant, and proves the body
obligation by the three kinds of point (first, middle, last). The output window is stored only at the last
point; at every other point its buffer is handed back as found. -/

section Region2

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The two carried buffers after each point -/

/-- The feature totals and the node counts after point `n`: at the first point the block's contribution added
    to the cleared totals, afterwards added to what the point before left. -/
def accAt2 (c : Dev nD) : (n : ℕ) → n < cfg2.N → Vec F S256x32 .f32 × Vec F S256x1 .f32
  | 0, hn =>
    (sumNext (iblk2 V c 0 ⟨0, hn⟩) (iblk2 V c 1 ⟨0, hn⟩) (iblk2 V c 2 ⟨0, hn⟩) (iblk2 V c 3 ⟨0, hn⟩) (iblk2 V c 4 ⟨0, hn⟩) sumZero,
     cntNext (iblk2 V c 4 ⟨0, hn⟩) cntZero)
  | n + 1, hn =>
    (sumNext (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
        (accAt2 c n (Nat.lt_of_succ_lt hn)).1,
     cntNext (iblk2 V c 4 ⟨n + 1, hn⟩) (accAt2 c n (Nat.lt_of_succ_lt hn)).2)

theorem accAt2_zero (c : Dev nD) (hn : 0 < cfg2.N) :
    accAt2 V c 0 hn =
      (sumNext (iblk2 V c 0 ⟨0, hn⟩) (iblk2 V c 1 ⟨0, hn⟩) (iblk2 V c 2 ⟨0, hn⟩) (iblk2 V c 3 ⟨0, hn⟩) (iblk2 V c 4 ⟨0, hn⟩) sumZero,
       cntNext (iblk2 V c 4 ⟨0, hn⟩) cntZero) := rfl

theorem accAt2_succ (c : Dev nD) (n : ℕ) (hn : n + 1 < cfg2.N) :
    accAt2 V c (n + 1) hn =
      (sumNext (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
          (accAt2 V c n (Nat.lt_of_succ_lt hn)).1,
       cntNext (iblk2 V c 4 ⟨n + 1, hn⟩) (accAt2 V c n (Nat.lt_of_succ_lt hn)).2) := rfl

/-- The output: the read-out of the totals the last point completes. -/
def out2_7 (c : Dev nD) : Vec F S256x10 .f32 :=
  outLast (iblk2 V c 5 ⟨24, by decide⟩) (iblk2 V c 6 ⟨24, by decide⟩) (accAt2 V c 24 (by decide)).1 (accAt2 V c 24 (by decide)).2

end Region2

section Region2b

variable (V : (c : Dev nD) → (b : Ref sig .tc) → Buf (Elt F) ((c : Thread nD τ).loc b))

/-! ## The schedule: the grid's coordinate, and where the output window is idle -/

/-- The grid has one axis: a point's coordinate is its position. -/
theorem coord2 : ∀ t : Fin cfg2.N, ((grid2.coords t) 0).val = t.val :=
  (by decide +kernel : ∀ t : Fin grid2.N, ((grid2.coords t) 0).val = t.val)

theorem N2_eq : cfg2.N = 25 := N_2

/-- No input window is ever idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
/-- The output window is idle at every point but the last, -/
theorem idleAt2_7 : ∀ t : Fin cfg2.N, t.val ≠ 24 → cfg2.idle 7 (grid2.coords t) = true :=
  (by decide +kernel : ∀ t : Fin grid2.N, t.val ≠ 24 → cfg2.idle 7 (grid2.coords t) = true)
/-- live at the last, -/
theorem liveAt2_7 : ∀ t : Fin cfg2.N, t.val = 24 → cfg2.idle 7 (grid2.coords t) = false :=
  (by decide +kernel : ∀ t : Fin grid2.N, t.val = 24 → cfg2.idle 7 (grid2.coords t) = false)
/-- and written back at the last only. -/
theorem noFlush2_7 (t : Fin cfg2.N) (h : t.val ≠ 24) : (cfg2.win 7).flush t = false := by
  have hN : t.val < 25 := lt_of_lt_of_eq t.isLt N2_eq
  cases hf : (cfg2.win 7).flush t with
  | false => rfl
  | true => exact absurd ((flush2_7 t).mp hf) (by omega)

end Region2b

section Region2c

variable (V : (c : Dev nD) → (b : Ref sig .tc) → Buf (Elt F) ((c : Thread nD τ).loc b))

/-! ## What the input windows' buffers hold

Each input's current buffer holds its block at every point, whether the point fetches it or not: where it is
not fetched the block index has not moved (the three whole operands are fetched at the first point only). This
holds for any proof data whose array is the region-entry contents and whose body leaves the block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The two carried buffers as memrefs, and the class invariant spelt over them -/

/-- The feature totals' buffer and the node counts' buffer, whole. -/
abbrev scM2_0 : Memref sig .tc .vmem S256x32 .f32 := Memref.whole cc2_scratch0
abbrev scM2_1 : Memref sig .tc .vmem S256x1 .f32 := Memref.whole cc2_scratch1

/-- The core's other scoped buffers (the other calls' staging buffers), at some contents each, unopened. -/
abbrev rest2 (c : Dev nD) : sProp 𝕄 :=
  Pipeline.scopedRestBut (Ix := Unit) (Name := ℕ) (U := UR sig nD τ) (Lvl := ℕ) (Val := Elt F) spec2 c [cc2_scratch0, cc2_scratch1]

/-- The scoped buffers that are no staging buffer of this call, split at the two carried buffers. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))
          ∗ rest2 c) :=
  Pipeline.scopedRest_split_of_list spec2 c [cc2_scratch0, cc2_scratch1] (by decide) (by decide)

/-- The class invariant: the two carried buffers at anything, the other scoped buffers, the generator register. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

/-! ## The region invariant -/

/-- Before point `n`: before the first point the class invariant; afterwards the two carried buffers at what
    the point before left, beside the other scoped buffers and the generator register. -/
def PhiS2 (c : Dev nD) : (n : ℕ) → n ≤ cfg2.N → sProp 𝕄
  | 0, _ => Pipeline.ΦA spec2 c
  | n + 1, hn => iprop(iprop(iprop(owns (c : Thread nD τ) scM2_0 fullShare (accAt2 V c n hn).1 ∗ owns (c : Thread nD τ) scM2_1 fullShare (accAt2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (accAt2 V c n hn).1 ∗ owns (c : Thread nD τ) scM2_1 fullShare (accAt2 V c n hn).2) ∗ rest2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (accAt2 V c (n - 1) (by omega)).1 ∗ owns (c : Thread nD τ) scM2_1 fullShare (accAt2 V c (n - 1) (by omega)).2) ∗ rest2 c) ∗ (∃ r, prngReg c r)) := by
  cases n with
  | zero => exact absurd rfl hz
  | succ n => rfl

/-- The totals at a point that is not the first, over what the point before left. -/
theorem accAt2_pos (c : Dev nD) (t : Fin cfg2.N) (hz : t.val ≠ 0) :
    accAt2 V c t.val t.isLt =
      (sumNext (iblk2 V c 0 t) (iblk2 V c 1 t) (iblk2 V c 2 t) (iblk2 V c 3 t) (iblk2 V c 4 t)
          (accAt2 V c (t.val - 1) (Nat.lt_of_le_of_lt (Nat.sub_le _ _) t.isLt)).1,
       cntNext (iblk2 V c 4 t) (accAt2 V c (t.val - 1) (Nat.lt_of_le_of_lt (Nat.sub_le _ _) t.isLt)).2) := by
  obtain ⟨n, hn⟩ := t
  cases n with
  | zero => exact absurd rfl hz
  | succ n => rfl

theorem accAt2_first (c : Dev nD) (t : Fin cfg2.N) (hz : t.val = 0) :
    accAt2 V c t.val t.isLt =
      (sumNext (iblk2 V c 0 t) (iblk2 V c 1 t) (iblk2 V c 2 t) (iblk2 V c 3 t) (iblk2 V c 4 t) sumZero,
       cntNext (iblk2 V c 4 t) cntZero) := by
  obtain ⟨n, hn⟩ := t
  cases n with
  | zero => rfl
  | succ n => exact absurd hz (Nat.succ_ne_zero n)

/-! ## The pipeline's proof data -/

/-- The arrays as the region finds them; after the body each input's buffer at its block and the output's at
    the read-out of the completed totals (consulted at the last point only); the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 V c
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 V c := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- The output window's buffer is never fetched into, and before the last point never stored into nor written
    back: the body finds in it what it held when the region began. -/
theorem before2_7 (c : Dev nD) (t : Fin cfg2.N) (d) : (dat2 V c).before 7 t d = d := by
  have hN : t.val < 25 := lt_of_lt_of_eq t.isLt N2_eq
  rw [(dat2 V c).before_idle_run 7 (fun t => (cfg2.win 7).fetch_out rfl t) d t.val t (le_refl _)
    (fun j _ hj => ⟨idleAt2_7 j (by omega), noFlush2_7 j (by omega)⟩)]
  unfold Dat.before
  rw [if_neg (by rw [(cfg2.win 7).fetch_out rfl]; exact Bool.false_ne_true), if_pos (by simp only [Nat.sub_self])]

end Region2c

section Region2d

variable (V : (c : Dev nD) → (b : Ref sig .tc) → Buf (Elt F) ((c : Thread nD τ).loc b))

/-- The output as the last point computes it: the read-out of that point's totals. -/
theorem out2_7_eq (c : Dev nD) (t : Fin cfg2.N) (h : t.val = 24) :
    out2_7 V c = outLast (iblk2 V c 5 t) (iblk2 V c 6 t) (accAt2 V c t.val t.isLt).1 (accAt2 V c t.val t.isLt).2 := by
  have ht : t = ⟨24, by decide⟩ := Fin.ext h
  subst ht; rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any point. The inputs' buffers hold their blocks; the point is the first, a middle one or the
    last; the invariant hands the body the two carried buffers (at anything at the first point, at what the point
    before left afterwards) and takes them back at this point's totals; the output's buffer comes back as found
    except at the last point, where it holds the read-out; the other scoped buffers, the generator register and
    the core's debts pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = PhiS2 V c (t.val + 1) t.isLt from rfl, PhiS2_succ]
  have hN : t.val < 25 := lt_of_lt_of_eq t.isLt N2_eq
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  by_cases h0 : t.val = 0
  · -- the first point: the totals are cleared, then the block is added
    rw [Dat.leavesExact_idle (dat2 V c) 7 t (idleAt2_7 t (by omega)) (noFlush2_7 t (by omega))]
    simp only [before2_7]
    rw [accAt2_first V c t h0, PhiS2_castSucc V c t, PhiS2_zero V c _ _ h0, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_first c Set.univ (grid2.coords t) ((coord2 t).trans h0) _ _ _ _ _ _ _ _ _ _ _ _ _ _ _ _ _ _ _ _
      (iblk2 V c 0 t) (iblk2 V c 1 t) (iblk2 V c 2 t) (iblk2 V c 3 t) (iblk2 V c 4 t) (iblk2 V c 5 t) (iblk2 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · isplitl [HS0]
          · iexact HS0
          · iexact HS1
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h24 : t.val = 24
    · -- the last point: the block is added to what the point before left, and the output is stored
      rw [show (dat2 V c).leavesExact 7 t = owns (c : Thread nD τ) (st2_7 t) fullShare ((dat2 V c).after 7 t) from by
        unfold Dat.leavesExact; rw [liveAt2_7 t h24], after2_7, out2_7_eq V c t h24]
      rw [accAt2_pos V c t h0, PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_last c Set.univ (grid2.coords t) ((coord2 t).trans h24) _ _ _ _ _ _ _ _ _ _ _ _ _ _ _ _ _ _ _ _
        (iblk2 V c 0 t) (iblk2 V c 1 t) (iblk2 V c 2 t) (iblk2 V c 3 t) (iblk2 V c 4 t) (iblk2 V c 5 t) (iblk2 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]
            · iexact HS0
            · iexact HS1
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a middle point: the block is added to what the point before left
      rw [Dat.leavesExact_idle (dat2 V c) 7 t (idleAt2_7 t h24) (noFlush2_7 t h24)]
      simp only [before2_7]
      rw [accAt2_pos V c t h0, PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_mid c Set.univ (grid2.coords t) (fun h => h0 ((coord2 t).symm.trans h)) (fun h => h24 ((coord2 t).symm.trans h)) _ _ _ _ _ _ _ _ _ _ _ _ _ _ _ _ _ _ _ _
        (iblk2 V c 0 t) (iblk2 V c 1 t) (iblk2 V c 2 t) (iblk2 V c 3 t) (iblk2 V c 4 t) (iblk2 V c 5 t) (iblk2 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]
            · iexact HS0
            · iexact HS1
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the totals are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

/-- The same after the last point. -/
theorem hout2 (c : Dev nD) : (dat2 V c).Φ (Fin.last cfg2.N) ⊢ Pipeline.ΦA spec2 c :=
  Phi_out2 V c _ (by rw [Fin.val_last]; have : cfg2.N = 25 := N_2; omega)

end Region2d

end Cert.KernelIdeal.Frame

end
-- ==== Proof.KI.Run.lean ====
/-
  The run of the kernel program's @main, from the launch to the return, as six segments: three stretches of host
  operations and, after each, one TensorCore region.

  The buffer contents at each segment boundary are a fold from the launch memory: a host stretch maps the contents
  through its operations; a region leaves each of its windows' arrays at what its write-backs make of it (an input's
  array as entered, an output's with every block written back) and every other buffer as entered.  The thread state
  between two segments is "every unscoped buffer whole at the boundary's contents, the generator register at some
  state, nothing owed".  Each region is entered by splitting its windows' arrays out of the unscoped buffers and left
  by putting them back at the exit contents; its invariant takes the generator register and the scoped buffers that
  are no staging buffer, and gives them back.  For the third region the invariant between points also names what two
  scratch buffers hold, so it is reached from, and returned to, the plain form through that region's two bridging
  facts.

  From the run: every final state holds each unscoped buffer at the last boundary's contents (`run_all`), and since
  no host operation and no region writes an argument array, each argument ends as launched (`frame`).
-/
import proofs.«400167_j37993280700520_3_alg».proof.Proof.KI.Region0
import proofs.«400167_j37993280700520_3_alg».proof.Proof.KI.Region1
import proofs.«400167_j37993280700520_3_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: each of its windows' arrays at what the pipeline leaves (an input as entered, an output with
    its write-backs folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it held
    at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: each of its windows' arrays at what the pipeline leaves (an input as entered, an output with
    its write-backs folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it held
    at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: each of its windows' arrays at what the pipeline leaves (an input as entered, an output with
    its write-backs folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it held
    at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched

No host operation writes an argument array and no region has one as an output window: a region either reads it
through an input window, whose array the pipeline leaves as entered, or does not touch it.  So the fold at an
argument's buffer walks back to the launch memory. -/

/-- The references the first host stretch writes. -/
abbrev wr0 : List (Ref sig .tc) := [main_v0, main_v1, main_v2, main_v3, main_cst, main_v4, main_cst_0, main_v5, main_v6, main_v7, main_cst_1, main_v8, main_v9, main_v10, main_v11]
/-- A buffer that is none of them keeps its contents through the stretch. -/
theorem keeps0 (Vv : Valuation τ sig (Elt F)) (b : Ref sig .tc) (hb : ∀ r ∈ wr0, b ≠ r) :
    StableHlo.after hostOps0 Vv (Proc.devRef .tc b) = Vv (Proc.devRef .tc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- The references the second host stretch writes. -/
abbrev wr1 : List (Ref sig .tc) := [main_c, main_v13, main_v14, main_c_2, main_v15, main_v16, main_v17, main_v18, main_v19, main_v20, main_cst_3, main_v21, main_v22, main_v23, main_v24]
/-- A buffer that is none of them keeps its contents through the stretch. -/
theorem keeps1 (Vv : Valuation τ sig (Elt F)) (b : Ref sig .tc) (hb : ∀ r ∈ wr1, b ≠ r) :
    StableHlo.after hostOps1 Vv (Proc.devRef .tc b) = Vv (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))
/-- The references the third host stretch writes. -/
abbrev wr2 : List (Ref sig .tc) := [main_c_4, main_v26, main_v27, main_c_5, main_v28, main_v29, main_v30, main_v31, main_v32, main_v33, main_cst_6, main_v34, main_v35, main_v36, main_v37, main_v38, main_v39]
/-- A buffer that is none of them keeps its contents through the stretch. -/
theorem keeps2 (Vv : Valuation τ sig (Elt F)) (b : Ref sig .tc) (hb : ∀ r ∈ wr2, b ≠ r) :
    StableHlo.after hostOps2 Vv (Proc.devRef .tc b) = Vv (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := keeps2 _ main_arg0 (by decide)
    _ = W3 m ρ c (Proc.devRef .tc main_arg0) := W4_of_ne m ρ c main_arg0 (by decide)
    _ = W2 m ρ c (Proc.devRef .tc main_arg0) := keeps1 _ main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := keeps0 _ main_arg0 (by decide)
    _ = m ((c : Thread nD τ).loc main_arg0) := rfl
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := keeps2 _ main_arg1 (by decide)
    _ = W3 m ρ c (Proc.devRef .tc main_arg1) := W4_of_ne m ρ c main_arg1 (by decide)
    _ = W2 m ρ c (Proc.devRef .tc main_arg1) := keeps1 _ main_arg1 (by decide)
    _ = W1 m ρ c (Proc.devRef .tc main_arg1) := W2_of_ne m ρ c main_arg1 (by decide)
    _ = W0 m ρ c (Proc.devRef .tc main_arg1) := keeps0 _ main_arg1 (by decide)
    _ = m ((c : Thread nD τ).loc main_arg1) := rfl
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := keeps2 _ main_arg2 (by decide)
    _ = W3 m ρ c (Proc.devRef .tc main_arg2) := W4_of_ne m ρ c main_arg2 (by decide)
    _ = W2 m ρ c (Proc.devRef .tc main_arg2) := keeps1 _ main_arg2 (by decide)
    _ = W1 m ρ c (Proc.devRef .tc main_arg2) := W2_of_ne m ρ c main_arg2 (by decide)
    _ = W0 m ρ c (Proc.devRef .tc main_arg2) := keeps0 _ main_arg2 (by decide)
    _ = m ((c : Thread nD τ).loc main_arg2) := rfl
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := keeps2 _ main_arg3 (by decide)
    _ = W3 m ρ c (Proc.devRef .tc main_arg3) := W4_of_ne m ρ c main_arg3 (by decide)
    _ = W2 m ρ c (Proc.devRef .tc main_arg3) := keeps1 _ main_arg3 (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := keeps0 _ main_arg3 (by decide)
    _ = m ((c : Thread nD τ).loc main_arg3) := rfl
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := keeps2 _ main_arg4 (by decide)
    _ = W3 m ρ c (Proc.devRef .tc main_arg4) := W4_of_ne m ρ c main_arg4 (by decide)
    _ = W2 m ρ c (Proc.devRef .tc main_arg4) := keeps1 _ main_arg4 (by decide)
    _ = W1 m ρ c (Proc.devRef .tc main_arg4) := W2_of_ne m ρ c main_arg4 (by decide)
    _ = W0 m ρ c (Proc.devRef .tc main_arg4) := keeps0 _ main_arg4 (by decide)
    _ = m ((c : Thread nD τ).loc main_arg4) := rfl
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := keeps2 _ main_arg5 (by decide)
    _ = W3 m ρ c (Proc.devRef .tc main_arg5) := (W4_arr m ρ c 4).trans (((dat1 (V3 m ρ) c).arrAt_in 4 rfl _).trans (A_eq1 (V3 m ρ) c 4))
    _ = W2 m ρ c (Proc.devRef .tc main_arg5) := keeps1 _ main_arg5 (by decide)
    _ = W1 m ρ c (Proc.devRef .tc main_arg5) := W2_of_ne m ρ c main_arg5 (by decide)
    _ = W0 m ρ c (Proc.devRef .tc main_arg5) := keeps0 _ main_arg5 (by decide)
    _ = m ((c : Thread nD τ).loc main_arg5) := rfl
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := keeps2 _ main_arg6 (by decide)
    _ = W3 m ρ c (Proc.devRef .tc main_arg6) := W4_of_ne m ρ c main_arg6 (by decide)
    _ = W2 m ρ c (Proc.devRef .tc main_arg6) := keeps1 _ main_arg6 (by decide)
    _ = W1 m ρ c (Proc.devRef .tc main_arg6) := W2_of_ne m ρ c main_arg6 (by decide)
    _ = W0 m ρ c (Proc.devRef .tc main_arg6) := keeps0 _ main_arg6 (by decide)
    _ = m ((c : Thread nD τ).loc main_arg6) := rfl
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := (W6_arr m ρ c 5).trans (((dat2 (V5 m ρ) c).arrAt_in 5 rfl _).trans (A_eq2 (V5 m ρ) c 5))
    _ = W4 m ρ c (Proc.devRef .tc main_arg7) := keeps2 _ main_arg7 (by decide)
    _ = W3 m ρ c (Proc.devRef .tc main_arg7) := W4_of_ne m ρ c main_arg7 (by decide)
    _ = W2 m ρ c (Proc.devRef .tc main_arg7) := keeps1 _ main_arg7 (by decide)
    _ = W1 m ρ c (Proc.devRef .tc main_arg7) := W2_of_ne m ρ c main_arg7 (by decide)
    _ = W0 m ρ c (Proc.devRef .tc main_arg7) := keeps0 _ main_arg7 (by decide)
    _ = m ((c : Thread nD τ).loc main_arg7) := rfl
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := keeps2 _ main_arg8 (by decide)
    _ = W3 m ρ c (Proc.devRef .tc main_arg8) := W4_of_ne m ρ c main_arg8 (by decide)
    _ = W2 m ρ c (Proc.devRef .tc main_arg8) := keeps1 _ main_arg8 (by decide)
    _ = W1 m ρ c (Proc.devRef .tc main_arg8) := W2_of_ne m ρ c main_arg8 (by decide)
    _ = W0 m ρ c (Proc.devRef .tc main_arg8) := keeps0 _ main_arg8 (by decide)
    _ = m ((c : Thread nD τ).loc main_arg8) := rfl

/-! # The proof data family and the thread state -/

/-- The prefetched tables' admissible contents: no pipeline has a table. -/
abbrev adm : (p : Fin 3) → (pcfgs (F := F) p).Adm := fun p => (cfgs p).toPCfg_adm
/-- Every pipeline's proof data, each at its region's entry contents: a literal case split, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left with
    those references at the stretch's image of `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first host stretch allocates a buffer. -/
theorem hostOps0_fresh : (hostOps0 : List (HloOp τ sig (Elt F))).Forall fun op => op.fresh = ∅ := by
  simp only [List.Forall]; repeat' constructor
/-- Nor of the second. -/
theorem hostOps1_fresh : (hostOps1 : List (HloOp τ sig (Elt F))).Forall fun op => op.fresh = ∅ := by
  simp only [List.Forall]; repeat' constructor
/-- Nor of the third. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W6`, the generator
    register at some state. -/
abbrev Tₙ (c : Dev nD) : sProp 𝕄 := iprop(StableHlo.held (c : Thread nD τ) (Pipeline.ucRefs τ sig) (W6 m ρ c) ∗ ∃ r, prngReg c r)

/-! # The regions as segments -/

-- applying a library lemma stated over the pinned configuration unifies with the printed one only when unification
-- may unfold plain definitions in a metavariable's type
set_option backward.isDefEq.respectTransparency.types false in
/-- Region 0 over the thread state: entered from every unscoped buffer at `W1`, left at `W2` (what the next segment is entered from).
    Its windows' arrays are split out of the unscoped buffers on entry and put back at the exit contents on exit; the
    generator register goes into the region's invariant and comes back; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification
-- may unfold plain definitions in a metavariable's type
set_option backward.isDefEq.respectTransparency.types false in
/-- Region 1 over the thread state: entered from every unscoped buffer at `W3`, left at `W4` (what the next segment is entered from).
    Its windows' arrays are split out of the unscoped buffers on entry and put back at the exit contents on exit; the
    generator register goes into the region's invariant and comes back; nothing is owed; the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification
-- may unfold plain definitions in a metavariable's type
set_option backward.isDefEq.respectTransparency.types false in
/-- Region 2 over the thread state: entered from every unscoped buffer at `W5`, left at `W6` (what the launch reads at the end).
    Its windows' arrays are split out of the unscoped buffers on entry and put back at the exit contents on exit; the
    generator register goes into the region's invariant and comes back; nothing is owed; the kernel has no semaphore of
    its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    refine BIBase.Entails.trans ?_ (hin2 (V5 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V5 m ρ) c).Φ (Fin.last cfg2.N) from rfl]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's six segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of the segments: it is the chain of its items, and the segments' run is that chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state holds each unscoped buffer of each core at the last
    boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- THE FRAME, at any float model: every weakly fair execution of @main terminates, nothing faulting, and every final
    state has the nine argument arrays as launched: each is an unscoped buffer, read off `run_all` and walked back to
    the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run _ _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩)
    (run_all m ρ)

end Cert.KernelIdeal.Frame

end
-- ==== Proof.KI.Value0.lean ====
/-
  What the first TensorCore region leaves in its two result arrays, over the extended reals.

  The region walks 25 points; at point t it multiplies rows [4000 t, 4000 t + 4000) of the node features (128
  columns) by the 128 x 16 weight, scales row r of the product by the r-th entry of the one-column factor, and
  writes the rows back: once scaled into the half-width result, twice scaled into the single-float result.  On
  the extended reals a change of float format is the identity, so both results hold plain extended reals.

  Read index by index, with x the features, W the weight and d the factor as the region finds them:
    first result  (n, f) = (sum over k of x n k * W k f) * d n
    second result (n, f) = (sum over k of x n k * W k f) * d n * d n.

  The steps: the body's two stored values at an element of a block (`pay3_apply`, `pay4_apply`: the block product
  is a sum over the one contracted axis, the factor's column is spread over the 16 columns); the block a point
  writes back is the window's view of ONE whole-array function (`flushed3_eq`, `flushed4_eq`: every window's block
  at point t starts at row 4000 t, the weight's at row 0); row r lies in the block of point r / 4000 (`cover3`,
  `cover4`); so each array ends holding that function (`final0_3`, `final0_4`).
-/
import proofs.«400167_j37993280700520_3_alg».proof.Proof.KI.Region0
import Idealize.ShloMosaic.Lib.Pipeline.Value
import Idealize.ShloMosaic.Lib.ValueIdx
import Idealize.ShloMosaic.PureOps.Ideal.Laws

noncomputable section

namespace Cert.KernelIdeal.Val0

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The body's stored values at an element of a block -/

/-- The block product's left operand index on the row axis is the output's row … -/
theorem lhs_mm_0 (i : S4000x16.Idx) (q : dot_S4000x128_S128x16_S4000x16_1_0_0_1_n_n.contr.Idx) :
    (dot_S4000x128_S128x16_S4000x16_1_0_0_1_n_n.lhsIdx i q 0).val = (i 0).val := by
  unfold DotDims.lhsIdx
  rw [dif_neg (show ¬(0 : Fin S4000x128.rank) ∈ dot_S4000x128_S128x16_S4000x16_1_0_0_1_n_n.lhsBatch by decide), dif_pos (show (0 : Fin S4000x128.rank) ∈ dot_S4000x128_S128x16_S4000x16_1_0_0_1_n_n.lhsNonContracting by decide)]
  rfl
/-- … on the column axis the contracted position; -/
theorem lhs_mm_1 (i : S4000x16.Idx) (q : dot_S4000x128_S128x16_S4000x16_1_0_0_1_n_n.contr.Idx) :
    (dot_S4000x128_S128x16_S4000x16_1_0_0_1_n_n.lhsIdx i q 1).val = (q ⟨0, by decide⟩).val :=
  dot_S4000x128_S128x16_S4000x16_1_0_0_1_n_n.lhsIdx_val_of_single rfl i q
/-- the right operand's on the row axis is the contracted position … -/
theorem rhs_mm_0 (i : S4000x16.Idx) (q : dot_S4000x128_S128x16_S4000x16_1_0_0_1_n_n.contr.Idx) :
    (dot_S4000x128_S128x16_S4000x16_1_0_0_1_n_n.rhsIdx i q 0).val = (q ⟨0, by decide⟩).val :=
  dot_S4000x128_S128x16_S4000x16_1_0_0_1_n_n.rhsIdx_val_of_single rfl i q
/-- … on the column axis the output's column. -/
theorem rhs_mm_1 (i : S4000x16.Idx) (q : dot_S4000x128_S128x16_S4000x16_1_0_0_1_n_n.contr.Idx) :
    (dot_S4000x128_S128x16_S4000x16_1_0_0_1_n_n.rhsIdx i q 1).val = (i 1).val := by
  unfold DotDims.rhsIdx
  rw [dif_neg (show ¬(1 : Fin S128x16.rank) ∈ dot_S4000x128_S128x16_S4000x16_1_0_0_1_n_n.rhsBatch by decide), dif_pos (show (1 : Fin S128x16.rank) ∈ dot_S4000x128_S128x16_S4000x16_1_0_0_1_n_n.rhsNonContracting by decide)]
  rfl

/-- The block product into a zero accumulator, at row p and column q: row p of the left block against column q
    of the right block, summed over the 128 contracted positions. -/
theorem mm_apply {φ₁ φ₂ : FTy} (a : FVec Ideal S4000x128 φ₁) (b : FVec Ideal S128x16 φ₂) (p : Fin 4000) (q : Fin 16) :
    matmul dot_S4000x128_S128x16_S4000x16_1_0_0_1_n_n none a b (constant (F := Ideal) S4000x16 .f32 0x00000000#32) (ix2 p q)
      = ∑ k : Fin 128, a (ix2 p k) * b (ix2 k q) := by
  simp only [matmul]
  rw [Ideal.matmul_constant_zero_apply, ← Equiv.sum_comp (contrEquiv1 dot_S4000x128_S128x16_S4000x16_1_0_0_1_n_n 128 rfl rfl).symm]
  refine Finset.sum_congr rfl fun k _ => ?_
  have hk := contrEquiv1_symm_val dot_S4000x128_S128x16_S4000x16_1_0_0_1_n_n 128 rfl rfl k
  have el : dot_S4000x128_S128x16_S4000x16_1_0_0_1_n_n.lhsIdx (ix2 p q) ((contrEquiv1 dot_S4000x128_S128x16_S4000x16_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S4000x128_S128x16_S4000x16_1_0_0_1_n_n.rhsIdx (ix2 p q) ((contrEquiv1 dot_S4000x128_S128x16_S4000x16_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The product of the two loaded blocks (each first narrowed, the identity here) at an element. -/
theorem pay1_apply (x0 : Vec Ideal S4000x128 .f32) (x1 : Vec Ideal S128x16 .f32) (p : Fin 4000) (q : Fin 16) :
    k0_pay1 (F := Ideal) x0 x1 (ix2 p q) = ∑ k : Fin 128, x0 (ix2 p k) * x1 (ix2 k q) := by
  unfold k0_pay1
  exact mm_apply _ _ p q

/-- The factor's block recast to its own shape is itself. -/
theorem pay2_eq (x2 : Vec Ideal S4000x1 .f32) : k0_pay2 (F := Ideal) x2 = x2 := by
  unfold k0_pay2
  exact shapeCast_self _ _

/-- The one-column factor spread over the 16 columns reads its row's entry. -/
theorem spread_apply (x2 : S4000x1.Idx → EReal) (p : Fin 4000) (q : Fin 16) :
    broadcastTo S4000x16 x2 broadcasts_S4000x1_S4000x16 (ix2 p q) = x2 (ix2 p 0) :=
  broadcastTo_apply x2 broadcasts_S4000x1_S4000x16 (ix2 p q) (ix2 p 0) (fun a => match a with
    | ⟨0, _⟩ => by show p.val = if (4000 : Nat) = 1 then 0 else p.val; rw [if_neg (by decide)]
    | ⟨1, _⟩ => by show (0 : Nat) = if (1 : Nat) = 1 then 0 else q.val; rw [if_pos rfl])

/-- What the body stores into the half-width result, at an element: the product scaled once by the row's factor. -/
theorem pay3_apply (x0 : Vec Ideal S4000x128 .f32) (x1 : Vec Ideal S128x16 .f32) (x2 : Vec Ideal S4000x1 .f32) (p : Fin 4000) (q : Fin 16) :
    k0_pay3 (F := Ideal) x0 x1 x2 (ix2 p q) = (∑ k : Fin 128, x0 (ix2 p k) * x1 (ix2 k q)) * x2 (ix2 p 0) := by
  unfold k0_pay3
  show mulf (k0_pay1 (F := Ideal) x0 x1) (broadcastTo S4000x16 (k0_pay2 (F := Ideal) x2) broadcasts_S4000x1_S4000x16) (ix2 p q) = _
  rw [mulf_apply, pay1_apply, pay2_eq, spread_apply]

/-- What the body stores into the single-float result, at an element: the product scaled twice by the row's factor. -/
theorem pay4_apply (x0 : Vec Ideal S4000x128 .f32) (x1 : Vec Ideal S128x16 .f32) (x2 : Vec Ideal S4000x1 .f32) (p : Fin 4000) (q : Fin 16) :
    k0_pay4 (F := Ideal) x0 x1 x2 (ix2 p q) = (∑ k : Fin 128, x0 (ix2 p k) * x1 (ix2 k q)) * x2 (ix2 p 0) * x2 (ix2 p 0) := by
  unfold k0_pay4
  show mulf (mulf (k0_pay1 (F := Ideal) x0 x1) (broadcastTo S4000x16 (k0_pay2 (F := Ideal) x2) broadcasts_S4000x1_S4000x16)) (broadcastTo S4000x16 (k0_pay2 (F := Ideal) x2) broadcasts_S4000x1_S4000x16) (ix2 p q) = _
  rw [mulf_apply, mulf_apply, pay1_apply, pay2_eq, spread_apply]

/-! ## From blocks to the arrays -/

section Arrays
-- the TensorCore's buffer contents when the region is entered
variable (V : (c : Dev nD) → (b : Ref sig .tc) → Buf (Elt Ideal) ((c : Thread nD τ).loc b))

/-- The node features, the first weight and the normalising factor (as a column) as the region finds them. -/
abbrev xA (c : Dev nD) : Vec Ideal S100000x128 .f32 := V c main_arg0
abbrev wA (c : Dev nD) : Vec Ideal S128x16 .f32 := V c main_arg3
abbrev dA (c : Dev nD) : Vec Ideal S100000x1 .f32 := V c main_v11

/-- Row n of the features against column f of the weight, scaled once by node n's factor. -/
def scaled1 (c : Dev nD) (n : Fin 100000) (f : Fin 16) : EReal :=
  (∑ k : Fin 128, xA V c (ix2 n k) * wA V c (ix2 k f)) * dA V c (ix2 n 0)
/-- The same scaled twice. -/
def scaled2 (c : Dev nD) (n : Fin 100000) (f : Fin 16) : EReal :=
  (∑ k : Fin 128, xA V c (ix2 n k) * wA V c (ix2 k f)) * dA V c (ix2 n 0) * dA V c (ix2 n 0)

/-- The two whole-array functions the results end holding. -/
def G3 (c : Dev nD) : Vec Ideal S100000x16 .bf16 := fun i => scaled1 V c (i 0) (i 1)
def G4 (c : Dev nD) : Vec Ideal S100000x16 .f32 := fun i => scaled2 V c (i 0) (i 1)

theorem hz : (![0, 0] : Fin 2 → Nat) = fun _ => 0 := funext fun a => by fin_cases a <;> rfl

/-- The printed index maps, decided over the 25 points: every row-blocked window's block index at point t is (t, 0),
    the weight's is (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The three input blocks at point t, read at the elements the stored values use, are the arrays at the rows and
    columns the result window's block has there: the features' row and the factor's row move with the result's row,
    the weight stays. -/
theorem blocks_at (c : Dev nD) (t : Fin cfg0.N) (p : Fin 4000) (q : Fin 16)
    (r : Fin 100000) (hr : r.val = t.val * 4000 + p.val) :
    (∀ k : Fin 128, (Frame.iblk0 V c 0 t : Vec Ideal S4000x128 .f32) (ix2 p k) = xA V c (ix2 r k))
    ∧ (∀ k : Fin 128, (Frame.iblk0 V c 1 t : Vec Ideal S128x16 .f32) (ix2 k q) = wA V c (ix2 k q))
    ∧ (Frame.iblk0 V c 2 t : Vec Ideal S4000x1 .f32) (ix2 p 0) = dA V c (ix2 r 0) := by
  obtain ⟨e00, e01, e10, e11, e20, e21, -⟩ := idx_facts0 t
  refine ⟨fun k => ?_, fun k => ?_, ?_⟩
  · show V c main_arg0 (((cfg0.win 0).blk t).view.emb (ix2 p k)) = V c main_arg0 (ix2 r k)
    refine congrArg (V c main_arg0) (funext fun a => Fin.ext ?_)
    match a with
    | ⟨0, _⟩ => show win0_0.index t (0 : Fin 2) * 4000 + 1 * p.val = r.val; omega
    | ⟨1, _⟩ => show win0_0.index t (1 : Fin 2) * 128 + 1 * k.val = k.val; omega
  · show V c main_arg3 (((cfg0.win 1).blk t).view.emb (ix2 k q)) = V c main_arg3 (ix2 k q)
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 16 + 1 * q.val = q.val; omega
  · show V c main_v11 (((cfg0.win 2).blk t).view.emb (ix2 p 0)) = V c main_v11 (ix2 r 0)
    refine congrArg (V c main_v11) (funext fun a => Fin.ext ?_)
    match a with
    | ⟨0, _⟩ => show win0_2.index t (0 : Fin 2) * 4000 + 1 * p.val = r.val; omega
    | ⟨1, _⟩ => show win0_2.index t (1 : Fin 2) * 1 + 1 * (0 : Fin 1).val = (0 : Fin 1).val; omega

/-- What point t writes back to the half-width result is block t of `G3`. -/
theorem flushed3_eq (c : Dev nD) (t : Fin cfg0.N) :
    (Frame.dat0 (F := Ideal) V c).flushed 3 t = ((cfg0.win 3).blk t).view.read (Elt Ideal) (G3 V c) := by
  show (cfg0.win 3).cut (grid0.coords t) ((Frame.dat0 (F := Ideal) V c).after 3 t) = _
  rw [Frame.after0_3]
  unfold Frame.out0_3
  rw [View.canon_unit_zero hz]
  simp only [View.ld_unit_zero (S := S4000x128) hz, View.ld_unit_zero (S := S128x16) hz, View.ld_unit_zero (S := S4000x1) hz]
  funext j
  obtain ⟨p, q, rfl⟩ : ∃ (p : Fin 4000) (q : Fin 16), j = ix2 p q := ⟨j 0, j 1, eq_ix2 j⟩
  have ht : t.val < 25 := t.isLt
  obtain ⟨-, -, -, -, -, -, e30, e31, -⟩ := idx_facts0 t
  have hr : t.val * 4000 + p.val < 100000 := by have := p.isLt; omega
  obtain ⟨hx, hw, hd⟩ := blocks_at V c t p q ⟨t.val * 4000 + p.val, hr⟩ rfl
  show k0_pay3 (F := Ideal) (Frame.iblk0 V c 0 t) (Frame.iblk0 V c 1 t) (Frame.iblk0 V c 2 t) (ix2 p q) = G3 V c (((cfg0.win 3).blk t).view.emb (ix2 p q))
  rw [pay3_apply, hd]
  simp only [hx, hw]
  have he : ((cfg0.win 3).blk t).view.emb (ix2 p q) = (ix2 (⟨t.val * 4000 + p.val, hr⟩ : Fin 100000) q : S100000x16.Idx) := funext fun a => Fin.ext (by
    match a with
    | ⟨0, _⟩ => show win0_3.index t (0 : Fin 2) * 4000 + 1 * p.val = t.val * 4000 + p.val; omega
    | ⟨1, _⟩ => show win0_3.index t (1 : Fin 2) * 16 + 1 * q.val = q.val; omega)
  rw [he]
  rfl

/-- What point t writes back to the single-float result is block t of `G4`. -/
theorem flushed4_eq (c : Dev nD) (t : Fin cfg0.N) :
    (Frame.dat0 (F := Ideal) V c).flushed 4 t = ((cfg0.win 4).blk t).view.read (Elt Ideal) (G4 V c) := by
  show (cfg0.win 4).cut (grid0.coords t) ((Frame.dat0 (F := Ideal) V c).after 4 t) = _
  rw [Frame.after0_4]
  unfold Frame.out0_4
  rw [View.canon_unit_zero hz]
  simp only [View.ld_unit_zero (S := S4000x128) hz, View.ld_unit_zero (S := S128x16) hz, View.ld_unit_zero (S := S4000x1) hz]
  funext j
  obtain ⟨p, q, rfl⟩ : ∃ (p : Fin 4000) (q : Fin 16), j = ix2 p q := ⟨j 0, j 1, eq_ix2 j⟩
  have ht : t.val < 25 := t.isLt
  obtain ⟨-, -, -, -, -, -, -, -, e40, e41⟩ := idx_facts0 t
  have hr : t.val * 4000 + p.val < 100000 := by have := p.isLt; omega
  obtain ⟨hx, hw, hd⟩ := blocks_at V c t p q ⟨t.val * 4000 + p.val, hr⟩ rfl
  show k0_pay4 (F := Ideal) (Frame.iblk0 V c 0 t) (Frame.iblk0 V c 1 t) (Frame.iblk0 V c 2 t) (ix2 p q) = G4 V c (((cfg0.win 4).blk t).view.emb (ix2 p q))
  rw [pay4_apply, hd]
  simp only [hx, hw]
  have he : ((cfg0.win 4).blk t).view.emb (ix2 p q) = (ix2 (⟨t.val * 4000 + p.val, hr⟩ : Fin 100000) q : S100000x16.Idx) := funext fun a => Fin.ext (by
    match a with
    | ⟨0, _⟩ => show win0_4.index t (0 : Fin 2) * 4000 + 1 * p.val = t.val * 4000 + p.val; omega
    | ⟨1, _⟩ => show win0_4.index t (1 : Fin 2) * 16 + 1 * q.val = q.val; omega)
  rw [he]
  rfl

/-- An index of the half-width result is in point t's block iff each coordinate is in the block's range on its axis. -/
theorem mem_blk3 (t : Fin cfg0.N) (i : S100000x16.Idx) :
    i ∈ ((cfg0.win 3).blk t).view.set ↔ ∀ a : Fin 2, win0_3.index t a * S4000x16.size a ≤ (i a).val ∧ (i a).val < win0_3.index t a * S4000x16.size a + S4000x16.size a := by
  show i ∈ ((View.whole main_v12_0).slice (win0_3.rect t)).set ↔ _
  rw [View.set_slice_whole, Rect.mem_set_unit]
  exact Iff.rfl

/-- The same for the single-float result. -/
theorem mem_blk4 (t : Fin cfg0.N) (i : S100000x16.Idx) :
    i ∈ ((cfg0.win 4).blk t).view.set ↔ ∀ a : Fin 2, win0_4.index t a * S4000x16.size a ≤ (i a).val ∧ (i a).val < win0_4.index t a * S4000x16.size a + S4000x16.size a := by
  show i ∈ ((View.whole main_v12_1).slice (win0_4.rect t)).set ↔ _
  rw [View.set_slice_whole, Rect.mem_set_unit]
  exact Iff.rfl

/-- Row r of the half-width result lies in the block of point r / 4000, which writes back. -/
theorem cover3 (i : S100000x16.Idx) : ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 25 := N_0
  let t : Fin cfg0.N := ⟨(i 0).val / 4000, by rw [hN]; omega⟩
  have htv : t.val = (i 0).val / 4000 := rfl
  obtain ⟨-, -, -, -, -, -, e30, e31, -⟩ := idx_facts0 t
  refine ⟨t, flush0_3 t, ?_⟩
  rw [mem_blk3]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 16 ≤ (i 1).val ∧ (i 1).val < win0_3.index t (1 : Fin 2) * 16 + 16; omega

/-- Row r of the single-float result lies in the block of point r / 4000, which writes back. -/
theorem cover4 (i : S100000x16.Idx) : ∃ t : Fin cfg0.N, (cfg0.win 4).flush t = true ∧ i ∈ ((cfg0.win 4).blk t).view.set := by
  have hi0 : (i 0).val < 100000 := (i 0).isLt
  have hi1 : (i 1).val < 16 := (i 1).isLt
  have hN : cfg0.N = 25 := N_0
  let t : Fin cfg0.N := ⟨(i 0).val / 4000, by rw [hN]; omega⟩
  have htv : t.val = (i 0).val / 4000 := rfl
  obtain ⟨-, -, -, -, -, -, -, -, e40, e41⟩ := idx_facts0 t
  refine ⟨t, flush0_4 t, ?_⟩
  rw [mem_blk4]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 16 ≤ (i 1).val ∧ (i 1).val < win0_4.index t (1 : Fin 2) * 16 + 16; omega

/-- The half-width result after the region: `G3`. -/
theorem arr0_3 (c : Dev nD) : (Frame.dat0 (F := Ideal) V c).arrAt 3 cfg0.N = G3 V c :=
  (Frame.dat0 (F := Ideal) V c).arrAt_eq_of_cover 3 (G3 V c) (fun t _ => flushed3_eq V c t) cover3

/-- The single-float result after the region: `G4`. -/
theorem arr0_4 (c : Dev nD) : (Frame.dat0 (F := Ideal) V c).arrAt 4 cfg0.N = G4 V c :=
  (Frame.dat0 (F := Ideal) V c).arrAt_eq_of_cover 4 (G4 V c) (fun t _ => flushed4_eq V c t) cover4

/-- The half-width result after the region, element by element: the features times the weight, scaled once. -/
theorem final0_3 (c : Dev nD) (n : Fin 100000) (f : Fin 16) :
    (Frame.dat0 (F := Ideal) V c).arrAt 3 cfg0.N (ix2 n f) = (∑ k : Fin 128, xA V c (ix2 n k) * wA V c (ix2 k f)) * dA V c (ix2 n 0) :=
  congrFun (arr0_3 V c) (ix2 n f)

/-- The single-float result after the region, element by element: the features times the weight, scaled twice. -/
theorem final0_4 (c : Dev nD) (n : Fin 100000) (f : Fin 16) :
    (Frame.dat0 (F := Ideal) V c).arrAt 4 cfg0.N (ix2 n f) = (∑ k : Fin 128, xA V c (ix2 n k) * wA V c (ix2 k f)) * dA V c (ix2 n 0) * dA V c (ix2 n 0) :=
  congrFun (arr0_4 V c) (ix2 n f)

end Arrays

end Cert.KernelIdeal.Val0

end
-- ==== Proof.KI.Value1.lean ====
/-
  What region 1 (the second layer's dense half) leaves in its two output arrays, over the extended reals.

  With g the neighbours' aggregate, d the per-node factor, s the self-loop term, b the bias row and W the
  weight, as the region finds them, put  hid n k = max (d n * g n k + s n k + b k) 0.  Then the narrow output
  ends at  (sum over k of hid n k * W k f) * d n  and the wide one at that times d n once more, at every node n
  and feature f: grid point t writes rows [4000 t, 4000 t + 4000) of these, and the 25 points cover the array.
-/
import proofs.«400167_j37993280700520_3_alg».proof.Proof.KI.Region1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Cert.KernelIdeal Cert.KernelIdeal.Gen Idealize.ShloMosaic Idealize.ShloMosaic.TcCoe Idealize.SL.Sem
open Idealize.ShloMosaic.Pipeline (Dat)
open Idealize.ShloMosaic.ValueIdx

/-! ## The body's values at an index -/

theorem zeroOff1 : (![0, 0] : Fin 2 → Nat) = fun _ => 0 := funext fun a => by fin_cases a <;> rfl

/-- The clipped sum the product's first factor is made of, at row r and column k: the factor's column and the
    bias's row are spread over the block, the rest is entry by entry. -/
theorem clipped1_apply (d : FVec Ideal S4000x1 .f32) (g s : FVec Ideal S4000x16 .f32) (b : FVec Ideal S1x16 .f32) (r : Fin 4000) (k : Fin 16) :
    (maximumf (addf (addf (mulf (broadcastTo S4000x16 d broadcasts_S4000x1_S4000x16) g) s) (broadcastTo S4000x16 b broadcasts_S1x16_S4000x16))
        (broadcast S4000x16 (Scalar.ofBits .f32 0x00000000#32)) : FVec Ideal S4000x16 .f32) (ix2 r k)
      = max (d (ix2 r 0) * g (ix2 r k) + s (ix2 r k) + b (ix2 0 k)) 0 := by
  rw [maximumf_apply, addf_apply, addf_apply, mulf_apply, broadcast_apply]
  rw [broadcastTo_apply d broadcasts_S4000x1_S4000x16 (ix2 r k) (ix2 r 0) (fun a => by
    match a with
    | ⟨0, _⟩ => rfl
    | ⟨1, _⟩ => rfl)]
  rw [broadcastTo_apply b broadcasts_S1x16_S4000x16 (ix2 r k) (ix2 0 k) (fun a => by
    match a with
    | ⟨0, _⟩ => rfl
    | ⟨1, _⟩ => rfl)]
  show max _ (Ideal.ofBits .f32 0x00000000#32) = _
  rw [Ideal.ofBits_zero_f32]

/-! ### The product: one contracted axis of length 16 -/

theorem lhs_prod1_0 (i : S4000x32.Idx) (q : dot_S4000x16_S16x32_S4000x32_1_0_0_1_n_n.contr.Idx) :
    (dot_S4000x16_S16x32_S4000x32_1_0_0_1_n_n.lhsIdx i q 0).val = (i 0).val := by
  unfold DotDims.lhsIdx
  rw [dif_neg (show ¬(0 : Fin S4000x16.rank) ∈ dot_S4000x16_S16x32_S4000x32_1_0_0_1_n_n.lhsBatch by decide), dif_pos (show (0 : Fin S4000x16.rank) ∈ dot_S4000x16_S16x32_S4000x32_1_0_0_1_n_n.lhsNonContracting by decide)]
  rfl
theorem lhs_prod1_1 (i : S4000x32.Idx) (q : dot_S4000x16_S16x32_S4000x32_1_0_0_1_n_n.contr.Idx) :
    (dot_S4000x16_S16x32_S4000x32_1_0_0_1_n_n.lhsIdx i q 1).val = (q ⟨0, by decide⟩).val :=
  dot_S4000x16_S16x32_S4000x32_1_0_0_1_n_n.lhsIdx_val_of_single rfl i q
theorem rhs_prod1_0 (i : S4000x32.Idx) (q : dot_S4000x16_S16x32_S4000x32_1_0_0_1_n_n.contr.Idx) :
    (dot_S4000x16_S16x32_S4000x32_1_0_0_1_n_n.rhsIdx i q 0).val = (q ⟨0, by decide⟩).val :=
  dot_S4000x16_S16x32_S4000x32_1_0_0_1_n_n.rhsIdx_val_of_single rfl i q
theorem rhs_prod1_1 (i : S4000x32.Idx) (q : dot_S4000x16_S16x32_S4000x32_1_0_0_1_n_n.contr.Idx) :
    (dot_S4000x16_S16x32_S4000x32_1_0_0_1_n_n.rhsIdx i q 1).val = (i 1).val := by
  unfold DotDims.rhsIdx
  rw [dif_neg (show ¬(1 : Fin S16x32.rank) ∈ dot_S4000x16_S16x32_S4000x32_1_0_0_1_n_n.rhsBatch by decide), dif_pos (show (1 : Fin S16x32.rank) ∈ dot_S4000x16_S16x32_S4000x32_1_0_0_1_n_n.rhsNonContracting by decide)]
  rfl

/-- The block product into a zero accumulator, at row r and column f: the sum over the 16 shared columns. -/
theorem prod1_apply (a : FVec Ideal S4000x16 .bf16) (w : FVec Ideal S16x32 .bf16) (r : Fin 4000) (f : Fin 32) :
    (matmul dot_S4000x16_S16x32_S4000x32_1_0_0_1_n_n none a w (constant S4000x32 .f32 0x00000000#32) : FVec Ideal S4000x32 .f32) (ix2 r f)
      = ∑ k : Fin 16, a (ix2 r k) * w (ix2 k f) := by
  simp only [matmul]
  rw [Ideal.matmul_constant_zero_apply, ← Equiv.sum_comp (contrEquiv1 dot_S4000x16_S16x32_S4000x32_1_0_0_1_n_n 16 rfl rfl).symm]
  refine Finset.sum_congr rfl fun k _ => ?_
  have hk := contrEquiv1_symm_val dot_S4000x16_S16x32_S4000x32_1_0_0_1_n_n 16 rfl rfl k
  have el : dot_S4000x16_S16x32_S4000x32_1_0_0_1_n_n.lhsIdx (ix2 r f) ((contrEquiv1 dot_S4000x16_S16x32_S4000x32_1_0_0_1_n_n 16 rfl rfl).symm k) = ix2 r k := funext fun x => Fin.ext (by
    match x with
    | ⟨0, _⟩ => exact lhs_prod1_0 _ _
    | ⟨1, _⟩ => exact (lhs_prod1_1 _ _).trans hk)
  have er : dot_S4000x16_S16x32_S4000x32_1_0_0_1_n_n.rhsIdx (ix2 r f) ((contrEquiv1 dot_S4000x16_S16x32_S4000x32_1_0_0_1_n_n 16 rfl rfl).symm k) = ix2 k f := funext fun x => Fin.ext (by
    match x with
    | ⟨0, _⟩ => exact (rhs_prod1_0 _ _).trans hk
    | ⟨1, _⟩ => exact rhs_prod1_1 _ _)
  rw [el, er]

/-! ### The three payloads -/

/-- The clipped sum against the weight, at row r and column f. -/
theorem k1_pay2_apply (d : Vec Ideal S4000x1 .f32) (g s : Vec Ideal S4000x16 .f32) (b : Vec Ideal S1x16 .f32) (w : Vec Ideal S16x32 .f32) (r : Fin 4000) (f : Fin 32) :
    k1_pay2 d g s b w (ix2 r f) = ∑ k : Fin 16, max (d (ix2 r 0) * g (ix2 r k) + s (ix2 r k) + b (ix2 0 k)) 0 * w (ix2 k f) := by
  unfold k1_pay2 k1_pay1
  simp only [shapeCast_self]
  rw [prod1_apply]
  refine Finset.sum_congr rfl fun k _ => ?_
  rw [truncf_apply, truncf_apply, clipped1_apply]

/-- The narrow output's payload: that, scaled by the row's factor. -/
theorem k1_pay3_apply (d : Vec Ideal S4000x1 .f32) (g s : Vec Ideal S4000x16 .f32) (b : Vec Ideal S1x16 .f32) (w : Vec Ideal S16x32 .f32) (r : Fin 4000) (f : Fin 32) :
    k1_pay3 d g s b w (ix2 r f) = (∑ k : Fin 16, max (d (ix2 r 0) * g (ix2 r k) + s (ix2 r k) + b (ix2 0 k)) 0 * w (ix2 k f)) * d (ix2 r 0) := by
  unfold k1_pay3 k1_pay1
  simp only [shapeCast_self]
  rw [truncf_apply, mulf_apply, k1_pay2_apply]
  rw [broadcastTo_apply d broadcasts_S4000x1_S4000x32 (ix2 r f) (ix2 r 0) (fun a => by
    match a with
    | ⟨0, _⟩ => rfl
    | ⟨1, _⟩ => rfl)]

/-- The wide output's payload: scaled by the row's factor twice. -/
theorem k1_pay4_apply (d : Vec Ideal S4000x1 .f32) (g s : Vec Ideal S4000x16 .f32) (b : Vec Ideal S1x16 .f32) (w : Vec Ideal S16x32 .f32) (r : Fin 4000) (f : Fin 32) :
    k1_pay4 d g s b w (ix2 r f) = (∑ k : Fin 16, max (d (ix2 r 0) * g (ix2 r k) + s (ix2 r k) + b (ix2 0 k)) 0 * w (ix2 k f)) * d (ix2 r 0) * d (ix2 r 0) := by
  unfold k1_pay4 k1_pay1
  simp only [shapeCast_self]
  rw [mulf_apply, mulf_apply, k1_pay2_apply]
  rw [broadcastTo_apply d broadcasts_S4000x1_S4000x32 (ix2 r f) (ix2 r 0) (fun a => by
    match a with
    | ⟨0, _⟩ => rfl
    | ⟨1, _⟩ => rfl)]

/-! ## From blocks to the arrays -/

section Arrays
variable (V : (c : Dev nD) → (b : Ref sig .tc) → Buf (Elt Ideal) ((c : Thread nD τ).loc b))

/-- The five arrays the region reads, as it finds them: the neighbours' aggregate, the per-node factor, the
    self-loop term, the bias row and the weight. -/
abbrev gA (c : Dev nD) : Vec Ideal S100000x16 .f32 := V c main_v23
abbrev dA (c : Dev nD) : Vec Ideal S100000x1 .f32 := V c main_v11
abbrev sA (c : Dev nD) : Vec Ideal S100000x16 .f32 := V c main_v12_1
abbrev bA (c : Dev nD) : Vec Ideal S1x16 .f32 := V c main_v24
abbrev wA (c : Dev nD) : Vec Ideal S16x32 .f32 := V c main_arg5

/-- The hidden layer at node n, feature k: the scaled aggregate plus the self-loop term plus the bias, clipped at zero. -/
def hid (c : Dev nD) (n : Fin 100000) (k : Fin 16) : EReal :=
  max (dA V c (ix2 n 0) * gA V c (ix2 n k) + sA V c (ix2 n k) + bA V c (ix2 0 k)) 0

/-- What the two output arrays end holding at node n, feature f. -/
def narrowAt1 (c : Dev nD) (n : Fin 100000) (f : Fin 32) : EReal :=
  (∑ k : Fin 16, hid V c n k * wA V c (ix2 k f)) * dA V c (ix2 n 0)
def wideAt1 (c : Dev nD) (n : Fin 100000) (f : Fin 32) : EReal :=
  (∑ k : Fin 16, hid V c n k * wA V c (ix2 k f)) * dA V c (ix2 n 0) * dA V c (ix2 n 0)
/-- The same as whole arrays. -/
def narrowArr1 (c : Dev nD) : Vec Ideal S100000x32 .bf16 := fun i => narrowAt1 V c (i 0) (i 1)
def wideArr1 (c : Dev nD) : Vec Ideal S100000x32 .f32 := fun i => wideAt1 V c (i 0) (i 1)

/-- Where each window's block sits at grid point t, decided over the 25 points: the three row-blocked inputs
    and the two outputs at block row t, the bias and the weight at their only block. -/
theorem blockRow1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Row r of the aggregate's block at point t is row 4000 t + r of the array. -/
theorem aggBlock1_apply (c : Dev nD) (t : Fin cfg1.N) (r : Fin 4000) (k : Fin 16) (n : Fin 100000) (hn : n.val = 4000 * t.val + r.val) :
    (Frame.iblk1 V c 0 t : Vec Ideal S4000x16 .f32) (ix2 r k) = gA V c (ix2 n k) := by
  obtain ⟨e0, e1, -⟩ := blockRow1 t
  unfold Frame.iblk1
  rw [View.read_apply]
  show V c main_v23 _ = V c main_v23 _
  congr 1
  funext a; apply Fin.ext
  match a with
  | ⟨0, _⟩ => show win1_0.index t (0 : Fin 2) * 4000 + 1 * r.val = n.val; rw [e0, hn]; omega
  | ⟨1, _⟩ => show win1_0.index t (1 : Fin 2) * 16 + 1 * k.val = k.val; rw [e1]; omega

/-- Row r of the factor's block at point t is row 4000 t + r of the array. -/
theorem facBlock1_apply (c : Dev nD) (t : Fin cfg1.N) (r : Fin 4000) (n : Fin 100000) (hn : n.val = 4000 * t.val + r.val) :
    (Frame.iblk1 V c 1 t : Vec Ideal S4000x1 .f32) (ix2 r 0) = dA V c (ix2 n 0) := by
  obtain ⟨-, -, e0, e1, -⟩ := blockRow1 t
  unfold Frame.iblk1
  rw [View.read_apply]
  show V c main_v11 _ = V c main_v11 _
  congr 1
  funext a; apply Fin.ext
  match a with
  | ⟨0, _⟩ => show win1_1.index t (0 : Fin 2) * 4000 + 1 * r.val = n.val; rw [e0, hn]; omega
  | ⟨1, _⟩ => show win1_1.index t (1 : Fin 2) * 1 + 1 * 0 = 0; rw [e1]

/-- Row r of the self-loop term's block at point t is row 4000 t + r of the array. -/
theorem selfBlock1_apply (c : Dev nD) (t : Fin cfg1.N) (r : Fin 4000) (k : Fin 16) (n : Fin 100000) (hn : n.val = 4000 * t.val + r.val) :
    (Frame.iblk1 V c 2 t : Vec Ideal S4000x16 .f32) (ix2 r k) = sA V c (ix2 n k) := by
  obtain ⟨-, -, -, -, e0, e1, -⟩ := blockRow1 t
  unfold Frame.iblk1
  rw [View.read_apply]
  show V c main_v12_1 _ = V c main_v12_1 _
  congr 1
  funext a; apply Fin.ext
  match a with
  | ⟨0, _⟩ => show win1_2.index t (0 : Fin 2) * 4000 + 1 * r.val = n.val; rw [e0, hn]; omega
  | ⟨1, _⟩ => show win1_2.index t (1 : Fin 2) * 16 + 1 * k.val = k.val; rw [e1]; omega

/-- The bias's block is the whole row at every point. -/
theorem biasBlock1_apply (c : Dev nD) (t : Fin cfg1.N) (k : Fin 16) :
    (Frame.iblk1 V c 3 t : Vec Ideal S1x16 .f32) (ix2 0 k) = bA V c (ix2 0 k) := by
  obtain ⟨-, -, -, -, -, -, e0, e1, -⟩ := blockRow1 t
  unfold Frame.iblk1
  rw [View.read_apply]
  show V c main_v24 _ = V c main_v24 _
  congr 1
  funext a; apply Fin.ext
  match a with
  | ⟨0, _⟩ => show win1_3.index t (0 : Fin 2) * 1 + 1 * 0 = 0; rw [e0]
  | ⟨1, _⟩ => show win1_3.index t (1 : Fin 2) * 16 + 1 * k.val = k.val; rw [e1]; omega

/-- The weight's block is the whole weight at every point. -/
theorem weightBlock1_apply (c : Dev nD) (t : Fin cfg1.N) (k : Fin 16) (f : Fin 32) :
    (Frame.iblk1 V c 4 t : Vec Ideal S16x32 .f32) (ix2 k f) = wA V c (ix2 k f) := by
  obtain ⟨-, -, -, -, -, -, -, -, e0, e1, -⟩ := blockRow1 t
  unfold Frame.iblk1
  rw [View.read_apply]
  show V c main_arg5 _ = V c main_arg5 _
  congr 1
  funext a; apply Fin.ext
  match a with
  | ⟨0, _⟩ => show win1_4.index t (0 : Fin 2) * 16 + 1 * k.val = k.val; rw [e0]; omega
  | ⟨1, _⟩ => show win1_4.index t (1 : Fin 2) * 32 + 1 * f.val = f.val; rw [e1]; omega

/-- An output window's block at point t, read off a whole array: row r is row 4000 t + r. -/
theorem narrowBlock1_apply (G : Vec Ideal S100000x32 .bf16) (t : Fin cfg1.N) (r : Fin 4000) (f : Fin 32) (n : Fin 100000) (hn : n.val = 4000 * t.val + r.val) :
    (((cfg1.win 5).blk t).view.read (Elt Ideal) G : Vec Ideal S4000x32 .bf16) (ix2 r f) = G (ix2 n f) := by
  obtain ⟨-, -, -, -, -, -, -, -, -, -, e0, e1, -⟩ := blockRow1 t
  rw [View.read_apply]
  refine congrArg G (funext fun a => Fin.ext ?_)
  match a with
  | ⟨0, _⟩ => show win1_5.index t (0 : Fin 2) * 4000 + 1 * r.val = n.val; rw [e0, hn]; omega
  | ⟨1, _⟩ => show win1_5.index t (1 : Fin 2) * 32 + 1 * f.val = f.val; rw [e1]; omega
theorem wideBlock1_apply (G : Vec Ideal S100000x32 .f32) (t : Fin cfg1.N) (r : Fin 4000) (f : Fin 32) (n : Fin 100000) (hn : n.val = 4000 * t.val + r.val) :
    (((cfg1.win 6).blk t).view.read (Elt Ideal) G : Vec Ideal S4000x32 .f32) (ix2 r f) = G (ix2 n f) := by
  obtain ⟨-, -, -, -, -, -, -, -, -, -, -, -, e0, e1⟩ := blockRow1 t
  rw [View.read_apply]
  refine congrArg G (funext fun a => Fin.ext ?_)
  match a with
  | ⟨0, _⟩ => show win1_6.index t (0 : Fin 2) * 4000 + 1 * r.val = n.val; rw [e0, hn]; omega
  | ⟨1, _⟩ => show win1_6.index t (1 : Fin 2) * 32 + 1 * f.val = f.val; rw [e1]; omega

/-- Row 4000 t + r is a row of the arrays, for a grid point t and a block row r. -/
theorem row1_lt (t : Fin cfg1.N) (r : Fin 4000) : 4000 * t.val + r.val < 100000 := by
  have hN : cfg1.N = 25 := N_1
  have := t.isLt; have := r.isLt
  omega

/-- What point t writes back to the narrow output is block t of narrowArr1. -/
theorem flushed1_5_eq (c : Dev nD) (t : Fin cfg1.N) :
    (Frame.dat1 V c).flushed 5 t = ((cfg1.win 5).blk t).view.read (Elt Ideal) (narrowArr1 V c) := by
  show (cfg1.win 5).cut (grid1.coords t) ((Frame.dat1 V c).after 5 t) = _
  rw [Frame.after1_5]
  unfold Frame.out1_5
  rw [View.canon_unit_zero zeroOff1]
  simp only [View.ld_unit_zero (S := S4000x16) zeroOff1, View.ld_unit_zero (S := S4000x1) zeroOff1, View.ld_unit_zero (S := S1x16) zeroOff1, View.ld_unit_zero (S := S16x32) zeroOff1]
  funext j
  obtain ⟨r, f, rfl⟩ : ∃ (r : Fin 4000) (f : Fin 32), j = ix2 r f := ⟨j 0, j 1, eq_ix2 j⟩
  refine (k1_pay3_apply (Frame.iblk1 V c 1 t) (Frame.iblk1 V c 0 t) (Frame.iblk1 V c 2 t) (Frame.iblk1 V c 3 t) (Frame.iblk1 V c 4 t) r f).trans ?_
  rw [narrowBlock1_apply (narrowArr1 V c) t r f ⟨4000 * t.val + r.val, row1_lt t r⟩ rfl]
  show _ = narrowAt1 V c ⟨4000 * t.val + r.val, row1_lt t r⟩ f
  unfold narrowAt1 hid
  rw [facBlock1_apply V c t r ⟨4000 * t.val + r.val, row1_lt t r⟩ rfl]
  congr 1
  refine Finset.sum_congr rfl fun k _ => ?_
  rw [aggBlock1_apply V c t r k ⟨4000 * t.val + r.val, row1_lt t r⟩ rfl, selfBlock1_apply V c t r k ⟨4000 * t.val + r.val, row1_lt t r⟩ rfl,
    biasBlock1_apply V c t k, weightBlock1_apply V c t k f]

/-- What point t writes back to the wide output is block t of wideArr1. -/
theorem flushed1_6_eq (c : Dev nD) (t : Fin cfg1.N) :
    (Frame.dat1 V c).flushed 6 t = ((cfg1.win 6).blk t).view.read (Elt Ideal) (wideArr1 V c) := by
  show (cfg1.win 6).cut (grid1.coords t) ((Frame.dat1 V c).after 6 t) = _
  rw [Frame.after1_6]
  unfold Frame.out1_6
  rw [View.canon_unit_zero zeroOff1]
  simp only [View.ld_unit_zero (S := S4000x16) zeroOff1, View.ld_unit_zero (S := S4000x1) zeroOff1, View.ld_unit_zero (S := S1x16) zeroOff1, View.ld_unit_zero (S := S16x32) zeroOff1]
  funext j
  obtain ⟨r, f, rfl⟩ : ∃ (r : Fin 4000) (f : Fin 32), j = ix2 r f := ⟨j 0, j 1, eq_ix2 j⟩
  refine (k1_pay4_apply (Frame.iblk1 V c 1 t) (Frame.iblk1 V c 0 t) (Frame.iblk1 V c 2 t) (Frame.iblk1 V c 3 t) (Frame.iblk1 V c 4 t) r f).trans ?_
  rw [wideBlock1_apply (wideArr1 V c) t r f ⟨4000 * t.val + r.val, row1_lt t r⟩ rfl]
  show _ = wideAt1 V c ⟨4000 * t.val + r.val, row1_lt t r⟩ f
  unfold wideAt1 hid
  rw [facBlock1_apply V c t r ⟨4000 * t.val + r.val, row1_lt t r⟩ rfl]
  congr 2
  refine Finset.sum_congr rfl fun k _ => ?_
  rw [aggBlock1_apply V c t r k ⟨4000 * t.val + r.val, row1_lt t r⟩ rfl, selfBlock1_apply V c t r k ⟨4000 * t.val + r.val, row1_lt t r⟩ rfl,
    biasBlock1_apply V c t k, weightBlock1_apply V c t k f]

/-- An index of an output array is in point t's block iff each coordinate is in the block's range. -/
theorem mem_blk1_5 (t : Fin cfg1.N) (i : S100000x32.Idx) :
    i ∈ ((cfg1.win 5).blk t).view.set ↔ ∀ a : Fin 2, win1_5.index t a * S4000x32.size a ≤ (i a).val ∧ (i a).val < win1_5.index t a * S4000x32.size a + S4000x32.size a := by
  show i ∈ ((View.whole main_v25_0).slice (win1_5.rect t)).set ↔ _
  rw [View.set_slice_whole, Rect.mem_set_unit]
  exact Iff.rfl
theorem mem_blk1_6 (t : Fin cfg1.N) (i : S100000x32.Idx) :
    i ∈ ((cfg1.win 6).blk t).view.set ↔ ∀ a : Fin 2, win1_6.index t a * S4000x32.size a ≤ (i a).val ∧ (i a).val < win1_6.index t a * S4000x32.size a + S4000x32.size a := by
  show i ∈ ((View.whole main_v25_1).slice (win1_6.rect t)).set ↔ _
  rw [View.set_slice_whole, Rect.mem_set_unit]
  exact Iff.rfl

/-- Row n lies in the block of point n / 4000, and every point writes back: the 25 blocks cover each output array. -/
theorem covered1_5 (i : S100000x32.Idx) : ∃ t : Fin cfg1.N, (cfg1.win 5).flush t = true ∧ i ∈ ((cfg1.win 5).blk t).view.set := by
  have hN : cfg1.N = 25 := N_1
  have hi0 : (i 0).val < 100000 := (i 0).isLt
  have hi1 : (i 1).val < 32 := (i 1).isLt
  refine ⟨⟨(i 0).val / 4000, by omega⟩, flush1_5 _, ?_⟩
  rw [mem_blk1_5]
  obtain ⟨-, -, -, -, -, -, -, -, -, -, e0, e1, -⟩ := blockRow1 ⟨(i 0).val / 4000, by omega⟩
  intro a
  match a with
  | ⟨0, _⟩ =>
    show win1_5.index ⟨(i 0).val / 4000, _⟩ (0 : Fin 2) * 4000 ≤ (i 0).val ∧ (i 0).val < win1_5.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win1_5.index ⟨(i 0).val / 4000, _⟩ (1 : Fin 2) * 32 ≤ (i 1).val ∧ (i 1).val < win1_5.index ⟨(i 0).val / 4000, _⟩ (1 : Fin 2) * 32 + 32
    rw [e1]; omega
theorem covered1_6 (i : S100000x32.Idx) : ∃ t : Fin cfg1.N, (cfg1.win 6).flush t = true ∧ i ∈ ((cfg1.win 6).blk t).view.set := by
  have hN : cfg1.N = 25 := N_1
  have hi0 : (i 0).val < 100000 := (i 0).isLt
  have hi1 : (i 1).val < 32 := (i 1).isLt
  refine ⟨⟨(i 0).val / 4000, by omega⟩, flush1_6 _, ?_⟩
  rw [mem_blk1_6]
  obtain ⟨-, -, -, -, -, -, -, -, -, -, -, -, e0, e1⟩ := blockRow1 ⟨(i 0).val / 4000, by omega⟩
  intro a
  match a with
  | ⟨0, _⟩ =>
    show win1_6.index ⟨(i 0).val / 4000, _⟩ (0 : Fin 2) * 4000 ≤ (i 0).val ∧ (i 0).val < win1_6.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win1_6.index ⟨(i 0).val / 4000, _⟩ (1 : Fin 2) * 32 ≤ (i 1).val ∧ (i 1).val < win1_6.index ⟨(i 0).val / 4000, _⟩ (1 : Fin 2) * 32 + 32
    rw [e1]; omega

/-- The narrow output array after the region. -/
theorem narrow1_final (c : Dev nD) : (Frame.dat1 (F := Ideal) V c).arrAt 5 cfg1.N = narrowArr1 V c :=
  (Frame.dat1 V c).arrAt_eq_of_cover 5 (narrowArr1 V c) (fun t _ => flushed1_5_eq V c t) covered1_5
/-- The wide output array after the region. -/
theorem wide1_final (c : Dev nD) : (Frame.dat1 (F := Ideal) V c).arrAt 6 cfg1.N = wideArr1 V c :=
  (Frame.dat1 V c).arrAt_eq_of_cover 6 (wideArr1 V c) (fun t _ => flushed1_6_eq V c t) covered1_6

/-- The narrow output at node n, feature f: the hidden layer against the weight, scaled by the node's factor. -/
theorem final1_5 (c : Dev nD) (n : Fin 100000) (f : Fin 32) :
    (Frame.dat1 (F := Ideal) V c).arrAt 5 cfg1.N (ix2 n f) = (∑ k : Fin 16, hid V c n k * wA V c (ix2 k f)) * dA V c (ix2 n 0) := by
  rw [narrow1_final]; rfl
/-- The wide output at node n, feature f: the same, scaled by the node's factor twice. -/
theorem final1_6 (c : Dev nD) (n : Fin 100000) (f : Fin 32) :
    (Frame.dat1 (F := Ideal) V c).arrAt 6 cfg1.N (ix2 n f) = (∑ k : Fin 16, hid V c n k * wA V c (ix2 k f)) * dA V c (ix2 n 0) * dA V c (ix2 n 0) := by
  rw [wide1_final]; rfl

end Arrays

end Cert.KernelIdeal.Val1

end
-- ==== Proof.KI.Value2.lean ====
/-
  What the pooling and read-out region leaves in its output array, index by index.

  The region walks the 100000 node rows in 25 blocks of 4000 rows.  For a block, the membership matrix has at (row r,
  graph g) the number 1 when the row's graph id, read as a signed integer, is g, and 0 otherwise.  Its transpose times
  the block's activated feature rows (the factor times the aggregate, plus the self-loop term, plus the bias, clipped
  at zero) is, per graph and feature, the sum of that feature over the block's rows belonging to the graph; its
  transpose times a column of ones is the number of such rows.  Two running totals carry these from block to block,
  starting from zero at the first block; so after block n they are the sums over the rows of blocks 0 to n, and after
  the last block, a node number being uniquely 4000 t + r with t < 25 and r < 4000, the sums over all the nodes of
  the graph and the number of its nodes.  The last block then stores, per graph and output column, the sum over the
  32 features of (total / max (count, 1)) times the read-out weight, plus the read-out bias; that one block is the
  whole output array and is written back once, after the last point, so the array ends holding exactly this.
-/
import proofs.«400167_j37993280700520_3_alg».proof.Proof.KI.Region2
import Idealize.ShloMosaic.Lib.Pipeline.Value
import Idealize.ShloMosaic.Lib.ValueIdx
import Idealize.ShloMosaic.PureOps.Ideal.Laws
import Idealize.ShloMosaic.Lib.IdealHost
import Mathlib.Algebra.BigOperators.Fin
import Mathlib.Data.Fintype.BigOperators
import Mathlib.Logic.Equiv.Fin.Basic

set_option maxRecDepth 16384

noncomputable section

namespace Cert.KernelIdeal.Val2

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## A row's membership in a graph, as a number -/

/-- A graph number below 256, as a 32-bit word, reads back as itself when the word is read signed. -/
theorem ofNat_toInt_small (g : Fin 256) : (BitVec.ofNat 32 g.val).toInt = (g.val : Int) := by
  have := g.isLt
  rw [BitVec.toInt_eq_toNat_cond, BitVec.toNat_ofNat]
  have h : g.val % 2 ^ 32 = g.val := Nat.mod_eq_of_lt (by omega)
  rw [h, if_pos (by omega)]

/-- The membership entry of a row whose graph id is the word `w`, against graph `g`: the comparison's bit, widened and
    converted, is 1 when `w` read signed is `g` and 0 otherwise. -/
theorem onehot_word (w : BitVec 32) (g : Fin 256) :
    FloatOps.sitofp (F := Ideal) .f32 ((IntOp.cmpi .eq w (BitVec.ofNat 32 g.val)).setWidth 32)
      = if w.toInt = (g.val : Int) then (1 : EReal) else 0 := by
  by_cases h : w = BitVec.ofNat 32 g.val
  · have hc : IntOp.cmpi .eq w (BitVec.ofNat 32 g.val) = 1#1 := by simp [IntOp.cmpi, h]
    rw [hc, if_pos (by rw [h]; exact ofNat_toInt_small g)]
    show (((((1#1 : BitVec 1).setWidth 32).toInt : ℝ)) : EReal) = 1
    have e : ((1#1 : BitVec 1).setWidth 32).toInt = 1 := by decide
    rw [e]; simp
  · have hc : IntOp.cmpi .eq w (BitVec.ofNat 32 g.val) = 0#1 := by
      show BitVec.ofBool (w == BitVec.ofNat 32 g.val) = 0#1
      rw [show (w == BitVec.ofNat 32 g.val) = false from beq_eq_false_iff_ne.mpr h]; rfl
    have hne : ¬ w.toInt = (g.val : Int) := fun hh => h (BitVec.eq_of_toInt_eq (hh.trans (ofNat_toInt_small g).symm))
    rw [hc, if_neg hne]
    show (((((0#1 : BitVec 1).setWidth 32).toInt : ℝ)) : EReal) = 0
    have e : ((0#1 : BitVec 1).setWidth 32).toInt = 0 := by decide
    rw [e]; simp

/-- The membership matrix of a block at row `r` and graph `g`: 1 when the row's graph id is `g`, else 0. -/
theorem pay5_apply (x4 : Vec Ideal S4000x1 .i32) (r : Fin 4000) (g : Fin 256) :
    k2_pay5 (F := Ideal) x4 (ix2 r g) = if (x4 (ix2 r 0)).toInt = (g.val : Int) then (1 : EReal) else 0 := by
  unfold k2_pay5
  dsimp only
  rw [truncf_apply, sitofp_apply, extui_apply]
  show FloatOps.sitofp (F := Ideal) .f32 ((IntOp.cmpi .eq (broadcastTo S4000x256 (shapeCast S4000x1 x4 shapeCasts_S4000x1_S4000x1) broadcasts_S4000x1_S4000x256 (ix2 r g)) (iota .tc S4000x256 32 [1] iota_S4000x256_d1_w32 (ix2 r g))).setWidth 32) = _
  rw [shapeCast_self, iota_single_apply, broadcastTo_apply x4 broadcasts_S4000x1_S4000x256 (ix2 r g) (ix2 r 0) (fun a => by
    match a with
    | ⟨0, _⟩ => rfl
    | ⟨1, _⟩ => rfl)]
  exact onehot_word _ g

/-! ## The two contractions over the block's rows -/

/-- Both operands are contracted along their rows: the left operand is read at (row, the result's graph), the right at
    (row, the result's column). -/
theorem lhsS_0 (i : S256x32.Idx) (q : dot_S4000x256_S4000x32_S256x32_0_0_1_1_n_n.contr.Idx) :
    (dot_S4000x256_S4000x32_S256x32_0_0_1_1_n_n.lhsIdx i q 0).val = (q ⟨0, by decide⟩).val :=
  dot_S4000x256_S4000x32_S256x32_0_0_1_1_n_n.lhsIdx_val_of_single rfl i q
theorem lhsS_1 (i : S256x32.Idx) (q : dot_S4000x256_S4000x32_S256x32_0_0_1_1_n_n.contr.Idx) :
    (dot_S4000x256_S4000x32_S256x32_0_0_1_1_n_n.lhsIdx i q 1).val = (i 0).val := by
  unfold DotDims.lhsIdx
  rw [dif_neg (show ¬(1 : Fin S4000x256.rank) ∈ dot_S4000x256_S4000x32_S256x32_0_0_1_1_n_n.lhsBatch by decide), dif_pos (show (1 : Fin S4000x256.rank) ∈ dot_S4000x256_S4000x32_S256x32_0_0_1_1_n_n.lhsNonContracting by decide)]
  rfl
theorem rhsS_0 (i : S256x32.Idx) (q : dot_S4000x256_S4000x32_S256x32_0_0_1_1_n_n.contr.Idx) :
    (dot_S4000x256_S4000x32_S256x32_0_0_1_1_n_n.rhsIdx i q 0).val = (q ⟨0, by decide⟩).val :=
  dot_S4000x256_S4000x32_S256x32_0_0_1_1_n_n.rhsIdx_val_of_single rfl i q
theorem rhsS_1 (i : S256x32.Idx) (q : dot_S4000x256_S4000x32_S256x32_0_0_1_1_n_n.contr.Idx) :
    (dot_S4000x256_S4000x32_S256x32_0_0_1_1_n_n.rhsIdx i q 1).val = (i 1).val := by
  unfold DotDims.rhsIdx
  rw [dif_neg (show ¬(1 : Fin S4000x32.rank) ∈ dot_S4000x256_S4000x32_S256x32_0_0_1_1_n_n.rhsBatch by decide), dif_pos (show (1 : Fin S4000x32.rank) ∈ dot_S4000x256_S4000x32_S256x32_0_0_1_1_n_n.rhsNonContracting by decide)]
  rfl

/-- The membership matrix's transpose times a block of rows, into zero: per graph and column, the sum over the
    block's rows of the membership entry times the row's entry. -/
theorem dotS_apply (a : FVec Ideal S4000x256 .bf16) (b : FVec Ideal S4000x32 .bf16) (g : Fin 256) (f : Fin 32) :
    matmul dot_S4000x256_S4000x32_S256x32_0_0_1_1_n_n none a b (constant S256x32 .f32 0x00000000#32) (ix2 g f)
      = ∑ r : Fin 4000, a (ix2 r g) * b (ix2 r f) := by
  simp only [matmul]
  rw [Ideal.matmul_constant_zero_apply, ← Equiv.sum_comp (contrEquiv1 dot_S4000x256_S4000x32_S256x32_0_0_1_1_n_n 4000 rfl rfl).symm]
  refine Finset.sum_congr rfl fun k _ => ?_
  have hk := contrEquiv1_symm_val dot_S4000x256_S4000x32_S256x32_0_0_1_1_n_n 4000 rfl rfl k
  have el : dot_S4000x256_S4000x32_S256x32_0_0_1_1_n_n.lhsIdx (ix2 g f) ((contrEquiv1 dot_S4000x256_S4000x32_S256x32_0_0_1_1_n_n 4000 rfl rfl).symm k) = ix2 k g := funext fun a => Fin.ext (by
    match a with
    | ⟨0, _⟩ => exact (lhsS_0 _ _).trans hk
    | ⟨1, _⟩ => exact lhsS_1 _ _)
  have er : dot_S4000x256_S4000x32_S256x32_0_0_1_1_n_n.rhsIdx (ix2 g f) ((contrEquiv1 dot_S4000x256_S4000x32_S256x32_0_0_1_1_n_n 4000 rfl rfl).symm k) = ix2 k f := funext fun a => Fin.ext (by
    match a with
    | ⟨0, _⟩ => exact (rhsS_0 _ _).trans hk
    | ⟨1, _⟩ => exact rhsS_1 _ _)
  rw [el, er]

/-- The same reading of the operands for the one-column right operand. -/
theorem lhsC_0 (i : S256x1.Idx) (q : dot_S4000x256_S4000x1_S256x1_0_0_1_1_n_n.contr.Idx) :
    (dot_S4000x256_S4000x1_S256x1_0_0_1_1_n_n.lhsIdx i q 0).val = (q ⟨0, by decide⟩).val :=
  dot_S4000x256_S4000x1_S256x1_0_0_1_1_n_n.lhsIdx_val_of_single rfl i q
theorem lhsC_1 (i : S256x1.Idx) (q : dot_S4000x256_S4000x1_S256x1_0_0_1_1_n_n.contr.Idx) :
    (dot_S4000x256_S4000x1_S256x1_0_0_1_1_n_n.lhsIdx i q 1).val = (i 0).val := by
  unfold DotDims.lhsIdx
  rw [dif_neg (show ¬(1 : Fin S4000x256.rank) ∈ dot_S4000x256_S4000x1_S256x1_0_0_1_1_n_n.lhsBatch by decide), dif_pos (show (1 : Fin S4000x256.rank) ∈ dot_S4000x256_S4000x1_S256x1_0_0_1_1_n_n.lhsNonContracting by decide)]
  rfl
theorem rhsC_0 (i : S256x1.Idx) (q : dot_S4000x256_S4000x1_S256x1_0_0_1_1_n_n.contr.Idx) :
    (dot_S4000x256_S4000x1_S256x1_0_0_1_1_n_n.rhsIdx i q 0).val = (q ⟨0, by decide⟩).val :=
  dot_S4000x256_S4000x1_S256x1_0_0_1_1_n_n.rhsIdx_val_of_single rfl i q
theorem rhsC_1 (i : S256x1.Idx) (q : dot_S4000x256_S4000x1_S256x1_0_0_1_1_n_n.contr.Idx) :
    (dot_S4000x256_S4000x1_S256x1_0_0_1_1_n_n.rhsIdx i q 1).val = (i 1).val := by
  unfold DotDims.rhsIdx
  rw [dif_neg (show ¬(1 : Fin S4000x1.rank) ∈ dot_S4000x256_S4000x1_S256x1_0_0_1_1_n_n.rhsBatch by decide), dif_pos (show (1 : Fin S4000x1.rank) ∈ dot_S4000x256_S4000x1_S256x1_0_0_1_1_n_n.rhsNonContracting by decide)]
  rfl

/-- The same contraction against a single column. -/
theorem dotC_apply (a : FVec Ideal S4000x256 .bf16) (b : FVec Ideal S4000x1 .bf16) (g : Fin 256) :
    matmul dot_S4000x256_S4000x1_S256x1_0_0_1_1_n_n none a b (constant S256x1 .f32 0x00000000#32) (ix2 g 0)
      = ∑ r : Fin 4000, a (ix2 r g) * b (ix2 r 0) := by
  simp only [matmul]
  rw [Ideal.matmul_constant_zero_apply, ← Equiv.sum_comp (contrEquiv1 dot_S4000x256_S4000x1_S256x1_0_0_1_1_n_n 4000 rfl rfl).symm]
  refine Finset.sum_congr rfl fun k _ => ?_
  have hk := contrEquiv1_symm_val dot_S4000x256_S4000x1_S256x1_0_0_1_1_n_n 4000 rfl rfl k
  have el : dot_S4000x256_S4000x1_S256x1_0_0_1_1_n_n.lhsIdx (ix2 g 0) ((contrEquiv1 dot_S4000x256_S4000x1_S256x1_0_0_1_1_n_n 4000 rfl rfl).symm k) = ix2 k g := funext fun a => Fin.ext (by
    match a with
    | ⟨0, _⟩ => exact (lhsC_0 _ _).trans hk
    | ⟨1, _⟩ => exact lhsC_1 _ _)
  have er : dot_S4000x256_S4000x1_S256x1_0_0_1_1_n_n.rhsIdx (ix2 g 0) ((contrEquiv1 dot_S4000x256_S4000x1_S256x1_0_0_1_1_n_n 4000 rfl rfl).symm k) = ix2 k 0 := funext fun a => Fin.ext (by
    match a with
    | ⟨0, _⟩ => exact (rhsC_0 _ _).trans hk
    | ⟨1, _⟩ => exact rhsC_1 _ _)
  rw [el, er]

/-! ## The read-out's contraction over the 32 features -/

/-- The read-out contracts the left operand's columns with the right operand's rows: the left is read at (graph, feature),
    the right at (feature, output column). -/
theorem lhsO_0 (i : S256x10.Idx) (q : dot_S256x32_S32x10_S256x10_1_0_0_1_n_n.contr.Idx) :
    (dot_S256x32_S32x10_S256x10_1_0_0_1_n_n.lhsIdx i q 0).val = (i 0).val := by
  unfold DotDims.lhsIdx
  rw [dif_neg (show ¬(0 : Fin S256x32.rank) ∈ dot_S256x32_S32x10_S256x10_1_0_0_1_n_n.lhsBatch by decide), dif_pos (show (0 : Fin S256x32.rank) ∈ dot_S256x32_S32x10_S256x10_1_0_0_1_n_n.lhsNonContracting by decide)]
  rfl
theorem lhsO_1 (i : S256x10.Idx) (q : dot_S256x32_S32x10_S256x10_1_0_0_1_n_n.contr.Idx) :
    (dot_S256x32_S32x10_S256x10_1_0_0_1_n_n.lhsIdx i q 1).val = (q ⟨0, by decide⟩).val :=
  dot_S256x32_S32x10_S256x10_1_0_0_1_n_n.lhsIdx_val_of_single rfl i q
theorem rhsO_0 (i : S256x10.Idx) (q : dot_S256x32_S32x10_S256x10_1_0_0_1_n_n.contr.Idx) :
    (dot_S256x32_S32x10_S256x10_1_0_0_1_n_n.rhsIdx i q 0).val = (q ⟨0, by decide⟩).val :=
  dot_S256x32_S32x10_S256x10_1_0_0_1_n_n.rhsIdx_val_of_single rfl i q
theorem rhsO_1 (i : S256x10.Idx) (q : dot_S256x32_S32x10_S256x10_1_0_0_1_n_n.contr.Idx) :
    (dot_S256x32_S32x10_S256x10_1_0_0_1_n_n.rhsIdx i q 1).val = (i 1).val := by
  unfold DotDims.rhsIdx
  rw [dif_neg (show ¬(1 : Fin S32x10.rank) ∈ dot_S256x32_S32x10_S256x10_1_0_0_1_n_n.rhsBatch by decide), dif_pos (show (1 : Fin S32x10.rank) ∈ dot_S256x32_S32x10_S256x10_1_0_0_1_n_n.rhsNonContracting by decide)]
  rfl

/-- The mean rows times the weight, into zero: per graph and output column, the sum over the 32 features. -/
theorem dotO_apply (a : FVec Ideal S256x32 .bf16) (b : FVec Ideal S32x10 .bf16) (g : Fin 256) (j : Fin 10) :
    matmul dot_S256x32_S32x10_S256x10_1_0_0_1_n_n none a b (constant S256x10 .f32 0x00000000#32) (ix2 g j)
      = ∑ f : Fin 32, a (ix2 g f) * b (ix2 f j) := by
  simp only [matmul]
  rw [Ideal.matmul_constant_zero_apply, ← Equiv.sum_comp (contrEquiv1 dot_S256x32_S32x10_S256x10_1_0_0_1_n_n 32 rfl rfl).symm]
  refine Finset.sum_congr rfl fun k _ => ?_
  have hk := contrEquiv1_symm_val dot_S256x32_S32x10_S256x10_1_0_0_1_n_n 32 rfl rfl k
  have el : dot_S256x32_S32x10_S256x10_1_0_0_1_n_n.lhsIdx (ix2 g j) ((contrEquiv1 dot_S256x32_S32x10_S256x10_1_0_0_1_n_n 32 rfl rfl).symm k) = ix2 g k := funext fun a => Fin.ext (by
    match a with
    | ⟨0, _⟩ => exact lhsO_0 _ _
    | ⟨1, _⟩ => exact (lhsO_1 _ _).trans hk)
  have er : dot_S256x32_S32x10_S256x10_1_0_0_1_n_n.rhsIdx (ix2 g j) ((contrEquiv1 dot_S256x32_S32x10_S256x10_1_0_0_1_n_n 32 rfl rfl).symm k) = ix2 k j := funext fun a => Fin.ext (by
    match a with
    | ⟨0, _⟩ => exact (rhsO_0 _ _).trans hk
    | ⟨1, _⟩ => exact rhsO_1 _ _)
  rw [el, er]

/-! ## The payloads at an index -/

/-- The cleared totals are zero everywhere. -/
theorem pay3_apply (i : S256x32.Idx) : k2_pay3 (F := Ideal) i = 0 := by
  unfold k2_pay3
  rw [shapeCast_self, broadcast_apply]
  exact Ideal.ofBits_zero_f32

/-- The cleared counts are zero everywhere. -/
theorem pay4_apply (i : S256x1.Idx) : k2_pay4 (F := Ideal) i = 0 := by
  unfold k2_pay4
  rw [shapeCast_self, broadcast_apply]
  exact Ideal.ofBits_zero_f32

/-- One point's feature totals: what was there plus, per graph and feature, the sum over the block's rows of the
    graph's members' activated feature. -/
theorem pay7_apply (x1 : Vec Ideal S4000x1 .f32) (x0 x2 : Vec Ideal S4000x32 .f32) (x3 : Vec Ideal S1x32 .f32)
    (x4 : Vec Ideal S4000x1 .i32) (s : Vec Ideal S256x32 .f32) (g : Fin 256) (f : Fin 32) :
    k2_pay7 (F := Ideal) x1 x0 x2 x3 x4 s (ix2 g f)
      = s (ix2 g f) + ∑ r : Fin 4000, (if (x4 (ix2 r 0)).toInt = (g.val : Int)
          then max (x1 (ix2 r 0) * x0 (ix2 r f) + x2 (ix2 r f) + x3 (ix2 0 f)) 0 else 0) := by
  unfold k2_pay7
  rw [shapeCast_self, addf_apply, dotS_apply]
  refine congrArg (s (ix2 g f) + ·) (Finset.sum_congr rfl fun r _ => ?_)
  rw [pay5_apply, truncf_apply, maximumf_apply, addf_apply, addf_apply, mulf_apply, shapeCast_self, shapeCast_self,
    shapeCast_self, shapeCast_self, broadcast_apply,
    broadcastTo_apply x1 broadcasts_S4000x1_S4000x32 (ix2 r f) (ix2 r 0) (fun a => by
      match a with
      | ⟨0, _⟩ => rfl
      | ⟨1, _⟩ => rfl),
    broadcastTo_apply x3 broadcasts_S1x32_S4000x32 (ix2 r f) (ix2 0 f) (fun a => by
      match a with
      | ⟨0, _⟩ => rfl
      | ⟨1, _⟩ => rfl)]
  show (if _ then (1 : EReal) else 0) * max _ (Ideal.ofBits .f32 0x00000000#32) = _
  rw [Ideal.ofBits_zero_f32]
  split_ifs
  · rw [one_mul]
  · rw [zero_mul]

/-- One point's node counts: what was there plus, per graph, the number of the block's rows that belong to it. -/
theorem pay1_6_apply (x4 : Vec Ideal S4000x1 .i32) (s : Vec Ideal S256x1 .f32) (g : Fin 256) :
    k2_pay1 (F := Ideal) (k2_pay6 x4) s (ix2 g 0)
      = s (ix2 g 0) + ∑ r : Fin 4000, (if (x4 (ix2 r 0)).toInt = (g.val : Int) then (1 : EReal) else 0) := by
  unfold k2_pay1 k2_pay6
  dsimp only
  rw [shapeCast_self, addf_apply, dotC_apply]
  refine congrArg (s (ix2 g 0) + ·) (Finset.sum_congr rfl fun r _ => ?_)
  rw [pay5_apply, broadcast_apply]
  show _ * Ideal.ofBits .bf16 0x3F80#16 = _
  rw [Ideal.ofBits_one_bf16, mul_one]

/-- The read-out: the per-graph mean (the total over the count, the count at least one) times the weight, plus the bias. -/
theorem pay2_apply (s9 : Vec Ideal S256x32 .f32) (s10 : Vec Ideal S256x1 .f32) (x5 : Vec Ideal S32x10 .f32)
    (x6 : Vec Ideal S1x10 .f32) (g : Fin 256) (j : Fin 10) :
    k2_pay2 (F := Ideal) s9 s10 x5 x6 (ix2 g j)
      = (∑ f : Fin 32, Ideal.div (s9 (ix2 g f)) (max (s10 (ix2 g 0)) 1) * x5 (ix2 f j)) + x6 (ix2 0 j) := by
  unfold k2_pay2
  rw [addf_apply, dotO_apply, shapeCast_self,
    broadcastTo_apply x6 broadcasts_S1x10_S256x10 (ix2 g j) (ix2 0 j) (fun a => by
      match a with
      | ⟨0, _⟩ => rfl
      | ⟨1, _⟩ => rfl)]
  refine congrArg (· + x6 (ix2 0 j)) (Finset.sum_congr rfl fun f _ => ?_)
  rw [truncf_apply, truncf_apply, divf_apply,
    broadcastTo_apply _ broadcasts_S256x1_S256x32 (ix2 g f) (ix2 g 0) (fun a => by
      match a with
      | ⟨0, _⟩ => rfl
      | ⟨1, _⟩ => rfl),
    maximumf_apply, broadcast_apply]
  show Ideal.div _ (max _ (Ideal.ofBits .f32 0x3F800000#32)) * _ = _
  rw [Ideal.ofBits_one_f32]

/-! ## The region's arrays, and the node a block's row is -/

/-- Row `r` of block `t` is node `4000 t + r` (taken below 100000 so that it is a node for every `t`). -/
def node (t : ℕ) (r : Fin 4000) : Fin 100000 := ⟨(4000 * t + r.val) % 100000, Nat.mod_lt _ (by decide)⟩

/-- For a block number below 25 no reduction happens. -/
theorem node_val (t : ℕ) (ht : t < 25) (r : Fin 4000) : (node t r).val = 4000 * t + r.val := by
  unfold node
  have := r.isLt
  exact Nat.mod_eq_of_lt (by omega)

/-- Summing over the 25 blocks and a block's 4000 rows is summing over the nodes: a node number is uniquely 4000 t + r. -/
theorem sum_blocks (G : Fin 100000 → EReal) :
    ∑ t ∈ Finset.range 25, ∑ r : Fin 4000, G (node t r) = ∑ n : Fin 100000, G n := by
  rw [Finset.sum_range (fun t => ∑ r : Fin 4000, G (node t r)),
    ← Fintype.sum_prod_type' (fun (t : Fin 25) (r : Fin 4000) => G (node t.val r))]
  refine Fintype.sum_equiv (finProdFinEquiv : Fin 25 × Fin 4000 ≃ Fin 100000) _ _ (fun x => ?_)
  refine congrArg G (Fin.ext ?_)
  rw [node_val _ x.1.isLt]
  show 4000 * x.1.val + x.2.val = x.2.val + 4000 * x.1.val
  omega

/-- Where each window's block sits at a point: the five row-blocked windows at block row `t`, the three whole ones at the origin. -/
theorem idx_rows : ∀ t : Fin cfg2.N,
    (win2_0.index t 0 = t.val ∧ win2_0.index t 1 = 0) ∧ (win2_1.index t 0 = t.val ∧ win2_1.index t 1 = 0)
    ∧ (win2_2.index t 0 = t.val ∧ win2_2.index t 1 = 0) ∧ (win2_3.index t 0 = 0 ∧ win2_3.index t 1 = 0)
    ∧ (win2_4.index t 0 = t.val ∧ win2_4.index t 1 = 0) ∧ (win2_5.index t 0 = 0 ∧ win2_5.index t 1 = 0)
    ∧ (win2_6.index t 0 = 0 ∧ win2_6.index t 1 = 0) ∧ (win2_7.index t 0 = 0 ∧ win2_7.index t 1 = 0) :=
  (by decide +kernel : ∀ t : Fin grid2.N, _)

/-- The grid has 25 points. -/
theorem lt25 (t : Fin cfg2.N) : t.val < 25 := lt_of_lt_of_eq t.isLt Frame.N2_eq

section AtV
variable (V : (c : Dev nD) → (b : Ref sig .tc) → Buf (Elt Ideal) ((c : Thread nD τ).loc b))

/-- The neighbours' aggregate, the factor, the self-loop term, the bias, each node's graph, the read-out weight and bias. -/
abbrev gA (c : Dev nD) : Vec Ideal S100000x32 .f32 := V c main_v36
abbrev dA (c : Dev nD) : Vec Ideal S100000x1 .f32 := V c main_v11
abbrev sA (c : Dev nD) : Vec Ideal S100000x32 .f32 := V c main_v25_1
abbrev bA (c : Dev nD) : Vec Ideal S1x32 .f32 := V c main_v38
abbrev batA (c : Dev nD) : IVec S100000x1 32 := V c main_v37
abbrev wfcA (c : Dev nD) : Vec Ideal S32x10 .f32 := V c main_arg7
abbrev bfcA (c : Dev nD) : Vec Ideal S1x10 .f32 := V c main_v39

/-- A node's activated second-layer feature: the factor times the aggregate, plus the self-loop term, plus the bias, clipped at zero. -/
def hid2 (c : Dev nD) (n : Fin 100000) (f : Fin 32) : EReal :=
  max (dA V c (ix2 n 0) * gA V c (ix2 n f) + sA V c (ix2 n f) + bA V c (ix2 0 f)) 0

/-! ## Each window's block read off its array -/

/-- Row `r` of a row-blocked window's block at point `t` is row `4000 t + r` of its array; a whole window's block is its array. -/
theorem blk0_apply (c : Dev nD) (t : Fin cfg2.N) (r : Fin 4000) (f : Fin 32) :
    (Frame.iblk2 V c 0 t : Vec Ideal S4000x32 .f32) (ix2 r f) = gA V c (ix2 (node t.val r) f) := by
  have hi := (idx_rows t).1
  unfold Frame.iblk2
  rw [View.read_apply]
  show V c main_v36 _ = V c main_v36 _
  congr 1
  funext a
  apply Fin.ext
  match a with
  | ⟨0, _⟩ => show win2_0.index t 0 * 4000 + 1 * r.val = (node t.val r).val; rw [hi.1, node_val _ (lt25 t)]; omega
  | ⟨1, _⟩ => show win2_0.index t 1 * 32 + 1 * f.val = f.val; rw [hi.2]; omega

theorem blk1_apply (c : Dev nD) (t : Fin cfg2.N) (r : Fin 4000) :
    (Frame.iblk2 V c 1 t : Vec Ideal S4000x1 .f32) (ix2 r 0) = dA V c (ix2 (node t.val r) 0) := by
  have hi := (idx_rows t).2.1
  unfold Frame.iblk2
  rw [View.read_apply]
  show V c main_v11 _ = V c main_v11 _
  congr 1
  funext a
  apply Fin.ext
  match a with
  | ⟨0, _⟩ => show win2_1.index t 0 * 4000 + 1 * r.val = (node t.val r).val; rw [hi.1, node_val _ (lt25 t)]; omega
  | ⟨1, _⟩ => show win2_1.index t 1 * 1 + 1 * 0 = 0; rw [hi.2]

theorem blk2_apply (c : Dev nD) (t : Fin cfg2.N) (r : Fin 4000) (f : Fin 32) :
    (Frame.iblk2 V c 2 t : Vec Ideal S4000x32 .f32) (ix2 r f) = sA V c (ix2 (node t.val r) f) := by
  have hi := (idx_rows t).2.2.1
  unfold Frame.iblk2
  rw [View.read_apply]
  show V c main_v25_1 _ = V c main_v25_1 _
  congr 1
  funext a
  apply Fin.ext
  match a with
  | ⟨0, _⟩ => show win2_2.index t 0 * 4000 + 1 * r.val = (node t.val r).val; rw [hi.1, node_val _ (lt25 t)]; omega
  | ⟨1, _⟩ => show win2_2.index t 1 * 32 + 1 * f.val = f.val; rw [hi.2]; omega

theorem blk3_apply (c : Dev nD) (t : Fin cfg2.N) (f : Fin 32) :
    (Frame.iblk2 V c 3 t : Vec Ideal S1x32 .f32) (ix2 0 f) = bA V c (ix2 0 f) := by
  have hi := (idx_rows t).2.2.2.1
  unfold Frame.iblk2
  rw [View.read_apply]
  show V c main_v38 _ = V c main_v38 _
  congr 1
  funext a
  apply Fin.ext
  match a with
  | ⟨0, _⟩ => show win2_3.index t 0 * 1 + 1 * 0 = 0; rw [hi.1]
  | ⟨1, _⟩ => show win2_3.index t 1 * 32 + 1 * f.val = f.val; rw [hi.2]; omega

theorem blk4_apply (c : Dev nD) (t : Fin cfg2.N) (r : Fin 4000) :
    (Frame.iblk2 V c 4 t : Vec Ideal S4000x1 .i32) (ix2 r 0) = batA V c (ix2 (node t.val r) 0) := by
  have hi := (idx_rows t).2.2.2.2.1
  unfold Frame.iblk2
  rw [View.read_apply]
  show V c main_v37 _ = V c main_v37 _
  congr 1
  funext a
  apply Fin.ext
  match a with
  | ⟨0, _⟩ => show win2_4.index t 0 * 4000 + 1 * r.val = (node t.val r).val; rw [hi.1, node_val _ (lt25 t)]; omega
  | ⟨1, _⟩ => show win2_4.index t 1 * 1 + 1 * 0 = 0; rw [hi.2]

theorem blk5_apply (c : Dev nD) (t : Fin cfg2.N) (f : Fin 32) (j : Fin 10) :
    (Frame.iblk2 V c 5 t : Vec Ideal S32x10 .f32) (ix2 f j) = wfcA V c (ix2 f j) := by
  have hi := (idx_rows t).2.2.2.2.2.1
  unfold Frame.iblk2
  rw [View.read_apply]
  show V c main_arg7 _ = V c main_arg7 _
  congr 1
  funext a
  apply Fin.ext
  match a with
  | ⟨0, _⟩ => show win2_5.index t 0 * 32 + 1 * f.val = f.val; rw [hi.1]; omega
  | ⟨1, _⟩ => show win2_5.index t 1 * 10 + 1 * j.val = j.val; rw [hi.2]; omega

theorem blk6_apply (c : Dev nD) (t : Fin cfg2.N) (j : Fin 10) :
    (Frame.iblk2 V c 6 t : Vec Ideal S1x10 .f32) (ix2 0 j) = bfcA V c (ix2 0 j) := by
  have hi := (idx_rows t).2.2.2.2.2.2.1
  unfold Frame.iblk2
  rw [View.read_apply]
  show V c main_v39 _ = V c main_v39 _
  congr 1
  funext a
  apply Fin.ext
  match a with
  | ⟨0, _⟩ => show win2_6.index t 0 * 1 + 1 * 0 = 0; rw [hi.1]
  | ⟨1, _⟩ => show win2_6.index t 1 * 10 + 1 * j.val = j.val; rw [hi.2]; omega

/-! ## One point's contribution, over the arrays -/

/-- What a point adds to the feature totals of graph `g`: the activated features of block `t`'s rows that belong to `g`. -/
theorem sumNext_blocks (c : Dev nD) (t : Fin cfg2.N) (s : Vec Ideal S256x32 .f32) (g : Fin 256) (f : Fin 32) :
    Frame.sumNext (Frame.iblk2 V c 0 t) (Frame.iblk2 V c 1 t) (Frame.iblk2 V c 2 t) (Frame.iblk2 V c 3 t) (Frame.iblk2 V c 4 t) s (ix2 g f)
      = s (ix2 g f) + ∑ r : Fin 4000, (if (batA V c (ix2 (node t.val r) 0)).toInt = (g.val : Int) then hid2 V c (node t.val r) f else 0) := by
  rw [Frame.sumNext_eq]
  refine (pay7_apply _ _ _ _ _ s g f).trans ?_
  refine congrArg (s (ix2 g f) + ·) (Finset.sum_congr rfl fun r _ => ?_)
  rw [blk4_apply V c t r, blk1_apply V c t r, blk0_apply V c t r f, blk2_apply V c t r f, blk3_apply V c t f]
  rfl

/-- What a point adds to the node count of graph `g`: the number of block `t`'s rows that belong to `g`. -/
theorem cntNext_blocks (c : Dev nD) (t : Fin cfg2.N) (s : Vec Ideal S256x1 .f32) (g : Fin 256) :
    Frame.cntNext (Frame.iblk2 V c 4 t) s (ix2 g 0)
      = s (ix2 g 0) + ∑ r : Fin 4000, (if (batA V c (ix2 (node t.val r) 0)).toInt = (g.val : Int) then (1 : EReal) else 0) := by
  rw [Frame.cntNext_eq]
  refine (pay1_6_apply _ s g).trans ?_
  refine congrArg (s (ix2 g 0) + ·) (Finset.sum_congr rfl fun r _ => ?_)
  rw [blk4_apply V c t r]

/-! ## The totals after point n -/

/-- After point `n` the feature totals of graph `g` are the activated features of its members among the rows of blocks 0 to `n`:
    the first point starts from the cleared totals, each later point adds its block to what the point before left. -/
theorem sum_at (c : Dev nD) (g : Fin 256) (f : Fin 32) : ∀ (n : ℕ) (h : n < cfg2.N),
    (Frame.accAt2 V c n h).1 (ix2 g f) = ∑ t ∈ Finset.range (n + 1), ∑ r : Fin 4000,
        (if (batA V c (ix2 (node t r) 0)).toInt = (g.val : Int) then hid2 V c (node t r) f else 0)
  | 0, h => by
    rw [Frame.accAt2_zero]
    show Frame.sumNext _ _ _ _ _ Frame.sumZero (ix2 g f) = _
    rw [sumNext_blocks V c ⟨0, h⟩, Frame.sumZero_eq, pay3_apply, zero_add, Finset.sum_range_one]
  | n + 1, h => by
    rw [Frame.accAt2_succ]
    show Frame.sumNext _ _ _ _ _ (Frame.accAt2 V c n (Nat.lt_of_succ_lt h)).1 (ix2 g f) = _
    rw [sumNext_blocks V c ⟨n + 1, h⟩, sum_at c g f n (Nat.lt_of_succ_lt h), Finset.sum_range_succ _ (n + 1)]

/-- The same for the counts: after point `n`, the number of graph `g`'s members among the rows of blocks 0 to `n`. -/
theorem cnt_at (c : Dev nD) (g : Fin 256) : ∀ (n : ℕ) (h : n < cfg2.N),
    (Frame.accAt2 V c n h).2 (ix2 g 0) = ∑ t ∈ Finset.range (n + 1), ∑ r : Fin 4000,
        (if (batA V c (ix2 (node t r) 0)).toInt = (g.val : Int) then (1 : EReal) else 0)
  | 0, h => by
    rw [Frame.accAt2_zero]
    show Frame.cntNext _ Frame.cntZero (ix2 g 0) = _
    rw [cntNext_blocks V c ⟨0, h⟩, Frame.cntZero_eq, pay4_apply, zero_add, Finset.sum_range_one]
  | n + 1, h => by
    rw [Frame.accAt2_succ]
    show Frame.cntNext _ (Frame.accAt2 V c n (Nat.lt_of_succ_lt h)).2 (ix2 g 0) = _
    rw [cntNext_blocks V c ⟨n + 1, h⟩, cnt_at c g n (Nat.lt_of_succ_lt h), Finset.sum_range_succ _ (n + 1)]

/-- After the last point the feature totals are the sums over all of a graph's nodes … -/
theorem sum_last (c : Dev nD) (g : Fin 256) (f : Fin 32) :
    (Frame.accAt2 V c 24 (by decide)).1 (ix2 g f)
      = ∑ n : Fin 100000, if (batA V c (ix2 n 0)).toInt = (g.val : Int) then hid2 V c n f else 0 := by
  rw [sum_at V c g f 24 (by decide)]
  exact sum_blocks (fun n => if (batA V c (ix2 n 0)).toInt = (g.val : Int) then hid2 V c n f else 0)

/-- … and the counts the numbers of a graph's nodes. -/
theorem cnt_last (c : Dev nD) (g : Fin 256) :
    (Frame.accAt2 V c 24 (by decide)).2 (ix2 g 0)
      = ∑ n : Fin 100000, if (batA V c (ix2 n 0)).toInt = (g.val : Int) then (1 : EReal) else 0 := by
  rw [cnt_at V c g 24 (by decide)]
  exact sum_blocks (fun n => if (batA V c (ix2 n 0)).toInt = (g.val : Int) then (1 : EReal) else 0)

/-! ## The output array -/

/-- The read-out of the completed totals, at an index. -/
theorem out2_7_apply (c : Dev nD) (g : Fin 256) (j : Fin 10) :
    Frame.out2_7 V c (ix2 g j)
      = (∑ f : Fin 32, Ideal.div (∑ n : Fin 100000, if (batA V c (ix2 n 0)).toInt = (g.val : Int) then hid2 V c n f else 0)
            (max (∑ n : Fin 100000, if (batA V c (ix2 n 0)).toInt = (g.val : Int) then (1 : EReal) else 0) 1) * wfcA V c (ix2 f j))
        + bfcA V c (ix2 0 j) := by
  unfold Frame.out2_7
  rw [Frame.outLast_eq]
  refine (pay2_apply _ _ _ _ g j).trans ?_
  rw [blk6_apply V c ⟨24, by decide⟩ j, cnt_last V c g]
  refine congrArg (· + bfcA V c (ix2 0 j)) (Finset.sum_congr rfl fun f _ => ?_)
  rw [blk5_apply V c ⟨24, by decide⟩ f j, sum_last V c g f]

/-- The last grid point. -/
abbrev tL : Fin cfg2.N := ⟨24, by decide⟩

/-- Block (0, 0) of the [256, 10] output window is the whole array: the staging buffer's contents are what its block of
    the array reads, for any contents. -/
theorem whole_block7 (X : Vec Ideal S256x10 .f32) :
    (cfg2.win 7).cut (grid2.coords tL) X = ((cfg2.win 7).blk tL).view.read (Elt Ideal) X := by
  have hz' : (fun a => win2_7.index tL a * main_v40.ty.shape.size a) = fun _ => 0 :=
    funext fun a => by fin_cases a <;> decide +kernel
  exact (Memref.read_access_unit_zero (Elt Ideal) main_v40 hz' (fun a => by rw [congrFun hz' a]; simp) X).symm

/-- The one write-back, after the last point, writes the read-out. -/
theorem flushed2_7 (c : Dev nD) (t : Fin cfg2.N) (hf : (cfg2.win 7).flush t = true) :
    (Frame.dat2 (F := Ideal) V c).flushed 7 t = ((cfg2.win 7).blk t).view.read (Elt Ideal) (Frame.out2_7 V c) := by
  have h1 : t.val = 24 := by have := (flush2_7 t).mp hf; have := lt25 t; omega
  obtain rfl : t = tL := Fin.ext h1
  show (cfg2.win 7).cut (grid2.coords tL) ((Frame.dat2 (F := Ideal) V c).after 7 tL) = _
  rw [Frame.after2_7]
  exact whole_block7 _

/-- So the output array ends holding the read-out. -/
theorem arr2_7 (c : Dev nD) : (Frame.dat2 (F := Ideal) V c).arrAt 7 cfg2.N = Frame.out2_7 V c :=
  (Frame.dat2 (F := Ideal) V c).arrAt_eq_of_cover 7 (Frame.out2_7 V c) (flushed2_7 V c) fun i =>
    ⟨tL, (flush2_7 tL).mpr rfl, by
      show i ∈ ((View.whole main_v40).slice (win2_7.rect tL)).set
      rw [View.set_slice_whole, Rect.mem_set_unit]
      intro a
      have h0 : (i 0 : Nat) < 256 := (i 0).isLt
      have h1 : (i 1 : Nat) < 10 := (i 1).isLt
      match a with
      | ⟨0, _⟩ => show win2_7.index tL 0 * win2_7.size 0 ≤ (i 0 : Nat) ∧ (i 0 : Nat) < win2_7.index tL 0 * win2_7.size 0 + win2_7.xsize (grid2.coords tL) 0
                  rw [show win2_7.index tL 0 * win2_7.size 0 = 0 from by decide +kernel, show win2_7.xsize (grid2.coords tL) 0 = 256 from by decide +kernel]; omega
      | ⟨1, _⟩ => show win2_7.index tL 1 * win2_7.size 1 ≤ (i 1 : Nat) ∧ (i 1 : Nat) < win2_7.index tL 1 * win2_7.size 1 + win2_7.xsize (grid2.coords tL) 1
                  rw [show win2_7.index tL 1 * win2_7.size 1 = 0 from by decide +kernel, show win2_7.xsize (grid2.coords tL) 1 = 10 from by decide +kernel]; omega⟩

/-- The region's output, index by index: per graph the mean activated feature row times the read-out weight, plus the read-out bias. -/
theorem final2_7 (c : Dev nD) (g : Fin 256) (j : Fin 10) :
    (Frame.dat2 (F := Ideal) V c).arrAt 7 cfg2.N (ix2 g j)
      = (∑ f : Fin 32, Ideal.div (∑ n : Fin 100000, if (batA V c (ix2 n 0)).toInt = (g.val : Int) then hid2 V c n f else 0)
            (max (∑ n : Fin 100000, if (batA V c (ix2 n 0)).toInt = (g.val : Int) then (1 : EReal) else 0) 1) * wfcA V c (ix2 f j))
        + bfcA V c (ix2 0 j) := by
  rw [arr2_7 V c]
  exact out2_7_apply V c g j

end AtV

end Cert.KernelIdeal.Val2

end
-- ==== Proof.Spec.lean ====
/-
  The function both programs compute, written once over the extended reals.

  A two-layer graph convolution with symmetric normalisation and self-loops, a mean pool over graphs and a
  linear read-out.  Nodes n < 100000, edges e < 3200000 given by two rows of signed 32-bit words (source and
  target), graphs g < 256 given by one signed word per node.

  * An edge whose target word, read as a signed integer, is the node number n contributes to node n; a target
    outside [0, 100000) contributes to no node.
  * An edge's source word names the node `rowOf`: a negative word is first raised by 100000, and the result is
    clamped into [0, 99999] (an indexing read never leaves the table).
  * deg n = (number of edges aimed at n) + 1 (the self-loop);  dinv n = 1 / sqrt (deg n).
  * One convolution of node features `lin` with bias b:
      conv lin b n f = max (dinv n * (sum over edges e aimed at n of lin (rowOf e) f * dinv (rowOf e))
                            + lin n f * dinv n * dinv n + b f) 0.
  * h1 = conv (x W1) b1,  h2 = conv (h1 W2) b2.
  * pooled g f = (sum of h2 n f over nodes n of graph g) / max (number of nodes of graph g) 1.
  * out g j = (sum over f of pooled g f * Wfc f j) + bfc j.
-/
import Idealize.ShloMosaic.PureOps.Ideal
import Mathlib.Algebra.BigOperators.Group.Finset.Basic
import Mathlib.Data.Fintype.BigOperators

noncomputable section

namespace Cert.GcnSpec

open Idealize.ShloMosaic

/-- The number of nodes, of edges, of graphs. -/
abbrev NN : Nat := 100000
abbrev EE : Nat := 3200000
abbrev GG : Nat := 256

/-- The table row a signed index word reads: a negative word raised by the table's length, then clamped into the table. -/
def rowOf (z : BitVec 32) : Fin NN :=
  ⟨min (if z.slt 0#32 then z + 100000#32 else z).toInt.toNat (NN - 1), by
    have : min (if z.slt 0#32 then z + 100000#32 else z).toInt.toNat (NN - 1) ≤ NN - 1 := Nat.min_le_right _ _
    have : NN - 1 < NN := by decide
    omega⟩

section
variable (src dst : Fin EE → BitVec 32) (bat : Fin NN → BitVec 32)
variable (x : Fin NN → Fin 128 → EReal) (W1 : Fin 128 → Fin 16 → EReal) (b1 : Fin 16 → EReal)
  (W2 : Fin 16 → Fin 32 → EReal) (b2 : Fin 32 → EReal) (Wfc : Fin 32 → Fin 10 → EReal) (bfc : Fin 10 → EReal)

/-- The edges aimed at node n, counted. -/
def cnt (n : Fin NN) : EReal := ∑ e : Fin EE, if (dst e).toInt = (n.val : Int) then (1 : EReal) else 0

/-- The degree with the self-loop. -/
def deg (n : Fin NN) : EReal := cnt dst n + 1

/-- The normalising factor of a node. -/
def dinv (n : Fin NN) : EReal := Ideal.rsqrt (deg dst n)

/-- What the edges aimed at n bring: each its source's features times its source's factor. -/
def agg {C : Nat} (lin : Fin NN → Fin C → EReal) (n : Fin NN) (f : Fin C) : EReal :=
  ∑ e : Fin EE, if (dst e).toInt = (n.val : Int) then lin (rowOf (src e)) f * dinv dst (rowOf (src e)) else 0

/-- One convolution: the neighbours' part scaled by the node's factor, the self-loop, the bias, clipped at zero. -/
def conv {C : Nat} (lin : Fin NN → Fin C → EReal) (b : Fin C → EReal) (n : Fin NN) (f : Fin C) : EReal :=
  max (dinv dst n * agg src dst lin n f + lin n f * dinv dst n * dinv dst n + b f) 0

def lin1 (n : Fin NN) (f : Fin 16) : EReal := ∑ k : Fin 128, x n k * W1 k f
def h1 (n : Fin NN) (f : Fin 16) : EReal := conv src dst (lin1 x W1) b1 n f
def lin2 (n : Fin NN) (f : Fin 32) : EReal := ∑ k : Fin 16, h1 src dst x W1 b1 n k * W2 k f
def h2 (n : Fin NN) (f : Fin 32) : EReal := conv src dst (lin2 src dst x W1 b1 W2) b2 n f

/-- The features of a graph's nodes, summed; and the nodes, counted. -/
def gsum (g : Fin GG) (f : Fin 32) : EReal :=
  ∑ n : Fin NN, if (bat n).toInt = (g.val : Int) then h2 src dst x W1 b1 W2 b2 n f else 0
def gcnt (g : Fin GG) : EReal := ∑ n : Fin NN, if (bat n).toInt = (g.val : Int) then (1 : EReal) else 0

/-- The mean over a graph's nodes (an empty graph divides by one). -/
def pooled (g : Fin GG) (f : Fin 32) : EReal :=
  Ideal.div (gsum src dst bat x W1 b1 W2 b2 g f) (max (gcnt bat g) 1)

/-- The result. -/
def out (g : Fin GG) (j : Fin 10) : EReal :=
  (∑ f : Fin 32, pooled src dst bat x W1 b1 W2 b2 g f * Wfc f j) + bfc j

end

end Cert.GcnSpec

end
-- ==== Proof.SpecAt.lean ====
/-
  The result function applied to the nine argument arrays in the shapes the programs hold them: node features
  [100000, 128], the two index rows [2, 3200000] (row 0 the sources, row 1 the targets), the graph of each node
  [100000], and the weights and biases of the two convolutions and of the read-out.
-/
import proofs.«400167_j37993280700520_3_alg».proof.Proof.Spec
import Idealize.ShloMosaic.Lib.ValueIdx

noncomputable section

namespace Cert.GcnSpec

open Idealize.ShloMosaic Idealize.ShloMosaic.ValueIdx

/-- The [256, 10] result as one function of the nine argument arrays. -/
def specOut
    (a0 : (⟨2, ![100000, 128]⟩ : Shape).Idx → EReal) (a1 : (⟨2, ![2, 3200000]⟩ : Shape).Idx → BitVec 32)
    (a2 : (⟨1, ![100000]⟩ : Shape).Idx → BitVec 32)
    (a3 : (⟨2, ![128, 16]⟩ : Shape).Idx → EReal) (a4 : (⟨1, ![16]⟩ : Shape).Idx → EReal)
    (a5 : (⟨2, ![16, 32]⟩ : Shape).Idx → EReal) (a6 : (⟨1, ![32]⟩ : Shape).Idx → EReal)
    (a7 : (⟨2, ![32, 10]⟩ : Shape).Idx → EReal) (a8 : (⟨1, ![10]⟩ : Shape).Idx → EReal) :
    (⟨2, ![256, 10]⟩ : Shape).Idx → EReal :=
  fun i => out (fun e => a1 (ix2 (0 : Fin 2) e)) (fun e => a1 (ix2 (1 : Fin 2) e)) (fun n => a2 (ix1 n))
    (fun n k => a0 (ix2 n k)) (fun k f => a3 (ix2 k f)) (fun f => a4 (ix1 f))
    (fun k f => a5 (ix2 k f)) (fun f => a6 (ix1 f)) (fun f j => a7 (ix2 f j)) (fun j => a8 (ix1 j)) (i 0) (i 1)

end Cert.GcnSpec

end
-- ==== Proof.LibGatherScatterRows.lean ====
/-
  Row gathers and row scatter-adds read at an index.

  A `stablehlo.gather` that picks whole rows of a rank-2 or rank-3 operand by one start index per
  result row (axis 0 collapsed, the other axes offset axes, slice sizes 1 × the row), and a float
  `stablehlo.scatter` with an `add` body that accumulates update rows into the operand's rows named by
  one scatter index per update row (axis 0 inserted, the other axes window axes), at the exact instance.
  Each statement takes an arbitrary dimension-number record with equations naming its fields, so it
  applies to any record whose fields are those lists by `rfl`.
-/
import Idealize.ShloMosaic.PureOps.ShapeOps
import Idealize.ShloMosaic.PureOps.Ideal
import Idealize.ShloMosaic.PureOps.Contract
import Idealize.ShloMosaic.Lib.ValueIdx
import Mathlib.Algebra.BigOperators.Group.Finset.Basic
import Mathlib.Data.Fintype.BigOperators

noncomputable section

namespace Idealize.ShloMosaic.RowsGS

open Idealize.ShloMosaic Idealize.ShloMosaic.ValueIdx

variable {N C A B E w : Nat} {α : Type}

/-! ## The row gather: the operand index a result index reads -/

/-- A signed start index that is a row number `n < N`, clamped into `[0, N − 1]`, is `n`. -/
private theorem clamp_eq {z : Int} (n : Fin N) (hz : z = (n.val : Int)) : min z.toNat (N - 1) = n.val := by
  rw [hz, Int.toNat_natCast]
  have := n.isLt
  omega

/-- Rank 2: result index `(e, c)` reads the operand at `(idx[e], c)`, the start inside the operand. -/
private theorem g2_operandIdx (wf) (idx : IVec ⟨2, ![E, 1]⟩ w) (e : Fin E) (c : Fin C) (n : Fin N)
    (hn : (idx (ix2 e 0)).toInt = (n.val : Int)) :
    (⟨[1], [0], [], [], [0], 1, ![1, C], wf⟩ : GatherDims ⟨2, ![N, C]⟩ ⟨2, ![E, 1]⟩ ⟨2, ![E, C]⟩).operandIdx
        (ix2 e c) idx = ix2 n c := by
  funext a
  refine Fin.ext ?_
  show GatherDims.start _ (ix2 e c) idx a + GatherDims.batchCoord _ (ix2 e c) a + GatherDims.offCoord _ (ix2 e c) a = _
  rw [GatherDims.batchCoord_eq_zero _ _ _ List.not_mem_nil, Nat.add_zero]
  match a with
  | ⟨0, _⟩ =>
    show GatherDims.start _ (ix2 e c) idx 0 + GatherDims.offCoord _ (ix2 e c) 0 = n.val
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[1], [0], [], [], [0], 1, ![1, C], wf⟩ :
        GatherDims ⟨2, ![N, C]⟩ ⟨2, ![E, 1]⟩ ⟨2, ![E, C]⟩) (ix2 e c)
        ⟨List.idxOf (0 : Fin 2) [0], List.idxOf_lt_length_iff.2 List.mem_cons_self⟩ = ix2 e 0 := by
      funext b'; refine Fin.ext ?_
      match b' with
      | ⟨0, _⟩ => rfl
      | ⟨1, _⟩ => rfl
    rw [hsi]
    exact clamp_eq n hn
  | ⟨1, _⟩ =>
    have hs : GatherDims.start (⟨[1], [0], [], [], [0], 1, ![1, C], wf⟩ :
        GatherDims ⟨2, ![N, C]⟩ ⟨2, ![E, 1]⟩ ⟨2, ![E, C]⟩) (ix2 e c) idx 1 = 0 := by
      unfold GatherDims.start; rw [dif_neg (by simp)]
    show GatherDims.start _ (ix2 e c) idx 1 + GatherDims.offCoord _ (ix2 e c) 1 = c.val
    rw [hs, Nat.zero_add]; rfl

/-- `x[idx]` over a rank-2 operand READ AT (e, c), the start inside the operand: the operand's row idx[e]. -/
theorem gather_rows2_apply (d : GatherDims ⟨2, ![N, C]⟩ ⟨2, ![E, 1]⟩ ⟨2, ![E, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (c : Fin C) (n : Fin N)
    (hn : (idx (ix2 e 0)).toInt = (n.val : Int)) :
    Host.gather d x idx (ix2 e c) = x (ix2 n c) := by
  obtain ⟨od, cs, ob, sb, sm, iv, ss, wf⟩ := d
  dsimp only at hod hcs hob hsb hsm hiv hss
  subst hod hcs hob hsb hsm hiv hss
  unfold Host.gather
  rw [g2_operandIdx wf idx e c n hn]

/-- Rank 3: result index `(e, a, b)` reads the operand at `(idx[e], a, b)`, the start inside the operand. -/
private theorem g3_operandIdx (wf) (idx : IVec ⟨2, ![E, 1]⟩ w) (e : Fin E) (a : Fin A) (b : Fin B) (n : Fin N)
    (hn : (idx (ix2 e 0)).toInt = (n.val : Int)) :
    (⟨[1, 2], [0], [], [], [0], 1, ![1, A, B], wf⟩ : GatherDims ⟨3, ![N, A, B]⟩ ⟨2, ![E, 1]⟩ ⟨3, ![E, A, B]⟩).operandIdx
        (ix3 e a b) idx = ix3 n a b := by
  funext k
  refine Fin.ext ?_
  show GatherDims.start _ (ix3 e a b) idx k + GatherDims.batchCoord _ (ix3 e a b) k + GatherDims.offCoord _ (ix3 e a b) k = _
  rw [GatherDims.batchCoord_eq_zero _ _ _ List.not_mem_nil, Nat.add_zero]
  match k with
  | ⟨0, _⟩ =>
    show GatherDims.start _ (ix3 e a b) idx 0 + GatherDims.offCoord _ (ix3 e a b) 0 = n.val
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[1, 2], [0], [], [], [0], 1, ![1, A, B], wf⟩ :
        GatherDims ⟨3, ![N, A, B]⟩ ⟨2, ![E, 1]⟩ ⟨3, ![E, A, B]⟩) (ix3 e a b)
        ⟨List.idxOf (0 : Fin 3) [0], List.idxOf_lt_length_iff.2 List.mem_cons_self⟩ = ix2 e 0 := by
      funext b'; refine Fin.ext ?_
      match b' with
      | ⟨0, _⟩ => rfl
      | ⟨1, _⟩ => rfl
    rw [hsi]
    exact clamp_eq n hn
  | ⟨1, _⟩ =>
    have hs : GatherDims.start (⟨[1, 2], [0], [], [], [0], 1, ![1, A, B], wf⟩ :
        GatherDims ⟨3, ![N, A, B]⟩ ⟨2, ![E, 1]⟩ ⟨3, ![E, A, B]⟩) (ix3 e a b) idx 1 = 0 := by
      unfold GatherDims.start; rw [dif_neg (by simp)]
    show GatherDims.start _ (ix3 e a b) idx 1 + GatherDims.offCoord _ (ix3 e a b) 1 = a.val
    rw [hs, Nat.zero_add]; rfl
  | ⟨2, _⟩ =>
    have hs : GatherDims.start (⟨[1, 2], [0], [], [], [0], 1, ![1, A, B], wf⟩ :
        GatherDims ⟨3, ![N, A, B]⟩ ⟨2, ![E, 1]⟩ ⟨3, ![E, A, B]⟩) (ix3 e a b) idx 2 = 0 := by
      unfold GatherDims.start; rw [dif_neg (by simp)]
    show GatherDims.start _ (ix3 e a b) idx 2 + GatherDims.offCoord _ (ix3 e a b) 2 = b.val
    rw [hs, Nat.zero_add]; rfl

/-- `x[idx]` over a rank-3 operand READ AT (e, a, b), the start inside the operand: the operand's slab idx[e]. -/
theorem gather_rows3_apply (d : GatherDims ⟨3, ![N, A, B]⟩ ⟨2, ![E, 1]⟩ ⟨3, ![E, A, B]⟩)
    (hod : d.offsetDims = [1, 2]) (hcs : d.collapsedSliceDims = [0]) (hob : d.operandBatchingDims = [])
    (hsb : d.startIndicesBatchingDims = []) (hsm : d.startIndexMap = [0]) (hiv : d.indexVectorDim = 1)
    (hss : d.sliceSizes = ![1, A, B])
    (x : (⟨3, ![N, A, B]⟩ : Shape).Idx → α) (idx : IVec ⟨2, ![E, 1]⟩ w) (e : Fin E) (a : Fin A) (b : Fin B) (n : Fin N)
    (hn : (idx (ix2 e 0)).toInt = (n.val : Int)) :
    Host.gather d x idx (ix3 e a b) = x (ix3 n a b) := by
  obtain ⟨od, cs, ob, sb, sm, iv, ss, wf⟩ := d
  dsimp only at hod hcs hob hsb hsm hiv hss
  subst hod hcs hob hsb hsm hiv hss
  unfold Host.gather
  rw [g3_operandIdx wf idx e a b n hn]

/-! ## The row scatter: the target of an update position -/

/-- An update position lands on `i` exactly when, on every axis, the signed start plus the window
    coordinate is `i`'s coordinate. -/
private theorem resultIdx?_eq_some {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  by_cases hr : ∀ a, 0 ≤ d.start j idx a + d.window j a ∧ d.start j idx a + d.window j a < s.size a
  · rw [dif_pos hr, Option.some_inj]
    constructor
    · intro h a
      have h2 := congrArg Fin.val (congrFun h a)
      simp only at h2
      have := (hr a).1
      omega
    · intro h; funext a; apply Fin.ext; have := h a; have := (hr a).1; simp only; omega
  · rw [dif_neg hr]
    constructor
    · intro h; cases h
    · intro h; exact absurd (fun a => by have := h a; have := (i a).isLt; omega) hr

/-- The window coordinate is zero on an inserted axis. -/
private theorem window_inserted {s si u : Shape} (d : ScatterDims s si u) (j : u.Idx) (a : Fin s.rank)
    (ha : a ∈ d.insertedWindowDims) : d.window j a = 0 := by
  unfold ScatterDims.window
  rw [dif_neg]
  simp [ScatterDims.sKept, Shape.kept, List.mem_filter, ha]

/-- The start is zero on an axis the scatter indices do not address. -/
private theorem start_unaddressed {s si u : Shape} (d : ScatterDims s si u) (j : u.Idx) (idx : IVec si w) (a : Fin s.rank)
    (ha : a ∉ d.scatterDimsToOperandDims) : d.start j idx a = 0 := by
  unfold ScatterDims.start
  rw [dif_neg ha]

/-- Rank 2, row axis: the start of update `(e, c')` is the scatter index of row `e`, read signed. -/
private theorem s2_start0 (wf) (idx : IVec ⟨2, ![E, 1]⟩ w) (e : Fin E) (c' : Fin C) :
    (⟨[1], [0], [0], 1, wf⟩ : ScatterDims ⟨2, ![N, C]⟩ ⟨2, ![E, 1]⟩ ⟨2, ![E, C]⟩).start (ix2 e c') idx 0
      = (idx (ix2 e 0)).toInt := by
  unfold ScatterDims.start
  rw [dif_pos (List.mem_cons_self)]
  congr 2
  funext b'; refine Fin.ext ?_
  match b' with
  | ⟨0, _⟩ => rfl
  | ⟨1, _⟩ => rfl

/-- Rank 2, column axis: the window coordinate of update `(e, c')` is `c'`. -/
private theorem s2_window1 (wf) (e : Fin E) (c' : Fin C) :
    (⟨[1], [0], [0], 1, wf⟩ : ScatterDims ⟨2, ![N, C]⟩ ⟨2, ![E, 1]⟩ ⟨2, ![E, C]⟩).window (ix2 e c') 1 = c'.val := rfl

/-- Rank 2: update `(e, c')` lands on `(n, c)` exactly when the scatter index of row `e`, read signed, is
    `n` and `c' = c`. -/
private theorem s2_resultIdx?_iff (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (idx : IVec ⟨2, ![E, 1]⟩ w) (e : Fin E) (c' : Fin C) (n : Fin N) (c : Fin C) :
    d.resultIdx? (ix2 e c') idx = some (ix2 n c) ↔ (idx (ix2 e 0)).toInt = (n.val : Int) ∧ c' = c := by
  obtain ⟨uw, iw, sd, iv, wf⟩ := d
  dsimp only at huw hiw hsd hiv
  subst huw hiw hsd hiv
  rw [resultIdx?_eq_some]
  have w0 := window_inserted (⟨[1], [0], [0], 1, wf⟩ : ScatterDims ⟨2, ![N, C]⟩ ⟨2, ![E, 1]⟩ ⟨2, ![E, C]⟩)
    (ix2 e c') 0 List.mem_cons_self
  have s1 := start_unaddressed (⟨[1], [0], [0], 1, wf⟩ : ScatterDims ⟨2, ![N, C]⟩ ⟨2, ![E, 1]⟩ ⟨2, ![E, C]⟩)
    (ix2 e c') idx 1 (by simp)
  constructor
  · intro h
    have h0 := h 0
    have h1 := h 1
    rw [s2_start0, w0, Nat.cast_zero, Int.add_zero] at h0
    rw [s1, s2_window1, Int.zero_add] at h1
    exact ⟨h0, Fin.ext (by exact_mod_cast h1)⟩
  · rintro ⟨h0, rfl⟩ a
    match a with
    | ⟨0, _⟩ =>
      show ScatterDims.start _ (ix2 e c') idx 0 + ((ScatterDims.window _ (ix2 e c') 0 : Nat) : Int) = _
      rw [s2_start0, w0, Nat.cast_zero, Int.add_zero]; exact h0
    | ⟨1, _⟩ =>
      show ScatterDims.start _ (ix2 e c') idx 1 + ((ScatterDims.window _ (ix2 e c') 1 : Nat) : Int) = _
      rw [s1, s2_window1, Int.zero_add]

/-- `x.at[idx].add(upd)` over a rank-2 operand READ AT (n, c), at the exact instance: the operand's element plus
    the sum of the update rows aimed at row n (a scatter index outside the operand aims at no row). -/
theorem scatterAdd_rows2_apply (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Host.scatterAdd (F := Ideal) (φ := .f32) d x idx upd (ix2 n c)
      = x (ix2 n c) + ∑ e : Fin E, if (idx (ix2 e 0)).toInt = (n.val : Int) then upd (ix2 e c) else 0 := by
  unfold Host.scatterAdd
  rw [Ideal.hostScatterAdd_def]
  unfold Ideal.hostScatterAdd
  congr 1
  rw [Finset.sum_filter, sum_idx2]
  refine Finset.sum_congr rfl fun e _ => ?_
  by_cases he : (idx (ix2 e 0)).toInt = (n.val : Int)
  · rw [if_pos he, Finset.sum_eq_single c]
    · rw [if_pos ((s2_resultIdx?_iff d huw hiw hsd hiv idx e c n c).2 ⟨he, rfl⟩)]
    · intro c' _ hc'
      rw [if_neg fun h => hc' ((s2_resultIdx?_iff d huw hiw hsd hiv idx e c' n c).1 h).2]
    · intro h; exact absurd (Finset.mem_univ _) h
  · rw [if_neg he]
    refine Finset.sum_eq_zero fun c' _ => ?_
    rw [if_neg fun h => he ((s2_resultIdx?_iff d huw hiw hsd hiv idx e c' n c).1 h).1]

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Rank 3, slab axis: the start of update `(e, a', b')` is the scatter index of slab `e`, read signed. -/
private theorem s3_start0 (wf) (idx : IVec ⟨2, ![E, 1]⟩ w) (e : Fin E) (a' : Fin A) (b' : Fin B) :
    (⟨[1, 2], [0], [0], 1, wf⟩ : ScatterDims ⟨3, ![N, A, B]⟩ ⟨2, ![E, 1]⟩ ⟨3, ![E, A, B]⟩).start (ix3 e a' b') idx 0
      = (idx (ix2 e 0)).toInt := by
  unfold ScatterDims.start
  rw [dif_pos (List.mem_cons_self)]
  congr 2
  funext k; refine Fin.ext ?_
  match k with
  | ⟨0, _⟩ => rfl
  | ⟨1, _⟩ => rfl

/-- Rank 3, second axis: the window coordinate of update `(e, a', b')` is `a'`. -/
private theorem s3_window1 (wf) (e : Fin E) (a' : Fin A) (b' : Fin B) :
    (⟨[1, 2], [0], [0], 1, wf⟩ : ScatterDims ⟨3, ![N, A, B]⟩ ⟨2, ![E, 1]⟩ ⟨3, ![E, A, B]⟩).window (ix3 e a' b') 1 = a'.val := rfl

/-- Rank 3, third axis: the window coordinate of update `(e, a', b')` is `b'`. -/
private theorem s3_window2 (wf) (e : Fin E) (a' : Fin A) (b' : Fin B) :
    (⟨[1, 2], [0], [0], 1, wf⟩ : ScatterDims ⟨3, ![N, A, B]⟩ ⟨2, ![E, 1]⟩ ⟨3, ![E, A, B]⟩).window (ix3 e a' b') 2 = b'.val := rfl

/-- Rank 3: update `(e, a', b')` lands on `(n, a, b)` exactly when the scatter index of slab `e`, read
    signed, is `n`, `a' = a` and `b' = b`. -/
private theorem s3_resultIdx?_iff (d : ScatterDims ⟨3, ![N, A, B]⟩ ⟨2, ![E, 1]⟩ ⟨3, ![E, A, B]⟩)
    (huw : d.updateWindowDims = [1, 2]) (hiw : d.insertedWindowDims = [0])
    (hsd : d.scatterDimsToOperandDims = [0]) (hiv : d.indexVectorDim = 1)
    (idx : IVec ⟨2, ![E, 1]⟩ w) (e : Fin E) (a' : Fin A) (b' : Fin B) (n : Fin N) (a : Fin A) (b : Fin B) :
    d.resultIdx? (ix3 e a' b') idx = some (ix3 n a b) ↔
      (idx (ix2 e 0)).toInt = (n.val : Int) ∧ a' = a ∧ b' = b := by
  obtain ⟨uw, iw, sd, iv, wf⟩ := d
  dsimp only at huw hiw hsd hiv
  subst huw hiw hsd hiv
  rw [resultIdx?_eq_some]
  have w0 := window_inserted (⟨[1, 2], [0], [0], 1, wf⟩ : ScatterDims ⟨3, ![N, A, B]⟩ ⟨2, ![E, 1]⟩ ⟨3, ![E, A, B]⟩)
    (ix3 e a' b') 0 List.mem_cons_self
  have s1 := start_unaddressed (⟨[1, 2], [0], [0], 1, wf⟩ : ScatterDims ⟨3, ![N, A, B]⟩ ⟨2, ![E, 1]⟩ ⟨3, ![E, A, B]⟩)
    (ix3 e a' b') idx 1 (by simp)
  have s2 := start_unaddressed (⟨[1, 2], [0], [0], 1, wf⟩ : ScatterDims ⟨3, ![N, A, B]⟩ ⟨2, ![E, 1]⟩ ⟨3, ![E, A, B]⟩)
    (ix3 e a' b') idx 2 (by simp)
  constructor
  · intro h
    have h0 := h 0
    have h1 := h 1
    have h2 := h 2
    rw [s3_start0, w0, Nat.cast_zero, Int.add_zero] at h0
    rw [s1, s3_window1, Int.zero_add] at h1
    rw [s2, s3_window2, Int.zero_add] at h2
    exact ⟨h0, Fin.ext (by exact_mod_cast h1), Fin.ext (by exact_mod_cast h2)⟩
  · rintro ⟨h0, rfl, rfl⟩ k
    match k with
    | ⟨0, _⟩ =>
      show ScatterDims.start _ (ix3 e a' b') idx 0 + ((ScatterDims.window _ (ix3 e a' b') 0 : Nat) : Int) = _
      rw [s3_start0, w0, Nat.cast_zero, Int.add_zero]; exact h0
    | ⟨1, _⟩ =>
      show ScatterDims.start _ (ix3 e a' b') idx 1 + ((ScatterDims.window _ (ix3 e a' b') 1 : Nat) : Int) = _
      rw [s1, s3_window1, Int.zero_add]
    | ⟨2, _⟩ =>
      show ScatterDims.start _ (ix3 e a' b') idx 2 + ((ScatterDims.window _ (ix3 e a' b') 2 : Nat) : Int) = _
      rw [s2, s3_window2, Int.zero_add]

/-- `x.at[idx].add(upd)` over a rank-3 operand READ AT (n, a, b), at the exact instance. -/
theorem scatterAdd_rows3_apply (d : ScatterDims ⟨3, ![N, A, B]⟩ ⟨2, ![E, 1]⟩ ⟨3, ![E, A, B]⟩)
    (huw : d.updateWindowDims = [1, 2]) (hiw : d.insertedWindowDims = [0])
    (hsd : d.scatterDimsToOperandDims = [0]) (hiv : d.indexVectorDim = 1)
    (x : (⟨3, ![N, A, B]⟩ : Shape).Idx → EReal) (idx : IVec ⟨2, ![E, 1]⟩ w) (upd : (⟨3, ![E, A, B]⟩ : Shape).Idx → EReal)
    (n : Fin N) (a : Fin A) (b : Fin B) :
    Host.scatterAdd (F := Ideal) (φ := .f32) d x idx upd (ix3 n a b)
      = x (ix3 n a b) + ∑ e : Fin E, if (idx (ix2 e 0)).toInt = (n.val : Int) then upd (ix3 e a b) else 0 := by
  unfold Host.scatterAdd
  rw [Ideal.hostScatterAdd_def]
  unfold Ideal.hostScatterAdd
  congr 1
  rw [Finset.sum_filter, sum_idx3]
  refine Finset.sum_congr rfl fun e _ => ?_
  by_cases he : (idx (ix2 e 0)).toInt = (n.val : Int)
  · rw [if_pos he, Finset.sum_eq_single a]
    · rw [Finset.sum_eq_single b]
      · rw [if_pos ((s3_resultIdx?_iff d huw hiw hsd hiv idx e a b n a b).2 ⟨he, rfl, rfl⟩)]
      · intro b' _ hb'
        rw [if_neg fun h => hb' ((s3_resultIdx?_iff d huw hiw hsd hiv idx e a b' n a b).1 h).2.2]
      · intro h; exact absurd (Finset.mem_univ _) h
    · intro a' _ ha'
      refine Finset.sum_eq_zero fun b' _ => ?_
      rw [if_neg fun h => ha' ((s3_resultIdx?_iff d huw hiw hsd hiv idx e a' b' n a b).1 h).2.1]
    · intro h; exact absurd (Finset.mem_univ _) h
  · rw [if_neg he]
    refine Finset.sum_eq_zero fun a' _ => Finset.sum_eq_zero fun b' _ => ?_
    rw [if_neg fun h => he ((s3_resultIdx?_iff d huw hiw hsd hiv idx e a' b' n a b).1 h).1]

end Idealize.ShloMosaic.RowsGS

end
-- ==== Proof.LibIndexOps.lean ====
/-
  Host gathers, scatter-adds, a concatenation and the index wrap read at an index, for arbitrary index words.

  A `stablehlo.gather` that picks rows (rank 2) or entries (rank 1) of an operand by one start index per
  result row reads the operand at the start index taken signed and clamped into the operand: no hypothesis
  that the index is in range is needed. A rank-1 float `stablehlo.scatter` with an `add` body, at the exact
  instance, is the operand's element plus the sum of the updates whose signed scatter index is that element's
  position (an index outside the operand aims at no element). A rank-1 concatenation of two vectors reads the
  first below its extent and the second, shifted, from there on. The index wrap that precedes a gather
  (add the extent to a negative index) is read word by word, and as a signed integer.
  Each statement takes an arbitrary dimension-number record with equations naming its fields, so it
  applies to any record whose fields are those lists by `rfl`.
-/
import Idealize.ShloMosaic.PureOps.ShapeOps
import Idealize.ShloMosaic.PureOps.Ideal
import Idealize.ShloMosaic.PureOps.Contract
import Idealize.ShloMosaic.Lib.ValueIdx
import Idealize.ShloMosaic.Lib.StableHlo.Predicate
import Idealize.ShloMosaic.Lib.Pipeline.Value
import Mathlib.Algebra.BigOperators.Group.Finset.Basic
import Mathlib.Algebra.BigOperators.Fin
import Mathlib.Data.Fintype.BigOperators

noncomputable section

namespace Idealize.ShloMosaic.IndexOps

open Idealize.ShloMosaic Idealize.ShloMosaic.ValueIdx

variable {N C A B E T w : Nat} {α : Type}

/-! ## The clamp of a signed start index -/

/-- The gather's clamp of a signed start `z` into the rows `[0, N − 1]` of a non-empty operand. -/
def clampRow (N : Nat) (hN : 0 < N) (z : Int) : Fin N := ⟨min z.toNat (N - 1), by omega⟩

/-- The clamped row's number: the start's non-negative part, capped at `N − 1`. -/
theorem clampRow_val (hN : 0 < N) (z : Int) : (clampRow N hN z).val = min z.toNat (N - 1) := rfl

/-- A start that is a row number is its own clamp. -/
theorem clampRow_of_eq (hN : 0 < N) {z : Int} (n : Fin N) (hz : z = (n.val : Int)) : clampRow N hN z = n := by
  apply Fin.ext
  show min z.toNat (N - 1) = n.val
  rw [hz, Int.toNat_natCast]
  have := n.isLt
  omega

/-- A negative start clamps to row 0. -/
theorem clampRow_of_neg (hN : 0 < N) {z : Int} (hz : z < 0) : clampRow N hN z = ⟨0, hN⟩ := by
  apply Fin.ext
  show min z.toNat (N - 1) = 0
  omega

/-- A start at or past the operand's end clamps to the last row. -/
theorem clampRow_of_ge (hN : 0 < N) {z : Int} (hz : (N : Int) ≤ z) : clampRow N hN z = ⟨N - 1, by omega⟩ := by
  apply Fin.ext
  show min z.toNat (N - 1) = N - 1
  omega

/-! ## Gathers at an arbitrary start index -/

/-- Rank 2: result index `(e, c)` reads the operand at `(clamp idx[e], c)`: on the row axis the slice has one row, so
    the start is clamped into `[0, N − 1]` and nothing is added to it; on the column axis the slice is the whole row,
    so the start is 0 and the offset is `c`. -/
private theorem g2_operandIdx (hN : 0 < N) (wf) (idx : IVec ⟨2, ![E, 1]⟩ w) (e : Fin E) (c : Fin C) :
    (⟨[1], [0], [], [], [0], 1, ![1, C], wf⟩ : GatherDims ⟨2, ![N, C]⟩ ⟨2, ![E, 1]⟩ ⟨2, ![E, C]⟩).operandIdx
        (ix2 e c) idx = ix2 (clampRow N hN (idx (ix2 e 0)).toInt) c := by
  funext a
  refine Fin.ext ?_
  show GatherDims.start _ (ix2 e c) idx a + GatherDims.batchCoord _ (ix2 e c) a + GatherDims.offCoord _ (ix2 e c) a = _
  rw [GatherDims.batchCoord_eq_zero _ _ _ List.not_mem_nil, Nat.add_zero]
  match a with
  | ⟨0, _⟩ =>
    show GatherDims.start _ (ix2 e c) idx 0 + GatherDims.offCoord _ (ix2 e c) 0 = min (idx (ix2 e 0)).toInt.toNat (N - 1)
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[1], [0], [], [], [0], 1, ![1, C], wf⟩ :
        GatherDims ⟨2, ![N, C]⟩ ⟨2, ![E, 1]⟩ ⟨2, ![E, C]⟩) (ix2 e c)
        ⟨List.idxOf (0 : Fin 2) [0], List.idxOf_lt_length_iff.2 List.mem_cons_self⟩ = ix2 e 0 := by
      funext b'; refine Fin.ext ?_
      match b' with
      | ⟨0, _⟩ => rfl
      | ⟨1, _⟩ => rfl
    rw [hsi]
    rfl
  | ⟨1, _⟩ =>
    have hs : GatherDims.start (⟨[1], [0], [], [], [0], 1, ![1, C], wf⟩ :
        GatherDims ⟨2, ![N, C]⟩ ⟨2, ![E, 1]⟩ ⟨2, ![E, C]⟩) (ix2 e c) idx 1 = 0 := by
      unfold GatherDims.start; rw [dif_neg (by simp)]
    show GatherDims.start _ (ix2 e c) idx 1 + GatherDims.offCoord _ (ix2 e c) 1 = c.val
    rw [hs, Nat.zero_add]; rfl

/-- `x[idx]` over a rank-2 operand READ AT (e, c), any index word: the operand's row at idx[e] read signed and clamped. -/
theorem gather_rows2_clamp (hN : 0 < N) (d : GatherDims ⟨2, ![N, C]⟩ ⟨2, ![E, 1]⟩ ⟨2, ![E, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (c : Fin C) :
    Host.gather d x idx (ix2 e c) = x (ix2 (clampRow N hN (idx (ix2 e 0)).toInt) c) := by
  obtain ⟨od, cs, ob, sb, sm, iv, ss, wf⟩ := d
  dsimp only at hod hcs hob hsb hsm hiv hss
  subst hod hcs hob hsb hsm hiv hss
  unfold Host.gather
  rw [g2_operandIdx hN wf idx e c]

/-- Rank 1: result index `e` reads the operand at `clamp idx[e]`: the one axis is collapsed, its slice one entry. -/
private theorem g1_operandIdx (hN : 0 < N) (wf) (idx : IVec ⟨2, ![E, 1]⟩ w) (e : Fin E) :
    (⟨[], [0], [], [], [0], 1, ![1], wf⟩ : GatherDims ⟨1, ![N]⟩ ⟨2, ![E, 1]⟩ ⟨1, ![E]⟩).operandIdx
        (ix1 e) idx = ix1 (clampRow N hN (idx (ix2 e 0)).toInt) := by
  funext a
  refine Fin.ext ?_
  show GatherDims.start _ (ix1 e) idx a + GatherDims.batchCoord _ (ix1 e) a + GatherDims.offCoord _ (ix1 e) a = _
  rw [GatherDims.batchCoord_eq_zero _ _ _ List.not_mem_nil, Nat.add_zero]
  match a with
  | ⟨0, _⟩ =>
    show GatherDims.start _ (ix1 e) idx 0 + GatherDims.offCoord _ (ix1 e) 0 = min (idx (ix2 e 0)).toInt.toNat (N - 1)
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[], [0], [], [], [0], 1, ![1], wf⟩ :
        GatherDims ⟨1, ![N]⟩ ⟨2, ![E, 1]⟩ ⟨1, ![E]⟩) (ix1 e)
        ⟨List.idxOf (0 : Fin 1) [0], List.idxOf_lt_length_iff.2 List.mem_cons_self⟩ = ix2 e 0 := by
      funext b'; refine Fin.ext ?_
      match b' with
      | ⟨0, _⟩ => rfl
      | ⟨1, _⟩ => rfl
    rw [hsi]
    rfl

/-- `x[idx]` over a rank-1 operand READ AT e, any index word: the operand's entry at idx[e] read signed and clamped. -/
theorem gather_rows1_clamp (hN : 0 < N) (d : GatherDims ⟨1, ![N]⟩ ⟨2, ![E, 1]⟩ ⟨1, ![E]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e) = x (ix1 (clampRow N hN (idx (ix2 e 0)).toInt)) := by
  obtain ⟨od, cs, ob, sb, sm, iv, ss, wf⟩ := d
  dsimp only at hod hcs hob hsb hsm hiv hss
  subst hod hcs hob hsb hsm hiv hss
  unfold Host.gather
  rw [g1_operandIdx hN wf idx e]

/-! ## The rank-1 scatter-add -/

/-- A rank-1 index set is its coordinate's range … -/
private def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An update position lands on `i` exactly when, on every axis, the signed start plus the window
    coordinate is `i`'s coordinate. -/
private theorem resultIdx?_eq_some {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  by_cases hr : ∀ a, 0 ≤ d.start j idx a + d.window j a ∧ d.start j idx a + d.window j a < s.size a
  · rw [dif_pos hr, Option.some_inj]
    constructor
    · intro h a
      have h2 := congrArg Fin.val (congrFun h a)
      simp only at h2
      have := (hr a).1
      omega
    · intro h; funext a; apply Fin.ext; have := h a; have := (hr a).1; simp only; omega
  · rw [dif_neg hr]
    constructor
    · intro h; cases h
    · intro h; exact absurd (fun a => by have := h a; have := (i a).isLt; omega) hr

/-- The window coordinate is zero on an inserted axis. -/
private theorem window_inserted {s si u : Shape} (d : ScatterDims s si u) (j : u.Idx) (a : Fin s.rank)
    (ha : a ∈ d.insertedWindowDims) : d.window j a = 0 := by
  unfold ScatterDims.window
  rw [dif_neg]
  simp [ScatterDims.sKept, Shape.kept, List.mem_filter, ha]

/-- Rank 1: the start of update `e` is the scatter index of position `e`, read signed. -/
private theorem s1_start0 (wf) (idx : IVec ⟨2, ![E, 1]⟩ w) (e : Fin E) :
    (⟨[], [0], [0], 1, wf⟩ : ScatterDims ⟨1, ![N]⟩ ⟨2, ![E, 1]⟩ ⟨1, ![E]⟩).start (ix1 e) idx 0
      = (idx (ix2 e 0)).toInt := by
  unfold ScatterDims.start
  rw [dif_pos (List.mem_cons_self)]
  congr 2
  funext b'; refine Fin.ext ?_
  match b' with
  | ⟨0, _⟩ => rfl
  | ⟨1, _⟩ => rfl

/-- Rank 1: update `e` lands on position `n` exactly when the scatter index of `e`, read signed, is `n`. -/
private theorem s1_resultIdx?_iff (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (idx : IVec ⟨2, ![E, 1]⟩ w) (e : Fin E) (n : Fin N) :
    d.resultIdx? (ix1 e) idx = some (ix1 n) ↔ (idx (ix2 e 0)).toInt = (n.val : Int) := by
  obtain ⟨uw, iw, sd, iv, wf⟩ := d
  dsimp only at huw hiw hsd hiv
  subst huw hiw hsd hiv
  rw [resultIdx?_eq_some]
  have w0 := window_inserted (⟨[], [0], [0], 1, wf⟩ : ScatterDims ⟨1, ![N]⟩ ⟨2, ![E, 1]⟩ ⟨1, ![E]⟩)
    (ix1 e) 0 List.mem_cons_self
  constructor
  · intro h
    have h0 := h 0
    rw [s1_start0, w0, Nat.cast_zero, Int.add_zero] at h0
    exact h0
  · intro h0 a
    match a with
    | ⟨0, _⟩ =>
      show ScatterDims.start _ (ix1 e) idx 0 + ((ScatterDims.window _ (ix1 e) 0 : Nat) : Int) = _
      rw [s1_start0, w0, Nat.cast_zero, Int.add_zero]; exact h0

/-- `x.at[idx].add(upd)` over a rank-1 operand READ AT n, at the exact instance: the operand's element plus the
    sum of the updates aimed at position n (a scatter index outside the operand aims at no position). -/
theorem scatterAdd_rows1_apply (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![E, 1]⟩ w) (upd : (⟨1, ![E]⟩ : Shape).Idx → EReal)
    (n : Fin N) :
    Host.scatterAdd (F := Ideal) (φ := .f32) d x idx upd (ix1 n)
      = x (ix1 n) + ∑ e : Fin E, if (idx (ix2 e 0)).toInt = (n.val : Int) then upd (ix1 e) else 0 := by
  unfold Host.scatterAdd
  rw [Ideal.hostScatterAdd_def]
  unfold Ideal.hostScatterAdd
  congr 1
  rw [Finset.sum_filter, sum_idx1]
  refine Finset.sum_congr rfl fun e _ => ?_
  by_cases he : (idx (ix2 e 0)).toInt = (n.val : Int)
  · rw [if_pos he, if_pos ((s1_resultIdx?_iff d huw hiw hsd hiv idx e n).2 he)]
  · rw [if_neg he, if_neg fun h => he ((s1_resultIdx?_iff d huw hiw hsd hiv idx e n).1 h)]

/-! ## A rank-1 concatenation of two vectors -/

/-- Two vectors laid end to end fill the result: its extent is the sum of theirs. -/
theorem concat1_extent (h : Shape.Concatenates [(⟨1, ![A]⟩ : Shape), ⟨1, ![B]⟩] ⟨1, ![T]⟩ 0) : T = A + B := by
  have e := h.2.2
  change A + (B + 0) = T at e
  omega

/-- Below the first extent a rank-1 concatenation reads the first vector. -/
theorem concatenate1_apply_left (a : (⟨1, ![A]⟩ : Shape).Idx → α) (b : (⟨1, ![B]⟩ : Shape).Idx → α)
    (h : Shape.Concatenates [(⟨1, ![A]⟩ : Shape), ⟨1, ![B]⟩] ⟨1, ![T]⟩ 0) (j : Fin T) (hj : j.val < A) :
    concatenate ⟨1, ![T]⟩ 0 [⟨⟨1, ![A]⟩, a⟩, ⟨⟨1, ![B]⟩, b⟩] h (ix1 j) = a (ix1 ⟨j.val, hj⟩) := by
  refine concatenate_pair_apply_left 0 a b h (ix1 j) rfl (ix1 ⟨j.val, hj⟩) fun k => ?_
  match k with
  | ⟨0, _⟩ => rfl

/-- From the first extent on a rank-1 concatenation reads the second vector, the first extent less. -/
theorem concatenate1_apply_right (a : (⟨1, ![A]⟩ : Shape).Idx → α) (b : (⟨1, ![B]⟩ : Shape).Idx → α)
    (h : Shape.Concatenates [(⟨1, ![A]⟩ : Shape), ⟨1, ![B]⟩] ⟨1, ![T]⟩ 0) (j : Fin T) (hj : A ≤ j.val) :
    concatenate ⟨1, ![T]⟩ 0 [⟨⟨1, ![A]⟩, a⟩, ⟨⟨1, ![B]⟩, b⟩] h (ix1 j)
      = b (ix1 ⟨j.val - A, by have := concat1_extent h; have := j.isLt; omega⟩) := by
  refine concatenate_pair_apply_right 0 a b h (ix1 j) rfl rfl (ix1 ⟨j.val - A, _⟩) (fun k hk => ?_) ?_
  · match k with
    | ⟨0, _⟩ => exact absurd rfl hk
  · show j.val - A + A = j.val
    omega

/-- A rank-1 concatenation READ AT j: the first vector below its extent, else the second, the first extent less. -/
theorem concatenate1_apply (a : (⟨1, ![A]⟩ : Shape).Idx → α) (b : (⟨1, ![B]⟩ : Shape).Idx → α)
    (h : Shape.Concatenates [(⟨1, ![A]⟩ : Shape), ⟨1, ![B]⟩] ⟨1, ![T]⟩ 0) (j : Fin T) :
    concatenate ⟨1, ![T]⟩ 0 [⟨⟨1, ![A]⟩, a⟩, ⟨⟨1, ![B]⟩, b⟩] h (ix1 j)
      = if hj : j.val < A then a (ix1 ⟨j.val, hj⟩)
        else b (ix1 ⟨j.val - A, by have := concat1_extent h; have := j.isLt; omega⟩) := by
  by_cases hj : j.val < A
  · rw [dif_pos hj]; exact concatenate1_apply_left a b h j hj
  · rw [dif_neg hj]; exact concatenate1_apply_right a b h j (Nat.le_of_not_lt hj)

/-- A sum over a range of `A + B` positions splits into the first `A` and the last `B`. -/
theorem sum_fin_add_split {M : Type*} [AddCommMonoid M] (f : Fin (A + B) → M) :
    ∑ j, f j = ∑ a : Fin A, f (Fin.castAdd B a) + ∑ b : Fin B, f (Fin.natAdd A b) :=
  Fin.sum_univ_add f

/-! ## Words: a position as a word, and the index wrap -/

/-- A natural below 2³¹ as a 32-bit word reads signed as itself. -/
theorem toInt_ofNat_small (j : Nat) (hj : j < 2 ^ 31) : (BitVec.ofNat 32 j).toInt = (j : Int) :=
  StableHlo.Predicate.toInt_ofNat_small j hj

/-- `iota` along the one axis of a vector READ AT j: the position as a word. -/
theorem iota1_apply (j : Fin N) : iotaInDim (⟨1, ![N]⟩ : Shape) w 0 (ix1 j) = BitVec.ofNat w j.val := rfl

/-- `iota` along the one axis of a vector of fewer than 2³¹ entries reads signed, at j, as j. -/
theorem iota1_toInt (hN : N ≤ 2 ^ 31) (j : Fin N) : (iotaInDim (⟨1, ![N]⟩ : Shape) 32 0 (ix1 j)).toInt = (j.val : Int) := by
  show (BitVec.ofNat 32 j.val).toInt = _
  exact toInt_ofNat_small j.val (by have := j.isLt; omega)

/-- A vector as an [E × 1] column (the shape a gather's or scatter's indices take) READ AT (e, 0): the vector at e. -/
theorem bcast_col_apply (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e 0) = v (ix1 e) := by
  refine broadcastInDim_apply ![0] h v (ix2 e 0) (ix1 e) fun a => ?_
  match a with
  | ⟨0, _⟩ =>
    show e.val = if E = 1 then 0 else e.val
    have := e.isLt
    split <;> omega

/-- A scalar broadcast to any shape READ AT any index: the scalar. -/
theorem bcast_scalar_apply {t : Shape} (h : (⟨0, ![]⟩ : Shape).BroadcastsInDim t ![])
    (v : (⟨0, ![]⟩ : Shape).Idx → α) (i : t.Idx) : broadcastInDim t ![] h v i = v ix0 :=
  broadcastInDim_apply ![] h v i ix0 fun a => a.elim0

section Pointwise
variable {s : Shape}

/-- A select READ AT i: the scalar select of the three elements. -/
theorem select_apply (c : IVec s 1) (a b : s.Idx → α) (i : s.Idx) : select c a b i = Scalar.select (c i) (a i) (b i) := rfl

/-- A word compare READ AT i: the compare of the two elements. -/
theorem cmpi_apply (p : CmpIPredicate) (x y : IVec s w) (i : s.Idx) : cmpi p x y i = IntOp.cmpi p (x i) (y i) := rfl

/-- A word addition READ AT i: the (wrapping) sum of the two elements. -/
theorem addi_apply (x y : IVec s w) (i : s.Idx) : addi x y i = x i + y i := rfl

/-- A constant vector of words READ AT i: the word. -/
theorem constantI_apply (b : BitVec w) (i : s.Idx) : constantI s w b i = b := rfl

/-- The index wrap READ AT i: where the index is signed-below the bound `zero`, the index plus `k`, else the index. -/
theorem wrap_apply (z zero k : IVec s w) (i : s.Idx) :
    select (cmpi .slt z zero) (addi z k) z i = if (z i).slt (zero i) then z i + k i else z i := by
  show Scalar.select (BitVec.ofBool ((z i).slt (zero i))) (z i + k i) (z i) = _
  unfold Scalar.select
  cases (z i).slt (zero i)
  · exact (if_neg (by decide)).trans (if_neg (by decide)).symm
  · exact (if_pos (by decide)).trans (if_pos rfl).symm

end Pointwise

/-- The wrapped index word read signed: a negative index gains the extent `N` (below 2³¹, so nothing wraps),
    any other index is kept. -/
theorem wrap_toInt (z : BitVec 32) (hN : N < 2 ^ 31) :
    (if z.slt 0#32 then z + BitVec.ofNat 32 N else z).toInt = if z.toInt < 0 then z.toInt + (N : Int) else z.toInt := by
  have h0 : (0#32 : BitVec 32).toInt = 0 := by decide
  have hlo : -(2 : Int) ^ 31 ≤ z.toInt := BitVec.le_toInt z
  have hhi : z.toInt < (2 : Int) ^ 31 := BitVec.toInt_lt
  by_cases hz : z.toInt < 0
  · have hs : z.slt 0#32 = true := by unfold BitVec.slt; rw [h0]; exact decide_eq_true hz
    rw [if_pos hs, if_pos hz, BitVec.toInt_add, toInt_ofNat_small N hN, Int.bmod_def]
    split <;> omega
  · have hs : ¬ (z.slt 0#32 = true) := by
      unfold BitVec.slt; rw [h0]; simpa using hz
    rw [if_neg hs, if_neg hz]

/-- The index wrap READ AT i and signed, the bound the zero word and the addend the extent `N` as a word there: a
    negative index gains `N`, any other index is kept. -/
theorem wrap_apply_toInt {s : Shape} (z zero k : IVec s 32) (i : s.Idx) (hz : zero i = 0#32)
    (hk : k i = BitVec.ofNat 32 N) (hN : N < 2 ^ 31) :
    (select (cmpi .slt z zero) (addi z k) z i).toInt
      = if (z i).toInt < 0 then (z i).toInt + (N : Int) else (z i).toInt := by
  rw [wrap_apply, hz, hk]
  exact wrap_toInt (z i) hN

end Idealize.ShloMosaic.IndexOps

end
-- ==== Proof.KI.HostValue.lean ====
/-
  What the kernel program's three host stretches compute, read at an index.

  The program runs three stretches of host operations, one before each of its three kernel regions.  Each lemma
  here is about the buffers' contents after one stretch, started from ARBITRARY contents W, so that it can be
  used whatever the regions before it left behind.

  * Stretch 0 cuts the two rows out of the [2, 3200000] index array (row 0 the sources, row 1 the targets) and
    flattens each; counts, for every node, the edges aimed at it (ones scatter-added into zeros at the target
    words), adds the self-loop's one, takes the reciprocal square root and lays the result out as a column:
    the normalising factor of every node.
  * Stretch 1 wraps the source words (a negative word is raised by 100000), reads the first layer's scaled
    features at the wrapped words (a read clamps its row into the table), and adds every edge's row into the row
    of the edge's target, starting from zeros: the neighbours' part of the first convolution.  It also lays the
    first bias out as a row.
  * Stretch 2 does the same over the second layer's scaled features, and lays out the graph of each node as a
    column and the second bias and the read-out bias as rows.

  Every stretch leaves alone whatever it does not write: the arguments and the arrays earlier items produced.
-/
import proofs.«400167_j37993280700520_3_alg».proof.Proof.Gen.KernelIdeal.Launch
import proofs.«400167_j37993280700520_3_alg».proof.Proof.Gen.KernelIdeal.Regions
import proofs.«400167_j37993280700520_3_alg».proof.Proof.SpecAt
import proofs.«400167_j37993280700520_3_alg».proof.Proof.LibGatherScatterRows
import proofs.«400167_j37993280700520_3_alg».proof.Proof.LibIndexOps
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx

/-! ## Reshapes and slices of small rank read at an index -/

section Layout
variable {α : Type} {N E K : Nat}

/-- A vector laid out as a one-column matrix reads, at row n, the vector's entry n. -/
theorem reshape_col_apply (v : (⟨1, ![N]⟩ : Shape).Idx → α) (h : (⟨1, ![N]⟩ : Shape).ShapeCasts ⟨2, ![N, 1]⟩) (n : Fin N) :
    shapeCast ⟨2, ![N, 1]⟩ v h (ix2 n 0) = v (ix1 n) := by
  refine shapeCast_apply v h (ix2 n 0) (ix1 n) ?_
  rw [Shape.rowMajor_val_one, Shape.rowMajor_val_two]
  show n.val = n.val * 1 + 0
  omega

/-- A vector laid out as a one-row matrix reads, at column k, the vector's entry k. -/
theorem reshape_row_apply (v : (⟨1, ![K]⟩ : Shape).Idx → α) (h : (⟨1, ![K]⟩ : Shape).ShapeCasts ⟨2, ![1, K]⟩) (k : Fin K) :
    shapeCast ⟨2, ![1, K]⟩ v h (ix2 0 k) = v (ix1 k) := by
  refine shapeCast_apply v h (ix2 0 k) (ix1 k) ?_
  rw [Shape.rowMajor_val_one, Shape.rowMajor_val_two]
  show k.val = 0 * K + k.val
  omega

/-- A one-row matrix flattened to a vector reads, at e, the row's entry e. -/
theorem reshape_flat_apply (v : (⟨2, ![1, E]⟩ : Shape).Idx → α) (h : (⟨2, ![1, E]⟩ : Shape).ShapeCasts ⟨1, ![E]⟩) (e : Fin E) :
    shapeCast ⟨1, ![E]⟩ v h (ix1 e) = v (ix2 0 e) := by
  refine shapeCast_apply v h (ix1 e) (ix2 0 e) ?_
  rw [Shape.rowMajor_val_one, Shape.rowMajor_val_two]
  show 0 * E + e.val = e.val
  omega

/-- Row r of a two-row matrix, cut out as a one-row matrix, reads at column e the matrix's entry (r, e). -/
theorem slice_row_apply (off : Fin 2 → Nat) (r : Fin 2) (h0 : off 0 = r.val) (h1 : off 1 = 0)
    (a : (⟨2, ![2, E]⟩ : Shape).Idx → α) (h : (⟨2, ![2, E]⟩ : Shape).Slices off ⟨2, ![1, E]⟩) (e : Fin E) :
    extractStridedSlice ⟨2, ![1, E]⟩ off a h (ix2 0 e) = a (ix2 r e) := by
  refine extractStridedSlice_apply off a h (ix2 0 e) (ix2 r e) fun b => ?_
  match b with
  | ⟨0, _⟩ => show r.val = off 0 + 0; omega
  | ⟨1, _⟩ => show e.val = off 1 + e.val; omega

end Layout

/-! ## The pieces of the stretches, over arbitrary arrays -/

section Terms

/-- Row r of the index array, cut out and flattened, reads at e the array's entry (r, e). -/
theorem flatRow_apply (off : Fin 2 → Nat) (r : Fin 2) (h0 : off 0 = r.val) (h1 : off 1 = 0)
    (a1 : IVec S2x3200000 32) (hs : S2x3200000.Slices off S1x3200000) (hc : S1x3200000.ShapeCasts S3200000)
    (e : Fin 3200000) :
    shapeCast S3200000 (extractStridedSlice S1x3200000 off a1 hs) hc (ix1 e) = a1 (ix2 r e) :=
  (reshape_flat_apply _ hc e).trans (slice_row_apply off r h0 h1 a1 hs e)

/-- The bit pattern of the single-precision one is the extended real one. -/
theorem one_f32 : Ideal.ofBits .f32 0x3F800000#32 = 1 := Ideal.ofBits_one_f32

/-- Ones scatter-added into zeros at the target words, plus one, under the reciprocal square root, as a column:
    at node n the normalising factor of n. -/
theorem dinvTerm_apply (d : ScatterDims S100000 S3200000x1 S3200000)
    (huw : d.updateWindowDims = []) (hiw : d.insertedWindowDims = [0])
    (hsd : d.scatterDimsToOperandDims = [0]) (hiv : d.indexVectorDim = 1)
    (hbN : S_.BroadcastsInDim S100000 ![]) (hbE : S_.BroadcastsInDim S3200000 ![])
    (hbc : S3200000.BroadcastsInDim S3200000x1 ![0]) (hc : S100000.ShapeCasts S100000x1)
    (v3 : IVec S3200000 32) (n : Fin 100000) :
    shapeCast S100000x1
        (Host.rsqrt (addf
          (Host.scatterAdd (F := Ideal) (φ := .f32) d (broadcastInDim S100000 ![] hbN (constant (F := Ideal) S_ .f32 0x00000000#32))
            (broadcastInDim S3200000x1 ![0] hbc v3)
            (broadcastInDim S3200000 ![] hbE (constant (F := Ideal) S_ .f32 0x3F800000#32)))
          (broadcastInDim S100000 ![] hbN (constant (F := Ideal) S_ .f32 0x3F800000#32)))) hc (ix2 n 0)
      = Cert.GcnSpec.dinv (fun e => v3 (ix1 e)) n := by
  refine (reshape_col_apply _ hc n).trans ?_
  have hr : ∀ (v : FVec Ideal S100000 .f32) (i : S100000.Idx), Host.rsqrt v i = Ideal.rsqrt (v i) := fun _ _ => rfl
  rw [hr, addf_apply, IndexOps.scatterAdd_rows1_apply d huw hiw hsd hiv, IndexOps.bcast_scalar_apply,
    IndexOps.bcast_scalar_apply, constant_apply, constant_apply, Ideal.ofBits_zero_f32, one_f32, zero_add]
  unfold Cert.GcnSpec.dinv Cert.GcnSpec.deg Cert.GcnSpec.cnt
  refine congrArg (fun t : EReal => Ideal.rsqrt (t + 1)) (Finset.sum_congr rfl fun e _ => ?_)
  rw [IndexOps.bcast_col_apply, IndexOps.bcast_scalar_apply, constant_apply, one_f32]

/-- A signed index word's table row: the wrapped word (a negative word raised by the table's length), clamped. -/
theorem rowOf_eq_clamp (z : BitVec 32) :
    Cert.GcnSpec.rowOf z
      = IndexOps.clampRow 100000 (by omega) (if z.slt 0#32 then z + 100000#32 else z).toInt := rfl

/-- The neighbours' part: rows of x read at the wrapped source words, each added into its target's row, from zeros.
    At (n, f): the sum over the edges aimed at n of x at the edge's source row, column f. -/
theorem aggTerm_apply {C : Nat} (d : ScatterDims ⟨2, ![100000, C]⟩ S3200000x1 ⟨2, ![3200000, C]⟩)
    (huw : d.updateWindowDims = [1]) (hiw : d.insertedWindowDims = [0])
    (hsd : d.scatterDimsToOperandDims = [0]) (hiv : d.indexVectorDim = 1)
    (g : GatherDims ⟨2, ![100000, C]⟩ S3200000x1 ⟨2, ![3200000, C]⟩)
    (hod : g.offsetDims = [1]) (hcs : g.collapsedSliceDims = [0]) (hob : g.operandBatchingDims = [])
    (hsb : g.startIndicesBatchingDims = []) (hsm : g.startIndexMap = [0]) (hgv : g.indexVectorDim = 1)
    (hss : g.sliceSizes = ![1, C])
    (hb0 : S_.BroadcastsInDim ⟨2, ![100000, C]⟩ ![]) (hbE : S_.BroadcastsInDim S3200000 ![])
    (hbc : S3200000.BroadcastsInDim S3200000x1 ![0]) (hlt : FTy.bits .bf16 < FTy.bits .f32)
    (x : FVec Ideal ⟨2, ![100000, C]⟩ .bf16) (v1 v3 : IVec S3200000 32) (n : Fin 100000) (f : Fin C) :
    Host.scatterAdd (F := Ideal) (φ := .f32) d
        (broadcastInDim ⟨2, ![100000, C]⟩ ![] hb0 (constant (F := Ideal) S_ .f32 0x00000000#32))
        (broadcastInDim S3200000x1 ![0] hbc v3)
        (extf .f32 (Host.gather g x
          (broadcastInDim S3200000x1 ![0] hbc
            (select (cmpi .slt v1 (broadcastInDim S3200000 ![] hbE (constantI S_ 32 0#32)))
              (addi v1 (broadcastInDim S3200000 ![] hbE (constantI S_ 32 100000#32))) v1))) hlt) (ix2 n f)
      = ∑ e : Fin 3200000, if (v3 (ix1 e)).toInt = (n.val : Int)
          then x (ix2 (Cert.GcnSpec.rowOf (v1 (ix1 e))) f) else 0 := by
  refine (RowsGS.scatterAdd_rows2_apply d huw hiw hsd hiv _ _ _ n f).trans ?_
  rw [IndexOps.bcast_scalar_apply, constant_apply, Ideal.ofBits_zero_f32, zero_add]
  refine Finset.sum_congr rfl fun e _ => ?_
  rw [IndexOps.bcast_col_apply]
  refine if_congr Iff.rfl ?_ rfl
  rw [extf_apply, IndexOps.gather_rows2_clamp (by omega) g hod hcs hob hsb hsm hgv hss, IndexOps.bcast_col_apply,
    IndexOps.wrap_apply, IndexOps.bcast_scalar_apply, IndexOps.bcast_scalar_apply, IndexOps.constantI_apply,
    IndexOps.constantI_apply, rowOf_eq_clamp]

end Terms

/-! ## The stretches -/

section Stretches
variable (W : Valuation τ sig (Elt Ideal))

/-- The source word of edge e: row 0 of the index array as the stretch finds it. -/
abbrev src : Fin 3200000 → BitVec 32 := fun e => (W (Proc.devRef .tc main_arg1) : IVec S2x3200000 32) (ix2 (0 : Fin 2) e)
/-- The target word of edge e: row 1 of the index array as the stretch finds it. -/
abbrev dst : Fin 3200000 → BitVec 32 := fun e => (W (Proc.devRef .tc main_arg1) : IVec S2x3200000 32) (ix2 (1 : Fin 2) e)

/-! ### Stretch 0 -/

/-- Whatever stretch 0 does not write keeps its contents. -/
theorem host0_keeps (r : Ref sig .tc) (h : r ∉ hostOps0_W) :
    StableHlo.after (hostOps0 (F := Ideal)) W (Proc.devRef .tc r) = W (Proc.devRef .tc r) :=
  StableHlo.after_of_writes_sub hostOps0 W hostOps0_writes h

/-- After stretch 0 the flattened source row holds the source words. -/
theorem host0_v1 (e : Fin 3200000) :
    (StableHlo.after (hostOps0 (F := Ideal)) W (Proc.devRef .tc main_v1) : IVec S3200000 32) (ix1 e) = src W e := by
  have h : (StableHlo.after (hostOps0 (F := Ideal)) W (Proc.devRef .tc main_v1) : IVec S3200000 32)
      = (fun i => shapeCast S3200000 (extractStridedSlice S1x3200000 ![0, 0] (W (Proc.devRef .tc main_arg1) : IVec S2x3200000 32) slices_S2x3200000_S1x3200000_0_0) shapeCasts_S1x3200000_S3200000 i) := by
    show StableHlo.after hostOps0 W (Proc.devRef .tc main_v1) = _
    after_results; rfl
  exact (congrFun h (ix1 e)).trans (flatRow_apply ![0, 0] 0 rfl rfl _ _ _ e)

/-- After stretch 0 the flattened target row holds the target words. -/
theorem host0_v3 (e : Fin 3200000) :
    (StableHlo.after (hostOps0 (F := Ideal)) W (Proc.devRef .tc main_v3) : IVec S3200000 32) (ix1 e) = dst W e := by
  have h : (StableHlo.after (hostOps0 (F := Ideal)) W (Proc.devRef .tc main_v3) : IVec S3200000 32)
      = (fun i => shapeCast S3200000 (extractStridedSlice S1x3200000 ![1, 0] (W (Proc.devRef .tc main_arg1) : IVec S2x3200000 32) slices_S2x3200000_S1x3200000_1_0) shapeCasts_S1x3200000_S3200000 i) := by
    show StableHlo.after hostOps0 W (Proc.devRef .tc main_v3) = _
    after_results; rfl
  exact (congrFun h (ix1 e)).trans (flatRow_apply ![1, 0] 1 rfl rfl _ _ _ e)

/-- After stretch 0 the factor column holds, at node n, the normalising factor of n over the target words. -/
theorem host0_dinv (n : Fin 100000) :
    (StableHlo.after (hostOps0 (F := Ideal)) W (Proc.devRef .tc main_v11) : Vec Ideal S100000x1 .f32) (ix2 n 0)
      = Cert.GcnSpec.dinv (dst W) n := by
  have h : (StableHlo.after (hostOps0 (F := Ideal)) W (Proc.devRef .tc main_v11) : Vec Ideal S100000x1 .f32)
      = shapeCast S100000x1
          (Host.rsqrt (addf
            (Host.scatterAdd (F := Ideal) (φ := .f32) scatter_S100000_S3200000x1_S3200000_n_0_0_1
              (broadcastInDim S100000 ![] bcast_S_S100000 (constant (F := Ideal) S_ .f32 0x00000000#32))
              (broadcastInDim S3200000x1 ![0] bcast_S3200000_S3200000x1_0
                (fun i => shapeCast S3200000 (extractStridedSlice S1x3200000 ![1, 0] (W (Proc.devRef .tc main_arg1) : IVec S2x3200000 32) slices_S2x3200000_S1x3200000_1_0) shapeCasts_S1x3200000_S3200000 i))
              (broadcastInDim S3200000 ![] bcast_S_S3200000 (constant (F := Ideal) S_ .f32 0x3F800000#32)))
            (broadcastInDim S100000 ![] bcast_S_S100000 (constant (F := Ideal) S_ .f32 0x3F800000#32))))
          shapeCasts_S100000_S100000x1 := by
    show StableHlo.after hostOps0 W (Proc.devRef .tc main_v11) = _
    after_results; rfl
  refine (congrFun h (ix2 n 0)).trans ((dinvTerm_apply scatter_S100000_S3200000x1_S3200000_n_0_0_1 rfl rfl rfl rfl
    _ _ _ _ _ n).trans ?_)
  exact congrArg (fun t : Fin 3200000 → BitVec 32 => Cert.GcnSpec.dinv t n)
    (funext fun e => flatRow_apply ![1, 0] 1 rfl rfl _ _ _ e)

theorem host0_arg0 : StableHlo.after (hostOps0 (F := Ideal)) W (Proc.devRef .tc main_arg0) = W (Proc.devRef .tc main_arg0) := host0_keeps W main_arg0 (by decide)
theorem host0_arg1 : StableHlo.after (hostOps0 (F := Ideal)) W (Proc.devRef .tc main_arg1) = W (Proc.devRef .tc main_arg1) := host0_keeps W main_arg1 (by decide)
theorem host0_arg2 : StableHlo.after (hostOps0 (F := Ideal)) W (Proc.devRef .tc main_arg2) = W (Proc.devRef .tc main_arg2) := host0_keeps W main_arg2 (by decide)
theorem host0_arg3 : StableHlo.after (hostOps0 (F := Ideal)) W (Proc.devRef .tc main_arg3) = W (Proc.devRef .tc main_arg3) := host0_keeps W main_arg3 (by decide)
theorem host0_arg4 : StableHlo.after (hostOps0 (F := Ideal)) W (Proc.devRef .tc main_arg4) = W (Proc.devRef .tc main_arg4) := host0_keeps W main_arg4 (by decide)
theorem host0_arg5 : StableHlo.after (hostOps0 (F := Ideal)) W (Proc.devRef .tc main_arg5) = W (Proc.devRef .tc main_arg5) := host0_keeps W main_arg5 (by decide)
theorem host0_arg6 : StableHlo.after (hostOps0 (F := Ideal)) W (Proc.devRef .tc main_arg6) = W (Proc.devRef .tc main_arg6) := host0_keeps W main_arg6 (by decide)
theorem host0_arg7 : StableHlo.after (hostOps0 (F := Ideal)) W (Proc.devRef .tc main_arg7) = W (Proc.devRef .tc main_arg7) := host0_keeps W main_arg7 (by decide)
theorem host0_arg8 : StableHlo.after (hostOps0 (F := Ideal)) W (Proc.devRef .tc main_arg8) = W (Proc.devRef .tc main_arg8) := host0_keeps W main_arg8 (by decide)

/-! ### Stretch 1 -/

/-- Whatever stretch 1 does not write keeps its contents. -/
theorem host1_keeps (r : Ref sig .tc) (h : r ∉ hostOps1_W) :
    StableHlo.after (hostOps1 (F := Ideal)) W (Proc.devRef .tc r) = W (Proc.devRef .tc r) :=
  StableHlo.after_of_writes_sub hostOps1 W hostOps1_writes h

/-- After stretch 1 the first aggregate holds, at (n, f), the sum over the edges aimed at n (by the flattened target
    row as the stretch finds it) of the first layer's scaled features at the edge's source row, column f. -/
theorem host1_agg (n : Fin 100000) (f : Fin 16) :
    (StableHlo.after (hostOps1 (F := Ideal)) W (Proc.devRef .tc main_v23) : Vec Ideal S100000x16 .f32) (ix2 n f)
      = ∑ e : Fin 3200000, (if ((W (Proc.devRef .tc main_v3) : IVec S3200000 32) (ix1 e)).toInt = (n.val : Int)
          then (W (Proc.devRef .tc main_v12_0) : Vec Ideal S100000x16 .bf16)
            (ix2 (Cert.GcnSpec.rowOf ((W (Proc.devRef .tc main_v1) : IVec S3200000 32) (ix1 e))) f) else 0 : EReal) := by
  have h : (StableHlo.after (hostOps1 (F := Ideal)) W (Proc.devRef .tc main_v23) : Vec Ideal S100000x16 .f32)
      = Host.scatterAdd (F := Ideal) (φ := .f32) scatter_S100000x16_S3200000x1_S3200000x16_1_0_0_1
          (broadcastInDim S100000x16 ![] bcast_S_S100000x16 (constant (F := Ideal) S_ .f32 0x00000000#32))
          (broadcastInDim S3200000x1 ![0] bcast_S3200000_S3200000x1_0 (W (Proc.devRef .tc main_v3) : IVec S3200000 32))
          (extf .f32 (Host.gather gather_S100000x16_S3200000x1_S3200000x16_1_0_n_n_0_1_116
            (W (Proc.devRef .tc main_v12_0) : FVec Ideal S100000x16 .bf16)
            (broadcastInDim S3200000x1 ![0] bcast_S3200000_S3200000x1_0
              (select (cmpi .slt (W (Proc.devRef .tc main_v1) : IVec S3200000 32)
                  (broadcastInDim S3200000 ![] bcast_S_S3200000 (constantI S_ 32 0#32)))
                (addi (W (Proc.devRef .tc main_v1) : IVec S3200000 32)
                  (broadcastInDim S3200000 ![] bcast_S_S3200000 (constantI S_ 32 100000#32)))
                (W (Proc.devRef .tc main_v1) : IVec S3200000 32)))) bitsLt_bf16_f32) := by
    show StableHlo.after hostOps1 W (Proc.devRef .tc main_v23) = _
    after_results
  exact (congrFun h (ix2 n f)).trans (aggTerm_apply (C := 16) scatter_S100000x16_S3200000x1_S3200000x16_1_0_0_1 rfl rfl rfl rfl
    gather_S100000x16_S3200000x1_S3200000x16_1_0_n_n_0_1_116 rfl rfl rfl rfl rfl rfl rfl _ _ _ _ _ _ _ n f)

/-- After stretch 1 the first bias lies as a row. -/
theorem host1_bias (k : Fin 16) :
    (StableHlo.after (hostOps1 (F := Ideal)) W (Proc.devRef .tc main_v24) : Vec Ideal S1x16 .f32) (ix2 0 k)
      = (W (Proc.devRef .tc main_arg4) : Vec Ideal S16 .f32) (ix1 k) := by
  have h : (StableHlo.after (hostOps1 (F := Ideal)) W (Proc.devRef .tc main_v24) : Vec Ideal S1x16 .f32)
      = (fun i => shapeCast S1x16 (W (Proc.devRef .tc main_arg4) : Vec Ideal S16 .f32) shapeCasts_S16_S1x16 i) := by
    show StableHlo.after hostOps1 W (Proc.devRef .tc main_v24) = _
    after_results; rfl
  exact (congrFun h (ix2 0 k)).trans (reshape_row_apply _ shapeCasts_S16_S1x16 k)

theorem host1_v11 : StableHlo.after (hostOps1 (F := Ideal)) W (Proc.devRef .tc main_v11) = W (Proc.devRef .tc main_v11) := host1_keeps W main_v11 (by decide)
theorem host1_v12_0 : StableHlo.after (hostOps1 (F := Ideal)) W (Proc.devRef .tc main_v12_0) = W (Proc.devRef .tc main_v12_0) := host1_keeps W main_v12_0 (by decide)
theorem host1_v12_1 : StableHlo.after (hostOps1 (F := Ideal)) W (Proc.devRef .tc main_v12_1) = W (Proc.devRef .tc main_v12_1) := host1_keeps W main_v12_1 (by decide)
theorem host1_v1 : StableHlo.after (hostOps1 (F := Ideal)) W (Proc.devRef .tc main_v1) = W (Proc.devRef .tc main_v1) := host1_keeps W main_v1 (by decide)
theorem host1_v3 : StableHlo.after (hostOps1 (F := Ideal)) W (Proc.devRef .tc main_v3) = W (Proc.devRef .tc main_v3) := host1_keeps W main_v3 (by decide)
theorem host1_arg0 : StableHlo.after (hostOps1 (F := Ideal)) W (Proc.devRef .tc main_arg0) = W (Proc.devRef .tc main_arg0) := host1_keeps W main_arg0 (by decide)
theorem host1_arg1 : StableHlo.after (hostOps1 (F := Ideal)) W (Proc.devRef .tc main_arg1) = W (Proc.devRef .tc main_arg1) := host1_keeps W main_arg1 (by decide)
theorem host1_arg2 : StableHlo.after (hostOps1 (F := Ideal)) W (Proc.devRef .tc main_arg2) = W (Proc.devRef .tc main_arg2) := host1_keeps W main_arg2 (by decide)
theorem host1_arg3 : StableHlo.after (hostOps1 (F := Ideal)) W (Proc.devRef .tc main_arg3) = W (Proc.devRef .tc main_arg3) := host1_keeps W main_arg3 (by decide)
theorem host1_arg4 : StableHlo.after (hostOps1 (F := Ideal)) W (Proc.devRef .tc main_arg4) = W (Proc.devRef .tc main_arg4) := host1_keeps W main_arg4 (by decide)
theorem host1_arg5 : StableHlo.after (hostOps1 (F := Ideal)) W (Proc.devRef .tc main_arg5) = W (Proc.devRef .tc main_arg5) := host1_keeps W main_arg5 (by decide)
theorem host1_arg6 : StableHlo.after (hostOps1 (F := Ideal)) W (Proc.devRef .tc main_arg6) = W (Proc.devRef .tc main_arg6) := host1_keeps W main_arg6 (by decide)
theorem host1_arg7 : StableHlo.after (hostOps1 (F := Ideal)) W (Proc.devRef .tc main_arg7) = W (Proc.devRef .tc main_arg7) := host1_keeps W main_arg7 (by decide)
theorem host1_arg8 : StableHlo.after (hostOps1 (F := Ideal)) W (Proc.devRef .tc main_arg8) = W (Proc.devRef .tc main_arg8) := host1_keeps W main_arg8 (by decide)

/-! ### Stretch 2 -/

/-- Whatever stretch 2 does not write keeps its contents. -/
theorem host2_keeps (r : Ref sig .tc) (h : r ∉ hostOps2_W) :
    StableHlo.after (hostOps2 (F := Ideal)) W (Proc.devRef .tc r) = W (Proc.devRef .tc r) :=
  StableHlo.after_of_writes_sub hostOps2 W hostOps2_writes h

/-- After stretch 2 the second aggregate holds, at (n, f), the sum over the edges aimed at n of the second layer's
    scaled features at the edge's source row, column f. -/
theorem host2_agg (n : Fin 100000) (f : Fin 32) :
    (StableHlo.after (hostOps2 (F := Ideal)) W (Proc.devRef .tc main_v36) : Vec Ideal S100000x32 .f32) (ix2 n f)
      = ∑ e : Fin 3200000, (if ((W (Proc.devRef .tc main_v3) : IVec S3200000 32) (ix1 e)).toInt = (n.val : Int)
          then (W (Proc.devRef .tc main_v25_0) : Vec Ideal S100000x32 .bf16)
            (ix2 (Cert.GcnSpec.rowOf ((W (Proc.devRef .tc main_v1) : IVec S3200000 32) (ix1 e))) f) else 0 : EReal) := by
  have h : (StableHlo.after (hostOps2 (F := Ideal)) W (Proc.devRef .tc main_v36) : Vec Ideal S100000x32 .f32)
      = Host.scatterAdd (F := Ideal) (φ := .f32) scatter_S100000x32_S3200000x1_S3200000x32_1_0_0_1
          (broadcastInDim S100000x32 ![] bcast_S_S100000x32 (constant (F := Ideal) S_ .f32 0x00000000#32))
          (broadcastInDim S3200000x1 ![0] bcast_S3200000_S3200000x1_0 (W (Proc.devRef .tc main_v3) : IVec S3200000 32))
          (extf .f32 (Host.gather gather_S100000x32_S3200000x1_S3200000x32_1_0_n_n_0_1_132
            (W (Proc.devRef .tc main_v25_0) : FVec Ideal S100000x32 .bf16)
            (broadcastInDim S3200000x1 ![0] bcast_S3200000_S3200000x1_0
              (select (cmpi .slt (W (Proc.devRef .tc main_v1) : IVec S3200000 32)
                  (broadcastInDim S3200000 ![] bcast_S_S3200000 (constantI S_ 32 0#32)))
                (addi (W (Proc.devRef .tc main_v1) : IVec S3200000 32)
                  (broadcastInDim S3200000 ![] bcast_S_S3200000 (constantI S_ 32 100000#32)))
                (W (Proc.devRef .tc main_v1) : IVec S3200000 32)))) bitsLt_bf16_f32) := by
    show StableHlo.after hostOps2 W (Proc.devRef .tc main_v36) = _
    after_results
  exact (congrFun h (ix2 n f)).trans (aggTerm_apply (C := 32) scatter_S100000x32_S3200000x1_S3200000x32_1_0_0_1 rfl rfl rfl rfl
    gather_S100000x32_S3200000x1_S3200000x32_1_0_n_n_0_1_132 rfl rfl rfl rfl rfl rfl rfl _ _ _ _ _ _ _ n f)

/-- After stretch 2 the graph of each node lies as a column. -/
theorem host2_batch (n : Fin 100000) :
    (StableHlo.after (hostOps2 (F := Ideal)) W (Proc.devRef .tc main_v37) : IVec S100000x1 32) (ix2 n 0)
      = (W (Proc.devRef .tc main_arg2) : IVec S100000 32) (ix1 n) := by
  have h : (StableHlo.after (hostOps2 (F := Ideal)) W (Proc.devRef .tc main_v37) : IVec S100000x1 32)
      = (fun i => shapeCast S100000x1 (W (Proc.devRef .tc main_arg2) : IVec S100000 32) shapeCasts_S100000_S100000x1 i) := by
    show StableHlo.after hostOps2 W (Proc.devRef .tc main_v37) = _
    after_results; rfl
  exact (congrFun h (ix2 n 0)).trans (reshape_col_apply _ shapeCasts_S100000_S100000x1 n)

/-- After stretch 2 the second bias lies as a row. -/
theorem host2_bias (k : Fin 32) :
    (StableHlo.after (hostOps2 (F := Ideal)) W (Proc.devRef .tc main_v38) : Vec Ideal S1x32 .f32) (ix2 0 k)
      = (W (Proc.devRef .tc main_arg6) : Vec Ideal S32 .f32) (ix1 k) := by
  have h : (StableHlo.after (hostOps2 (F := Ideal)) W (Proc.devRef .tc main_v38) : Vec Ideal S1x32 .f32)
      = (fun i => shapeCast S1x32 (W (Proc.devRef .tc main_arg6) : Vec Ideal S32 .f32) shapeCasts_S32_S1x32 i) := by
    show StableHlo.after hostOps2 W (Proc.devRef .tc main_v38) = _
    after_results; rfl
  exact (congrFun h (ix2 0 k)).trans (reshape_row_apply _ shapeCasts_S32_S1x32 k)

/-- After stretch 2 the read-out bias lies as a row. -/
theorem host2_bfc (j : Fin 10) :
    (StableHlo.after (hostOps2 (F := Ideal)) W (Proc.devRef .tc main_v39) : Vec Ideal S1x10 .f32) (ix2 0 j)
      = (W (Proc.devRef .tc main_arg8) : Vec Ideal S10 .f32) (ix1 j) := by
  have h : (StableHlo.after (hostOps2 (F := Ideal)) W (Proc.devRef .tc main_v39) : Vec Ideal S1x10 .f32)
      = (fun i => shapeCast S1x10 (W (Proc.devRef .tc main_arg8) : Vec Ideal S10 .f32) shapeCasts_S10_S1x10 i) := by
    show StableHlo.after hostOps2 W (Proc.devRef .tc main_v39) = _
    after_results; rfl
  exact (congrFun h (ix2 0 j)).trans (reshape_row_apply _ shapeCasts_S10_S1x10 j)

theorem host2_v11 : StableHlo.after (hostOps2 (F := Ideal)) W (Proc.devRef .tc main_v11) = W (Proc.devRef .tc main_v11) := host2_keeps W main_v11 (by decide)
theorem host2_v25_0 : StableHlo.after (hostOps2 (F := Ideal)) W (Proc.devRef .tc main_v25_0) = W (Proc.devRef .tc main_v25_0) := host2_keeps W main_v25_0 (by decide)
theorem host2_v25_1 : StableHlo.after (hostOps2 (F := Ideal)) W (Proc.devRef .tc main_v25_1) = W (Proc.devRef .tc main_v25_1) := host2_keeps W main_v25_1 (by decide)
theorem host2_arg0 : StableHlo.after (hostOps2 (F := Ideal)) W (Proc.devRef .tc main_arg0) = W (Proc.devRef .tc main_arg0) := host2_keeps W main_arg0 (by decide)
theorem host2_arg1 : StableHlo.after (hostOps2 (F := Ideal)) W (Proc.devRef .tc main_arg1) = W (Proc.devRef .tc main_arg1) := host2_keeps W main_arg1 (by decide)
theorem host2_arg2 : StableHlo.after (hostOps2 (F := Ideal)) W (Proc.devRef .tc main_arg2) = W (Proc.devRef .tc main_arg2) := host2_keeps W main_arg2 (by decide)
theorem host2_arg3 : StableHlo.after (hostOps2 (F := Ideal)) W (Proc.devRef .tc main_arg3) = W (Proc.devRef .tc main_arg3) := host2_keeps W main_arg3 (by decide)
theorem host2_arg4 : StableHlo.after (hostOps2 (F := Ideal)) W (Proc.devRef .tc main_arg4) = W (Proc.devRef .tc main_arg4) := host2_keeps W main_arg4 (by decide)
theorem host2_arg5 : StableHlo.after (hostOps2 (F := Ideal)) W (Proc.devRef .tc main_arg5) = W (Proc.devRef .tc main_arg5) := host2_keeps W main_arg5 (by decide)
theorem host2_arg6 : StableHlo.after (hostOps2 (F := Ideal)) W (Proc.devRef .tc main_arg6) = W (Proc.devRef .tc main_arg6) := host2_keeps W main_arg6 (by decide)
theorem host2_arg7 : StableHlo.after (hostOps2 (F := Ideal)) W (Proc.devRef .tc main_arg7) = W (Proc.devRef .tc main_arg7) := host2_keeps W main_arg7 (by decide)
theorem host2_arg8 : StableHlo.after (hostOps2 (F := Ideal)) W (Proc.devRef .tc main_arg8) = W (Proc.devRef .tc main_arg8) := host2_keeps W main_arg8 (by decide)

end Stretches

end Cert.KernelIdeal.Val

end
-- ==== Proof.KI.KernelValue.lean ====
/-
  The kernel program's result array, read off the last segment boundary of its run, is the result function of
  Spec.lean applied to the nine argument arrays.

  The run's buffer contents are a fold: launch memory, first host stretch, region 0, second host stretch, region 1,
  third host stretch, region 2.  Walking the fold forward, in the vocabulary of Spec.lean (src, dst the two index
  rows, dinv the normalising factor of a node, lin1, lin2 the two layers before aggregation, h1, h2 the two hidden
  layers):

  * no host operation and no region writes an argument, so each stage reads the arguments as launched;
  * after the first host stretch the factor column holds dinv n at node n and the two flattened index rows hold src
    and dst; these three are never written again;
  * region 0 leaves lin1 n f * dinv n in its narrow result and lin1 n f * dinv n * dinv n in its wide one;
  * the second host stretch sums, for node n, the narrow result at row rowOf (src e) over the edges e aimed at n:
    that is the spec's aggregate of lin1; it also lays the first bias out as a row;
  * so the clipped sum region 1 forms, dinv n * aggregate + wide result + bias clipped at zero, is h1, and region 1
    leaves lin2 n f * dinv n and lin2 n f * dinv n * dinv n;
  * the third host stretch makes the aggregate of lin2 the same way, the graph word of each node as a column, and
    the second bias and the read-out bias as rows;
  * so region 2's clipped sum is h2, and its result, the per-graph mean of h2 against the read-out weight plus the
    read-out bias, is the spec's out.

  No finiteness is used: every step is an equation between extended reals.
-/
import proofs.«400167_j37993280700520_3_alg».proof.Proof.KI.Run
import proofs.«400167_j37993280700520_3_alg».proof.Proof.KI.Value0
import proofs.«400167_j37993280700520_3_alg».proof.Proof.KI.Value1
import proofs.«400167_j37993280700520_3_alg».proof.Proof.KI.Value2
import proofs.«400167_j37993280700520_3_alg».proof.Proof.KI.HostValue
import proofs.«400167_j37993280700520_3_alg».proof.Proof.SpecAt
import Idealize.ShloMosaic.Lib.ValueIdx

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem
open Idealize.ShloMosaic.ValueIdx
open scoped BigOperators

variable (m : (ℓ : Loc nD τ sig) → Buf (Elt Ideal) ℓ) (ρ : Dev nD → PrngReg) (c : Dev nD)

/-! ## The arguments, as the result function takes them -/

/-- The source and the target word of an edge, the graph word of a node, and the features, weights and biases, read
    off the launch memory. -/
abbrev aSrc : Fin 3200000 → BitVec 32 := fun e => (m ((c.tc : Thread nD τ).loc main_arg1) : IVec S2x3200000 32) (ix2 (0 : Fin 2) e)
abbrev aDst : Fin 3200000 → BitVec 32 := fun e => (m ((c.tc : Thread nD τ).loc main_arg1) : IVec S2x3200000 32) (ix2 (1 : Fin 2) e)
abbrev aBat : Fin 100000 → BitVec 32 := fun n => (m ((c.tc : Thread nD τ).loc main_arg2) : IVec S100000 32) (ix1 n)
abbrev aX : Fin 100000 → Fin 128 → EReal := fun n k => (m ((c.tc : Thread nD τ).loc main_arg0) : Vec Ideal S100000x128 .f32) (ix2 n k)
abbrev aW1 : Fin 128 → Fin 16 → EReal := fun k f => (m ((c.tc : Thread nD τ).loc main_arg3) : Vec Ideal S128x16 .f32) (ix2 k f)
abbrev aB1 : Fin 16 → EReal := fun f => (m ((c.tc : Thread nD τ).loc main_arg4) : Vec Ideal S16 .f32) (ix1 f)
abbrev aW2 : Fin 16 → Fin 32 → EReal := fun k f => (m ((c.tc : Thread nD τ).loc main_arg5) : Vec Ideal S16x32 .f32) (ix2 k f)
abbrev aB2 : Fin 32 → EReal := fun f => (m ((c.tc : Thread nD τ).loc main_arg6) : Vec Ideal S32 .f32) (ix1 f)
abbrev aWfc : Fin 32 → Fin 10 → EReal := fun f j => (m ((c.tc : Thread nD τ).loc main_arg7) : Vec Ideal S32x10 .f32) (ix2 f j)
abbrev aBfc : Fin 10 → EReal := fun j => (m ((c.tc : Thread nD τ).loc main_arg8) : Vec Ideal S10 .f32) (ix1 j)

/-- The normalising factor of a node, the two layers before the activation, and the two hidden layers, of these
    arguments. -/
abbrev sDinv (n : Fin 100000) : EReal := Cert.GcnSpec.dinv (aDst m c) n
abbrev sLin1 : Fin 100000 → Fin 16 → EReal := Cert.GcnSpec.lin1 (aX m c) (aW1 m c)
abbrev sLin2 : Fin 100000 → Fin 32 → EReal :=
  Cert.GcnSpec.lin2 (aSrc m c) (aDst m c) (aX m c) (aW1 m c) (aB1 m c) (aW2 m c)

/-! ## What a region leaves alone -/

/-- Region 0 changes its two result arrays and nothing else: an input window's array is left as entered, and a
    buffer that is no window's array is not touched. -/
theorem W2_keep (r : Ref sig .tc) (h : r ∉ ([main_v12_0, main_v12_1] : List (Ref sig .tc))) :
    W2 m ρ c (Proc.devRef .tc r) = W1 m ρ c (Proc.devRef .tc r) := by
  by_cases hw : ∃ w, Pipeline.arrRef spec0 w = r
  · obtain ⟨w, rfl⟩ := hw
    have hin : (cfg0.win w).isOut = false := by revert w; decide
    exact (W2_arr m ρ c w).trans (((dat0 (Frame.V1 m ρ) c).arrAt_in w hin _).trans (A_eq0 (Frame.V1 m ρ) c w))
  · exact W2_of_ne m ρ c r fun w e => hw ⟨w, e⟩

/-- Region 1 likewise. -/
theorem W4_keep (r : Ref sig .tc) (h : r ∉ ([main_v25_0, main_v25_1] : List (Ref sig .tc))) :
    W4 m ρ c (Proc.devRef .tc r) = W3 m ρ c (Proc.devRef .tc r) := by
  by_cases hw : ∃ w, Pipeline.arrRef spec1 w = r
  · obtain ⟨w, rfl⟩ := hw
    have hin : (cfg1.win w).isOut = false := by revert w; decide
    exact (W4_arr m ρ c w).trans (((dat1 (Frame.V3 m ρ) c).arrAt_in w hin _).trans (A_eq1 (Frame.V3 m ρ) c w))
  · exact W4_of_ne m ρ c r fun w e => hw ⟨w, e⟩

/-! ## The first host stretch: the factor column and the two flattened index rows -/

theorem dA_V1 (n : Fin 100000) : Val0.dA (Frame.V1 m ρ) c (ix2 n 0) = sDinv m c n := host0_dinv (W0 m ρ c) n
theorem xA_V1 : Val0.xA (Frame.V1 m ρ) c = m ((c.tc : Thread nD τ).loc main_arg0) := host0_arg0 (W0 m ρ c)
theorem wA_V1 : Val0.wA (Frame.V1 m ρ) c = m ((c.tc : Thread nD τ).loc main_arg3) := host0_arg3 (W0 m ρ c)
theorem v1_W1 (e : Fin 3200000) : (W1 m ρ c (Proc.devRef .tc main_v1) : IVec S3200000 32) (ix1 e) = aSrc m c e :=
  host0_v1 (W0 m ρ c) e
theorem v3_W1 (e : Fin 3200000) : (W1 m ρ c (Proc.devRef .tc main_v3) : IVec S3200000 32) (ix1 e) = aDst m c e :=
  host0_v3 (W0 m ρ c) e

/-! ## Region 0: the first layer's features, scaled once and twice -/

theorem narrow0 (n : Fin 100000) (f : Fin 16) :
    (W2 m ρ c (Proc.devRef .tc main_v12_0) : Vec Ideal S100000x16 .bf16) (ix2 n f) = sLin1 m c n f * sDinv m c n := by
  refine ((congrFun (W2_arr m ρ c 3) (ix2 n f)).trans (Val0.final0_3 (Frame.V1 m ρ) c n f)).trans ?_
  rw [xA_V1, wA_V1, dA_V1]; rfl

theorem wide0 (n : Fin 100000) (f : Fin 16) :
    (W2 m ρ c (Proc.devRef .tc main_v12_1) : Vec Ideal S100000x16 .f32) (ix2 n f)
      = sLin1 m c n f * sDinv m c n * sDinv m c n := by
  refine ((congrFun (W2_arr m ρ c 4) (ix2 n f)).trans (Val0.final0_4 (Frame.V1 m ρ) c n f)).trans ?_
  rw [xA_V1, wA_V1, dA_V1]; rfl

/-! ## The second host stretch: the first aggregate and the first bias's row -/

theorem dA_V3 (n : Fin 100000) : Val1.dA (Frame.V3 m ρ) c (ix2 n 0) = sDinv m c n := by
  rw [show Val1.dA (Frame.V3 m ρ) c = Val0.dA (Frame.V1 m ρ) c from
    (host1_v11 (W2 m ρ c)).trans (W2_keep m ρ c main_v11 (by decide))]
  exact dA_V1 m ρ c n
theorem v1_W2 (e : Fin 3200000) : (W2 m ρ c (Proc.devRef .tc main_v1) : IVec S3200000 32) (ix1 e) = aSrc m c e := by
  rw [W2_keep m ρ c main_v1 (by decide)]; exact v1_W1 m ρ c e
theorem v3_W2 (e : Fin 3200000) : (W2 m ρ c (Proc.devRef .tc main_v3) : IVec S3200000 32) (ix1 e) = aDst m c e := by
  rw [W2_keep m ρ c main_v3 (by decide)]; exact v3_W1 m ρ c e

theorem gA_V3 (n : Fin 100000) (f : Fin 16) :
    Val1.gA (Frame.V3 m ρ) c (ix2 n f) = Cert.GcnSpec.agg (aSrc m c) (aDst m c) (sLin1 m c) n f := by
  refine (host1_agg (W2 m ρ c) n f).trans ?_
  show @Eq EReal _ _
  unfold Cert.GcnSpec.agg
  refine Finset.sum_congr rfl fun e _ => ?_
  rw [v3_W2, v1_W2, narrow0]

theorem arg4_W2 : W2 m ρ c (Proc.devRef .tc main_arg4) = m ((c.tc : Thread nD τ).loc main_arg4) :=
  (W2_keep m ρ c main_arg4 (by decide)).trans (host0_arg4 (W0 m ρ c))
theorem bA_V3 (k : Fin 16) : Val1.bA (Frame.V3 m ρ) c (ix2 0 k) = aB1 m c k := by
  refine (host1_bias (W2 m ρ c) k).trans ?_
  rw [arg4_W2]
theorem sA_V3 (n : Fin 100000) (f : Fin 16) :
    Val1.sA (Frame.V3 m ρ) c (ix2 n f) = sLin1 m c n f * sDinv m c n * sDinv m c n := by
  rw [show Val1.sA (Frame.V3 m ρ) c = (W2 m ρ c (Proc.devRef .tc main_v12_1) : Vec Ideal S100000x16 .f32) from
    host1_v12_1 (W2 m ρ c)]
  exact wide0 m ρ c n f
theorem wA_V3 : Val1.wA (Frame.V3 m ρ) c = m ((c.tc : Thread nD τ).loc main_arg5) :=
  (host1_arg5 (W2 m ρ c)).trans ((W2_keep m ρ c main_arg5 (by decide)).trans (host0_arg5 (W0 m ρ c)))

/-- The first layer's clipped sum, as region 1 finds its operands, is the first hidden layer. -/
theorem hid_V3 (n : Fin 100000) (k : Fin 16) :
    Val1.hid (Frame.V3 m ρ) c n k = Cert.GcnSpec.h1 (aSrc m c) (aDst m c) (aX m c) (aW1 m c) (aB1 m c) n k := by
  unfold Val1.hid
  rw [dA_V3, gA_V3, sA_V3, bA_V3]; rfl

/-! ## Region 1: the second layer's features, scaled once and twice -/

theorem narrow1 (n : Fin 100000) (f : Fin 32) :
    (W4 m ρ c (Proc.devRef .tc main_v25_0) : Vec Ideal S100000x32 .bf16) (ix2 n f) = sLin2 m c n f * sDinv m c n := by
  refine ((congrFun (W4_arr m ρ c 5) (ix2 n f)).trans (Val1.final1_5 (Frame.V3 m ρ) c n f)).trans ?_
  rw [wA_V3, dA_V3]
  simp only [hid_V3]; rfl

theorem wide1 (n : Fin 100000) (f : Fin 32) :
    (W4 m ρ c (Proc.devRef .tc main_v25_1) : Vec Ideal S100000x32 .f32) (ix2 n f)
      = sLin2 m c n f * sDinv m c n * sDinv m c n := by
  refine ((congrFun (W4_arr m ρ c 6) (ix2 n f)).trans (Val1.final1_6 (Frame.V3 m ρ) c n f)).trans ?_
  rw [wA_V3, dA_V3]
  simp only [hid_V3]; rfl

/-! ## The third host stretch: the second aggregate, the graph column and the two bias rows -/

theorem dA_V5 (n : Fin 100000) : Val2.dA (Frame.V5 m ρ) c (ix2 n 0) = sDinv m c n := by
  rw [show Val2.dA (Frame.V5 m ρ) c = Val1.dA (Frame.V3 m ρ) c from
    (host2_v11 (W4 m ρ c)).trans (W4_keep m ρ c main_v11 (by decide))]
  exact dA_V3 m ρ c n
theorem v1_W4 (e : Fin 3200000) : (W4 m ρ c (Proc.devRef .tc main_v1) : IVec S3200000 32) (ix1 e) = aSrc m c e := by
  rw [show W4 m ρ c (Proc.devRef .tc main_v1) = W2 m ρ c (Proc.devRef .tc main_v1) from
    (W4_keep m ρ c main_v1 (by decide)).trans (host1_v1 (W2 m ρ c))]
  exact v1_W2 m ρ c e
theorem v3_W4 (e : Fin 3200000) : (W4 m ρ c (Proc.devRef .tc main_v3) : IVec S3200000 32) (ix1 e) = aDst m c e := by
  rw [show W4 m ρ c (Proc.devRef .tc main_v3) = W2 m ρ c (Proc.devRef .tc main_v3) from
    (W4_keep m ρ c main_v3 (by decide)).trans (host1_v3 (W2 m ρ c))]
  exact v3_W2 m ρ c e

theorem gA_V5 (n : Fin 100000) (f : Fin 32) :
    Val2.gA (Frame.V5 m ρ) c (ix2 n f) = Cert.GcnSpec.agg (aSrc m c) (aDst m c) (sLin2 m c) n f := by
  refine (host2_agg (W4 m ρ c) n f).trans ?_
  show @Eq EReal _ _
  unfold Cert.GcnSpec.agg
  refine Finset.sum_congr rfl fun e _ => ?_
  rw [v3_W4, v1_W4, narrow1]

theorem arg2_W4 : W4 m ρ c (Proc.devRef .tc main_arg2) = m ((c.tc : Thread nD τ).loc main_arg2) :=
  (W4_keep m ρ c main_arg2 (by decide)).trans ((host1_arg2 (W2 m ρ c)).trans
    ((W2_keep m ρ c main_arg2 (by decide)).trans (host0_arg2 (W0 m ρ c))))
theorem arg6_W4 : W4 m ρ c (Proc.devRef .tc main_arg6) = m ((c.tc : Thread nD τ).loc main_arg6) :=
  (W4_keep m ρ c main_arg6 (by decide)).trans ((host1_arg6 (W2 m ρ c)).trans
    ((W2_keep m ρ c main_arg6 (by decide)).trans (host0_arg6 (W0 m ρ c))))
theorem arg8_W4 : W4 m ρ c (Proc.devRef .tc main_arg8) = m ((c.tc : Thread nD τ).loc main_arg8) :=
  (W4_keep m ρ c main_arg8 (by decide)).trans ((host1_arg8 (W2 m ρ c)).trans
    ((W2_keep m ρ c main_arg8 (by decide)).trans (host0_arg8 (W0 m ρ c))))
theorem wfcA_V5 : Val2.wfcA (Frame.V5 m ρ) c = m ((c.tc : Thread nD τ).loc main_arg7) :=
  (host2_arg7 (W4 m ρ c)).trans ((W4_keep m ρ c main_arg7 (by decide)).trans ((host1_arg7 (W2 m ρ c)).trans
    ((W2_keep m ρ c main_arg7 (by decide)).trans (host0_arg7 (W0 m ρ c)))))

theorem batA_V5 (n : Fin 100000) : Val2.batA (Frame.V5 m ρ) c (ix2 n 0) = aBat m c n := by
  refine (host2_batch (W4 m ρ c) n).trans ?_
  rw [arg2_W4]
theorem bA_V5 (k : Fin 32) : Val2.bA (Frame.V5 m ρ) c (ix2 0 k) = aB2 m c k := by
  refine (host2_bias (W4 m ρ c) k).trans ?_
  rw [arg6_W4]
theorem bfcA_V5 (j : Fin 10) : Val2.bfcA (Frame.V5 m ρ) c (ix2 0 j) = aBfc m c j := by
  refine (host2_bfc (W4 m ρ c) j).trans ?_
  rw [arg8_W4]
theorem sA_V5 (n : Fin 100000) (f : Fin 32) :
    Val2.sA (Frame.V5 m ρ) c (ix2 n f) = sLin2 m c n f * sDinv m c n * sDinv m c n := by
  rw [show Val2.sA (Frame.V5 m ρ) c = (W4 m ρ c (Proc.devRef .tc main_v25_1) : Vec Ideal S100000x32 .f32) from
    host2_v25_1 (W4 m ρ c)]
  exact wide1 m ρ c n f

/-- The second layer's clipped sum, as region 2 finds its operands, is the second hidden layer. -/
theorem hid2_V5 (n : Fin 100000) (f : Fin 32) :
    Val2.hid2 (Frame.V5 m ρ) c n f
      = Cert.GcnSpec.h2 (aSrc m c) (aDst m c) (aX m c) (aW1 m c) (aB1 m c) (aW2 m c) (aB2 m c) n f := by
  unfold Val2.hid2
  rw [dA_V5, gA_V5, sA_V5, bA_V5]; rfl

/-! ## Region 2: the pooled read-out -/

theorem result_at (g : Fin 256) (j : Fin 10) :
    (W6 m ρ c (Proc.devRef .tc main_v40) : Vec Ideal S256x10 .f32) (ix2 g j)
      = Cert.GcnSpec.out (aSrc m c) (aDst m c) (aBat m c) (aX m c) (aW1 m c) (aB1 m c) (aW2 m c) (aB2 m c) (aWfc m c) (aBfc m c) g j := by
  refine ((congrFun (W6_arr m ρ c 7) (ix2 g j)).trans (Val2.final2_7 (Frame.V5 m ρ) c g j)).trans ?_
  have hs : ∀ f : Fin 32,
      (∑ n : Fin 100000, if (Val2.batA (Frame.V5 m ρ) c (ix2 n 0)).toInt = (g.val : Int)
          then Val2.hid2 (Frame.V5 m ρ) c n f else 0)
        = Cert.GcnSpec.gsum (aSrc m c) (aDst m c) (aBat m c) (aX m c) (aW1 m c) (aB1 m c) (aW2 m c) (aB2 m c) g f :=
    fun f => Finset.sum_congr rfl fun n _ => by rw [batA_V5, hid2_V5]
  have hc : (∑ n : Fin 100000, if (Val2.batA (Frame.V5 m ρ) c (ix2 n 0)).toInt = (g.val : Int) then (1 : EReal) else 0)
      = Cert.GcnSpec.gcnt (aBat m c) g :=
    Finset.sum_congr rfl fun n _ => by rw [batA_V5]
  rw [wfcA_V5, bfcA_V5, hc]
  show @Eq EReal _ _
  unfold Cert.GcnSpec.out Cert.GcnSpec.pooled
  refine congrArg (fun t => t + aBfc m c j) (Finset.sum_congr rfl fun f _ => ?_)
  exact congrArg (fun t => Ideal.div t (max (Cert.GcnSpec.gcnt (aBat m c) g) 1) * aWfc m c f j) (hs f)

/-! ## The result array -/

theorem kernel_value :
    W6 m ρ c (Proc.devRef .tc main_v40)
      = Cert.GcnSpec.specOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) := by
  refine funext fun (i : S256x10.Idx) => ?_
  obtain ⟨g, j, rfl⟩ : ∃ g j, i = ix2 g j := ⟨i 0, i 1, eq_ix2 i⟩
  exact result_at m ρ c g j

end Cert.KernelIdeal.Val

end
-- ==== Proof.SpecRef.lean ====
/-
  The same result written the way the reference arranges it: the self-loops are extra edges appended to both index
  rows (position 3200000 + j is the loop at node j), every edge carries the product of its two endpoints' factors,
  and each accumulation starts from zero.  `SpecAlgebra` proves it is `GcnSpec.out` when the float inputs are finite.
-/
import proofs.«400167_j37993280700520_3_alg».proof.Proof.Spec

noncomputable section

namespace Cert.GcnSpec

open Idealize.ShloMosaic

/-- An index row with the self-loops appended: position e < 3200000 is edge e, position 3200000 + j the word j. -/
def withLoops (r : Fin EE → BitVec 32) (e' : Fin (EE + NN)) : BitVec 32 :=
  if h : e'.val < EE then r ⟨e'.val, h⟩ else BitVec.ofNat 32 (e'.val - EE)

section
variable (src dst : Fin EE → BitVec 32) (bat : Fin NN → BitVec 32)
variable (x : Fin NN → Fin 128 → EReal) (W1 : Fin 128 → Fin 16 → EReal) (b1 : Fin 16 → EReal)
  (W2 : Fin 16 → Fin 32 → EReal) (b2 : Fin 32 → EReal) (Wfc : Fin 32 → Fin 10 → EReal) (bfc : Fin 10 → EReal)

def cntR (n : Fin NN) : EReal :=
  ∑ e' : Fin (EE + NN), if (withLoops dst e').toInt = (n.val : Int) then (1 : EReal) else 0
def degR (n : Fin NN) : EReal := 0 + cntR dst n
def dinvR (n : Fin NN) : EReal := Ideal.rsqrt (degR dst n)

/-- An edge's weight: the product of its endpoints' factors. -/
def normR (e' : Fin (EE + NN)) : EReal :=
  dinvR dst (rowOf (withLoops src e')) * dinvR dst (rowOf (withLoops dst e'))

def aggR {C : Nat} (lin : Fin NN → Fin C → EReal) (n : Fin NN) (f : Fin C) : EReal :=
  0 + ∑ e' : Fin (EE + NN), if (withLoops dst e').toInt = (n.val : Int)
    then lin (rowOf (withLoops src e')) f * normR src dst e' else 0

def convR {C : Nat} (lin : Fin NN → Fin C → EReal) (b : Fin C → EReal) (n : Fin NN) (f : Fin C) : EReal :=
  max (aggR src dst lin n f + b f) 0

def h1R (n : Fin NN) (f : Fin 16) : EReal := convR src dst (lin1 x W1) b1 n f
def lin2R (n : Fin NN) (f : Fin 32) : EReal := ∑ k : Fin 16, h1R src dst x W1 b1 n k * W2 k f
def h2R (n : Fin NN) (f : Fin 32) : EReal := convR src dst (lin2R src dst x W1 b1 W2) b2 n f

def gsumR (g : Fin GG) (f : Fin 32) : EReal :=
  0 + ∑ n : Fin NN, if (bat n).toInt = (g.val : Int) then h2R src dst x W1 b1 W2 b2 n f else 0
def gcntR (g : Fin GG) : EReal := 0 + ∑ n : Fin NN, if (bat n).toInt = (g.val : Int) then (1 : EReal) else 0
def pooledR (g : Fin GG) (f : Fin 32) : EReal :=
  Ideal.div (gsumR src dst bat x W1 b1 W2 b2 g f) (max (gcntR bat g) 1)
def outR (g : Fin GG) (j : Fin 10) : EReal :=
  (∑ f : Fin 32, pooledR src dst bat x W1 b1 W2 b2 g f * Wfc f j) + bfc j

end

end Cert.GcnSpec

end
-- ==== Proof.RefValue.lean ====
/-
  The reference program's result, read one operation at a time, is the reference-shaped form of the
  specification: the two index rows with the self-loops appended, the degree as a count started from zero,
  every edge weighted by the product of its endpoints' factors, two convolutions, the mean pool and the read-out.
-/
import proofs.«400167_j37993280700520_3_alg».proof.Proof.Gen.ReferenceIdeal.Read
import proofs.«400167_j37993280700520_3_alg».proof.Proof.SpecRef
import proofs.«400167_j37993280700520_3_alg».proof.Proof.LibGatherScatterRows
import proofs.«400167_j37993280700520_3_alg».proof.Proof.LibIndexOps
import Idealize.ShloMosaic.Lib.IdealHost

noncomputable section

namespace Cert.ReferenceIdeal.RefValue

open Cert.ReferenceIdeal Cert.ReferenceIdeal.Gen Cert.ReferenceIdeal.Read Cert.GcnSpec
open Idealize.ShloMosaic Idealize.ShloMosaic.ValueIdx Idealize.ShloMosaic.IndexOps Idealize.ShloMosaic.RowsGS

/-! ## The nine argument arrays as the specification's arguments -/

/-- Row 0 of the edge array: the source words. -/
abbrev srcW (x1 : (⟨S2x3200000, .i32⟩ : BufTy).Contents (Elt Ideal)) : Fin EE → BitVec 32 := fun e => x1 (ix2 (0 : Fin 2) e)
/-- Row 1 of the edge array: the target words. -/
abbrev dstW (x1 : (⟨S2x3200000, .i32⟩ : BufTy).Contents (Elt Ideal)) : Fin EE → BitVec 32 := fun e => x1 (ix2 (1 : Fin 2) e)
/-- The graph word of each node. -/
abbrev batW (x2 : (⟨S100000, .i32⟩ : BufTy).Contents (Elt Ideal)) : Fin NN → BitVec 32 := fun n => x2 (ix1 n)
/-- The node features by node and channel. -/
abbrev featW (x0 : (⟨S100000x128, .f32⟩ : BufTy).Contents (Elt Ideal)) : Fin NN → Fin 128 → EReal := fun n k => x0 (ix2 n k)
/-- The first layer's weights and bias. -/
abbrev w1W (x3 : (⟨S128x16, .f32⟩ : BufTy).Contents (Elt Ideal)) : Fin 128 → Fin 16 → EReal := fun k f => x3 (ix2 k f)
abbrev b1W (x4 : (⟨S16, .f32⟩ : BufTy).Contents (Elt Ideal)) : Fin 16 → EReal := fun f => x4 (ix1 f)
/-- The second layer's weights and bias. -/
abbrev w2W (x5 : (⟨S16x32, .f32⟩ : BufTy).Contents (Elt Ideal)) : Fin 16 → Fin 32 → EReal := fun k f => x5 (ix2 k f)
abbrev b2W (x6 : (⟨S32, .f32⟩ : BufTy).Contents (Elt Ideal)) : Fin 32 → EReal := fun f => x6 (ix1 f)
/-- The read-out's weights and bias. -/
abbrev wfcW (x7 : (⟨S32x10, .f32⟩ : BufTy).Contents (Elt Ideal)) : Fin 32 → Fin 10 → EReal := fun f j => x7 (ix2 f j)
abbrev bfcW (x8 : (⟨S10, .f32⟩ : BufTy).Contents (Elt Ideal)) : Fin 10 → EReal := fun j => x8 (ix1 j)

/-! ## Words: the index wrap and the clamp are the specification's row -/

/-- A negative index word raised by the number of nodes, any other word kept. -/
def wrapW (z : BitVec 32) : BitVec 32 := if z.slt 0#32 then z + 100000#32 else z

/-- The wrapped word, read signed and clamped into the table, is the row the specification reads. -/
theorem clamp_wrap (h : 0 < 100000) (z : BitVec 32) : clampRow 100000 h (wrapW z).toInt = rowOf z := rfl

/-- The zero word of the accumulations' start is the extended real zero. -/
theorem zero_word : FloatOps.ofBits (F := Ideal) .f32 0x00000000#32 = 0 := by
  rw [Ideal.ofBits_def, Ideal.ofBits_zero_f32]

/-- The word of the counted ones is the extended real one. -/
theorem one_word : FloatOps.ofBits (F := Ideal) .f32 0x3F800000#32 = 1 := by
  rw [Ideal.ofBits_def, Ideal.ofBits_one_f32]

/-! ## The two index rows with the self-loops appended -/

section Rows
variable (x1 : (⟨S2x3200000, .i32⟩ : BufTy).Contents (Elt Ideal))

/-- Row 0 flattened reads the edge array at (0, e). -/
theorem v2_at (e : Fin 3200000) : val_main_v2 (F := Ideal) x1 (ix1 e) = x1 (ix2 (0 : Fin 2) e) := by
  have hi : idx_main_v1 (idx_main_v2 (ix1 e)) = ix2 (0 : Fin 2) e := by
    funext a
    refine Fin.ext ?_
    match a with
    | ⟨0, _⟩ => rfl
    | ⟨1, _⟩ => exact Nat.mod_eq_of_lt e.isLt
  rw [val_main_v2_apply, val_main_v1_apply, hi]

/-- Row 1 flattened reads the edge array at (1, e). -/
theorem v5_at (e : Fin 3200000) : val_main_v5 (F := Ideal) x1 (ix1 e) = x1 (ix2 (1 : Fin 2) e) := by
  have hi : idx_main_v4 (idx_main_v5 (ix1 e)) = ix2 (1 : Fin 2) e := by
    funext a
    refine Fin.ext ?_
    match a with
    | ⟨0, _⟩ => rfl
    | ⟨1, _⟩ => exact Nat.mod_eq_of_lt e.isLt
  rw [val_main_v5_apply, val_main_v4_apply, hi]

/-- The source row followed by the node numbers is the source row with the self-loops appended. -/
theorem v3_at (e' : Fin 3300000) : val_main_v3 (F := Ideal) x1 (ix1 e') = withLoops (srcW x1) e' := by
  unfold val_main_v3
  refine (concatenate1_apply _ _ _ e').trans ?_
  unfold withLoops
  by_cases h : e'.val < 3200000
  · rw [dif_pos h, dif_pos h, v2_at]
  · rw [dif_neg h, dif_neg h]
    rfl

/-- The target row followed by the node numbers is the target row with the self-loops appended. -/
theorem v6_at (e' : Fin 3300000) : val_main_v6 (F := Ideal) x1 (ix1 e') = withLoops (dstW x1) e' := by
  unfold val_main_v6
  refine (concatenate1_apply _ _ _ e').trans ?_
  unfold withLoops
  by_cases h : e'.val < 3200000
  · rw [dif_pos h, dif_pos h, v5_at]
  · rw [dif_neg h, dif_neg h]
    rfl

/-- The column a gather or scatter takes its indices from, at row e', reads the vector at e'. -/
theorem col_idx (e' : Fin 3300000) : idx_main_v9 (ix2 e' (0 : Fin 1)) = ix1 e' := by
  funext a; match a with | ⟨0, _⟩ => rfl

/-! ## The degree and the normalising factor -/

/-- The degree: from zero, one for every edge (self-loops included) aimed at the node. -/
theorem deg_eq (n : Fin 100000) : val_main_v10 (F := Ideal) x1 (ix1 n) = degR (dstW x1) n := by
  unfold val_main_v10
  rw [scatterAdd_rows1_apply _ rfl rfl rfl rfl, val_main_v8_apply, val_main_cst_0_apply, zero_word]
  show _ = 0 + ∑ e' : Fin 3300000, if (withLoops (dstW x1) e').toInt = (n.val : Int) then (1 : EReal) else 0
  refine congrArg (fun s : EReal => 0 + s) ?_
  refine Finset.sum_congr rfl fun e' _ => ?_
  rw [val_main_v9_apply, col_idx, v6_at, val_main_v7_apply, val_main_cst_apply, one_word]

/-- The factor: the reciprocal square root of the degree. -/
theorem dinv_eq (n : Fin 100000) : val_main_v11 (F := Ideal) x1 (ix1 n) = dinvR (dstW x1) n := by
  rw [val_main_v11_apply, Ideal.hostUnary_rsqrt_def, deg_eq]
  rfl

end Rows

/-! ## The index wrap before each gather, and the edge weight -/

section Weight
variable (x1 : (⟨S2x3200000, .i32⟩ : BufTy).Contents (Elt Ideal))

/-- The wrapped source index before the first factor gather. -/
theorem v16_at (e' : Fin 3300000) : val_main_v16 (F := Ideal) x1 (ix1 e') = wrapW (withLoops (srcW x1) e') := by
  unfold val_main_v16 val_main_v13 val_main_v15
  rw [wrap_apply, val_main_v12_apply, val_main_c_apply, val_main_v14_apply, val_main_c_1_apply, v3_at]
  rfl

/-- The wrapped target index before the second factor gather. -/
theorem v23_at (e' : Fin 3300000) : val_main_v23 (F := Ideal) x1 (ix1 e') = wrapW (withLoops (dstW x1) e') := by
  unfold val_main_v23 val_main_v20 val_main_v22
  rw [wrap_apply, val_main_v19_apply, val_main_c_2_apply, val_main_v21_apply, val_main_c_3_apply, v6_at]
  rfl

/-- The wrapped source index before the first layer's row gather. -/
theorem v32_at (e' : Fin 3300000) : val_main_v32 (F := Ideal) x1 (ix1 e') = wrapW (withLoops (srcW x1) e') := by
  unfold val_main_v32 val_main_v29 val_main_v31
  rw [wrap_apply, val_main_v28_apply, val_main_c_4_apply, val_main_v30_apply, val_main_c_5_apply, v3_at]
  rfl

/-- The wrapped source index before the second layer's row gather. -/
theorem v50_at (e' : Fin 3300000) : val_main_v50 (F := Ideal) x1 (ix1 e') = wrapW (withLoops (srcW x1) e') := by
  unfold val_main_v50 val_main_v47 val_main_v49
  rw [wrap_apply, val_main_v46_apply, val_main_c_7_apply, val_main_v48_apply, val_main_c_8_apply, v3_at]
  rfl

/-- The source endpoint's factor of edge e'. -/
theorem v18_at (e' : Fin 3300000) :
    val_main_v18 (F := Ideal) x1 (ix1 e') = dinvR (dstW x1) (rowOf (withLoops (srcW x1) e')) := by
  unfold val_main_v18
  rw [gather_rows1_clamp (by decide) _ rfl rfl rfl rfl rfl rfl rfl, val_main_v17_apply,
    show idx_main_v17 (ix2 e' (0 : Fin 1)) = ix1 e' from col_idx e', v16_at, clamp_wrap, dinv_eq]

/-- The target endpoint's factor of edge e'. -/
theorem v25_at (e' : Fin 3300000) :
    val_main_v25 (F := Ideal) x1 (ix1 e') = dinvR (dstW x1) (rowOf (withLoops (dstW x1) e')) := by
  unfold val_main_v25
  rw [gather_rows1_clamp (by decide) _ rfl rfl rfl rfl rfl rfl rfl, val_main_v24_apply,
    show idx_main_v24 (ix2 e' (0 : Fin 1)) = ix1 e' from col_idx e', v23_at, clamp_wrap, dinv_eq]

/-- The weight of edge e': the product of its endpoints' factors. -/
theorem norm_eq (e' : Fin 3300000) : val_main_v26 (F := Ideal) x1 (ix1 e') = normR (srcW x1) (dstW x1) e' := by
  rw [val_main_v26_apply, Ideal.mulf_def, v18_at, v25_at]
  rfl

/-- The weight spread over a row's channels reads the edge's weight at every channel (16 channels). -/
theorem v36_at (e' : Fin 3300000) (c : Fin 16) :
    val_main_v36 (F := Ideal) x1 (ix2 e' c) = normR (srcW x1) (dstW x1) e' := by
  have h1 : idx_main_v36 (ix2 e' c) = ix2 e' (0 : Fin 1) := by
    funext a; refine Fin.ext ?_; match a with | ⟨0, _⟩ => rfl | ⟨1, _⟩ => rfl
  rw [val_main_v36_apply, h1, val_main_v35_apply,
    show idx_main_v35 (ix2 e' (0 : Fin 1)) = ix1 e' from col_idx e', norm_eq]

/-- The weight spread over a row's channels reads the edge's weight at every channel (32 channels). -/
theorem v54_at (e' : Fin 3300000) (c : Fin 32) :
    val_main_v54 (F := Ideal) x1 (ix2 e' c) = normR (srcW x1) (dstW x1) e' := by
  have h1 : idx_main_v54 (ix2 e' c) = ix2 e' (0 : Fin 1) := by
    funext a; refine Fin.ext ?_; match a with | ⟨0, _⟩ => rfl | ⟨1, _⟩ => rfl
  rw [val_main_v54_apply, h1, val_main_v53_apply,
    show idx_main_v53 (ix2 e' (0 : Fin 1)) = ix1 e' from col_idx e', norm_eq]

end Weight

/-! ## The first convolution -/

section Layer1
variable (x0 : (⟨S100000x128, .f32⟩ : BufTy).Contents (Elt Ideal)) (x1 : (⟨S2x3200000, .i32⟩ : BufTy).Contents (Elt Ideal))
  (x3 : (⟨S128x16, .f32⟩ : BufTy).Contents (Elt Ideal)) (x4 : (⟨S16, .f32⟩ : BufTy).Contents (Elt Ideal))

/-- The first linear layer: features times weights. -/
theorem lin1_eq (n : Fin 100000) (f : Fin 16) :
    val_main_v27 (F := Ideal) x0 x3 (ix2 n f) = lin1 (featW x0) (w1W x3) n f := by
  rw [val_main_v27_apply]
  unfold lin1
  refine Finset.sum_congr rfl fun k _ => ?_
  have hl : lidx_main_v27 (ix2 n f) k = ix2 n k := by
    funext a; refine Fin.ext ?_; match a with | ⟨0, _⟩ => rfl | ⟨1, _⟩ => rfl
  have hr : ridx_main_v27 (ix2 n f) k = ix2 k f := by
    funext a; refine Fin.ext ?_; match a with | ⟨0, _⟩ => rfl | ⟨1, _⟩ => rfl
  rw [hl, hr]

/-- The linear layer's row at an edge's source. -/
theorem v34_at (e' : Fin 3300000) (c : Fin 16) :
    val_main_v34 (F := Ideal) x0 x1 x3 (ix2 e' c) = lin1 (featW x0) (w1W x3) (rowOf (withLoops (srcW x1) e')) c := by
  unfold val_main_v34
  rw [gather_rows2_clamp (by decide) _ rfl rfl rfl rfl rfl rfl rfl, val_main_v33_apply,
    show idx_main_v33 (ix2 e' (0 : Fin 1)) = ix1 e' from col_idx e', v32_at, clamp_wrap, lin1_eq]

/-- The message of edge e': its source's row times its weight. -/
theorem v37_at (e' : Fin 3300000) (c : Fin 16) :
    val_main_v37 (F := Ideal) x0 x1 x3 (ix2 e' c)
      = lin1 (featW x0) (w1W x3) (rowOf (withLoops (srcW x1) e')) c * normR (srcW x1) (dstW x1) e' := by
  rw [val_main_v37_apply, Ideal.mulf_def, v34_at, v36_at]

/-- The first aggregation: from zero, the messages of the edges aimed at the node. -/
theorem agg1_eq (n : Fin 100000) (c : Fin 16) :
    val_main_v40 (F := Ideal) x0 x1 x3 (ix2 n c) = aggR (srcW x1) (dstW x1) (lin1 (featW x0) (w1W x3)) n c := by
  unfold val_main_v40
  rw [scatterAdd_rows2_apply _ rfl rfl rfl rfl, val_main_v38_apply, val_main_cst_6_apply, zero_word]
  show _ = 0 + ∑ e' : Fin 3300000, if (withLoops (dstW x1) e').toInt = (n.val : Int)
    then lin1 (featW x0) (w1W x3) (rowOf (withLoops (srcW x1) e')) c * normR (srcW x1) (dstW x1) e' else 0
  refine congrArg (fun s : EReal => 0 + s) ?_
  refine Finset.sum_congr rfl fun e' _ => ?_
  rw [val_main_v39_apply, show idx_main_v39 (ix2 e' (0 : Fin 1)) = ix1 e' from col_idx e', v6_at, v37_at]

/-- The first layer's bias spread over the nodes. -/
theorem v42_at (n : Fin 100000) (f : Fin 16) : val_main_v42 (F := Ideal) x4 (ix2 n f) = x4 (ix1 f) := by
  have h1 : idx_main_v41 (idx_main_v42 (ix2 n f)) = ix1 f := by
    funext a; match a with | ⟨0, _⟩ => rfl
  rw [val_main_v42_apply, val_main_v41_apply, h1]

/-- The first convolution's result: aggregation plus bias, clipped at zero. -/
theorem h1_eq (n : Fin 100000) (f : Fin 16) :
    val_main_v44 (F := Ideal) x0 x1 x3 x4 (ix2 n f) = h1R (srcW x1) (dstW x1) (featW x0) (w1W x3) (b1W x4) n f := by
  rw [val_main_v44_apply, Ideal.maximumf_def, val_main_v43_apply, Ideal.addf_def, agg1_eq, v42_at,
    val_main_call0_v0_apply, val_main_call0_cst_apply, zero_word]
  rfl

end Layer1

/-! ## The second convolution -/

section Layer2
variable (x0 : (⟨S100000x128, .f32⟩ : BufTy).Contents (Elt Ideal)) (x1 : (⟨S2x3200000, .i32⟩ : BufTy).Contents (Elt Ideal))
  (x3 : (⟨S128x16, .f32⟩ : BufTy).Contents (Elt Ideal)) (x4 : (⟨S16, .f32⟩ : BufTy).Contents (Elt Ideal))
  (x5 : (⟨S16x32, .f32⟩ : BufTy).Contents (Elt Ideal)) (x6 : (⟨S32, .f32⟩ : BufTy).Contents (Elt Ideal))

/-- The second linear layer: the first convolution's result times weights. -/
theorem lin2_eq (n : Fin 100000) (f : Fin 32) :
    val_main_v45 (F := Ideal) x0 x1 x3 x4 x5 (ix2 n f)
      = lin2R (srcW x1) (dstW x1) (featW x0) (w1W x3) (b1W x4) (w2W x5) n f := by
  rw [val_main_v45_apply]
  unfold lin2R
  refine Finset.sum_congr rfl fun k _ => ?_
  have hl : lidx_main_v45 (ix2 n f) k = ix2 n k := by
    funext a; refine Fin.ext ?_; match a with | ⟨0, _⟩ => rfl | ⟨1, _⟩ => rfl
  have hr : ridx_main_v45 (ix2 n f) k = ix2 k f := by
    funext a; refine Fin.ext ?_; match a with | ⟨0, _⟩ => rfl | ⟨1, _⟩ => rfl
  rw [hl, hr, h1_eq]

/-- The linear layer's row at an edge's source. -/
theorem v52_at (e' : Fin 3300000) (c : Fin 32) :
    val_main_v52 (F := Ideal) x0 x1 x3 x4 x5 (ix2 e' c)
      = lin2R (srcW x1) (dstW x1) (featW x0) (w1W x3) (b1W x4) (w2W x5) (rowOf (withLoops (srcW x1) e')) c := by
  unfold val_main_v52
  rw [gather_rows2_clamp (by decide) _ rfl rfl rfl rfl rfl rfl rfl, val_main_v51_apply,
    show idx_main_v51 (ix2 e' (0 : Fin 1)) = ix1 e' from col_idx e', v50_at, clamp_wrap, lin2_eq]

/-- The message of edge e': its source's row times its weight. -/
theorem v55_at (e' : Fin 3300000) (c : Fin 32) :
    val_main_v55 (F := Ideal) x0 x1 x3 x4 x5 (ix2 e' c)
      = lin2R (srcW x1) (dstW x1) (featW x0) (w1W x3) (b1W x4) (w2W x5) (rowOf (withLoops (srcW x1) e')) c
          * normR (srcW x1) (dstW x1) e' := by
  rw [val_main_v55_apply, Ideal.mulf_def, v52_at, v54_at]

/-- The second aggregation: from zero, the messages of the edges aimed at the node. -/
theorem agg2_eq (n : Fin 100000) (c : Fin 32) :
    val_main_v58 (F := Ideal) x0 x1 x3 x4 x5 (ix2 n c)
      = aggR (srcW x1) (dstW x1) (lin2R (srcW x1) (dstW x1) (featW x0) (w1W x3) (b1W x4) (w2W x5)) n c := by
  unfold val_main_v58
  rw [scatterAdd_rows2_apply _ rfl rfl rfl rfl, val_main_v56_apply, val_main_cst_9_apply, zero_word]
  show _ = 0 + ∑ e' : Fin 3300000, if (withLoops (dstW x1) e').toInt = (n.val : Int)
    then lin2R (srcW x1) (dstW x1) (featW x0) (w1W x3) (b1W x4) (w2W x5) (rowOf (withLoops (srcW x1) e')) c
      * normR (srcW x1) (dstW x1) e' else 0
  refine congrArg (fun s : EReal => 0 + s) ?_
  refine Finset.sum_congr rfl fun e' _ => ?_
  rw [val_main_v57_apply, show idx_main_v57 (ix2 e' (0 : Fin 1)) = ix1 e' from col_idx e', v6_at, v55_at]

/-- The second layer's bias spread over the nodes. -/
theorem v60_at (n : Fin 100000) (f : Fin 32) : val_main_v60 (F := Ideal) x6 (ix2 n f) = x6 (ix1 f) := by
  have h1 : idx_main_v59 (idx_main_v60 (ix2 n f)) = ix1 f := by
    funext a; match a with | ⟨0, _⟩ => rfl
  rw [val_main_v60_apply, val_main_v59_apply, h1]

/-- The second convolution's result: aggregation plus bias, clipped at zero. -/
theorem h2_eq (n : Fin 100000) (f : Fin 32) :
    val_main_v62 (F := Ideal) x0 x1 x3 x4 x5 x6 (ix2 n f)
      = h2R (srcW x1) (dstW x1) (featW x0) (w1W x3) (b1W x4) (w2W x5) (b2W x6) n f := by
  rw [val_main_v62_apply, Ideal.maximumf_def, val_main_v61_apply, Ideal.addf_def, agg2_eq, v60_at,
    val_main_call1_v0_apply, val_main_call1_cst_apply, zero_word]
  rfl

end Layer2

/-! ## The mean pool and the read-out -/

section Pool
variable (x0 : (⟨S100000x128, .f32⟩ : BufTy).Contents (Elt Ideal)) (x1 : (⟨S2x3200000, .i32⟩ : BufTy).Contents (Elt Ideal))
  (x2 : (⟨S100000, .i32⟩ : BufTy).Contents (Elt Ideal))
  (x3 : (⟨S128x16, .f32⟩ : BufTy).Contents (Elt Ideal)) (x4 : (⟨S16, .f32⟩ : BufTy).Contents (Elt Ideal))
  (x5 : (⟨S16x32, .f32⟩ : BufTy).Contents (Elt Ideal)) (x6 : (⟨S32, .f32⟩ : BufTy).Contents (Elt Ideal))
  (x7 : (⟨S32x10, .f32⟩ : BufTy).Contents (Elt Ideal)) (x8 : (⟨S10, .f32⟩ : BufTy).Contents (Elt Ideal))

/-- The graph words as the column the pooling scatters by. -/
theorem bat_col (n : Fin 100000) : idx_main_v64 (ix2 n (0 : Fin 1)) = ix1 n := by
  funext a; match a with | ⟨0, _⟩ => rfl

/-- The pooled sums: from zero, the second convolution's rows of the graph's nodes. -/
theorem gsum_eq (g : Fin 256) (f : Fin 32) :
    val_main_v65 (F := Ideal) x0 x1 x2 x3 x4 x5 x6 (ix2 g f)
      = gsumR (srcW x1) (dstW x1) (batW x2) (featW x0) (w1W x3) (b1W x4) (w2W x5) (b2W x6) g f := by
  unfold val_main_v65
  rw [scatterAdd_rows2_apply _ rfl rfl rfl rfl, val_main_v63_apply, val_main_cst_10_apply, zero_word]
  show _ = 0 + ∑ n : Fin 100000, if (batW x2 n).toInt = (g.val : Int)
    then h2R (srcW x1) (dstW x1) (featW x0) (w1W x3) (b1W x4) (w2W x5) (b2W x6) n f else 0
  refine congrArg (fun s : EReal => 0 + s) ?_
  refine Finset.sum_congr rfl fun n _ => ?_
  rw [val_main_v64_apply, bat_col, h2_eq]

/-- The pooled counts: from zero, one for every node of the graph. -/
theorem gcnt_eq (g : Fin 256) : val_main_v69 (F := Ideal) x2 (ix1 g) = gcntR (batW x2) g := by
  unfold val_main_v69
  rw [scatterAdd_rows1_apply _ rfl rfl rfl rfl, val_main_v67_apply, val_main_cst_12_apply, zero_word]
  show _ = 0 + ∑ n : Fin 100000, if (batW x2 n).toInt = (g.val : Int) then (1 : EReal) else 0
  refine congrArg (fun s : EReal => 0 + s) ?_
  refine Finset.sum_congr rfl fun n _ => ?_
  rw [val_main_v68_apply, show idx_main_v68 (ix2 n (0 : Fin 1)) = ix1 n from bat_col n,
    val_main_v66_apply, val_main_cst_11_apply, one_word]

/-- The divisor: the count, at least one, at every channel of the graph's row. -/
theorem v73_at (g : Fin 256) (f : Fin 32) : val_main_v73 (F := Ideal) x2 (ix2 g f) = max (gcntR (batW x2) g) 1 := by
  have h1 : idx_main_v72 (idx_main_v73 (ix2 g f)) = ix1 g := by
    funext a; match a with | ⟨0, _⟩ => rfl
  rw [val_main_v73_apply, val_main_v72_apply, h1, val_main_v71_apply, Ideal.maximumf_def, gcnt_eq,
    val_main_v70_apply, val_main_cst_13_apply, one_word]

/-- The mean over a graph's nodes. -/
theorem pooled_eq (g : Fin 256) (f : Fin 32) :
    val_main_v74 (F := Ideal) x0 x1 x2 x3 x4 x5 x6 (ix2 g f)
      = pooledR (srcW x1) (dstW x1) (batW x2) (featW x0) (w1W x3) (b1W x4) (w2W x5) (b2W x6) g f := by
  rw [val_main_v74_apply, Ideal.hostDivf_def, gsum_eq, v73_at]
  rfl

/-- The read-out's bias spread over the graphs. -/
theorem v77_at (g : Fin 256) (j : Fin 10) : val_main_v77 (F := Ideal) x8 (ix2 g j) = x8 (ix1 j) := by
  have h1 : idx_main_v76 (idx_main_v77 (ix2 g j)) = ix1 j := by
    funext a; match a with | ⟨0, _⟩ => rfl
  rw [val_main_v77_apply, val_main_v76_apply, h1]

/-- The result: the pooled rows times the read-out's weights, plus its bias. -/
theorem out_eq (g : Fin 256) (j : Fin 10) :
    val_main_v78 (F := Ideal) x0 x1 x2 x3 x4 x5 x6 x7 x8 (ix2 g j)
      = outR (srcW x1) (dstW x1) (batW x2) (featW x0) (w1W x3) (b1W x4) (w2W x5) (b2W x6) (wfcW x7) (bfcW x8) g j := by
  rw [val_main_v78_apply, Ideal.addf_def, val_main_v75_apply, v77_at]
  unfold outR
  refine congrArg (fun s : EReal => s + x8 (ix1 j)) ?_
  refine Finset.sum_congr rfl fun k _ => ?_
  have hl : lidx_main_v75 (ix2 g j) k = ix2 g k := by
    funext a; refine Fin.ext ?_; match a with | ⟨0, _⟩ => rfl | ⟨1, _⟩ => rfl
  have hr : ridx_main_v75 (ix2 g j) k = ix2 k j := by
    funext a; refine Fin.ext ?_; match a with | ⟨0, _⟩ => rfl | ⟨1, _⟩ => rfl
  rw [hl, hr, pooled_eq]

end Pool

/-- The reference's [256, 10] result at an index is the reference-shaped specification at its two coordinates. -/
theorem ref_value (x0 : (⟨S100000x128, .f32⟩ : BufTy).Contents (Elt Ideal)) (x1 : (⟨S2x3200000, .i32⟩ : BufTy).Contents (Elt Ideal))
    (x2 : (⟨S100000, .i32⟩ : BufTy).Contents (Elt Ideal)) (x3 : (⟨S128x16, .f32⟩ : BufTy).Contents (Elt Ideal))
    (x4 : (⟨S16, .f32⟩ : BufTy).Contents (Elt Ideal)) (x5 : (⟨S16x32, .f32⟩ : BufTy).Contents (Elt Ideal))
    (x6 : (⟨S32, .f32⟩ : BufTy).Contents (Elt Ideal)) (x7 : (⟨S32x10, .f32⟩ : BufTy).Contents (Elt Ideal))
    (x8 : (⟨S10, .f32⟩ : BufTy).Contents (Elt Ideal)) (i : S256x10.Idx) :
    Cert.ReferenceIdeal.Read.val_main_v78 (F := Ideal) x0 x1 x2 x3 x4 x5 x6 x7 x8 i
      = Cert.GcnSpec.outR (fun e => x1 (ix2 (0 : Fin 2) e)) (fun e => x1 (ix2 (1 : Fin 2) e)) (fun n => x2 (ix1 n))
          (fun n k => x0 (ix2 n k)) (fun k f => x3 (ix2 k f)) (fun f => x4 (ix1 f))
          (fun k f => x5 (ix2 k f)) (fun f => x6 (ix1 f)) (fun f j => x7 (ix2 f j)) (fun j => x8 (ix1 j)) (i 0) (i 1) := by
  obtain ⟨g, j, rfl⟩ : ∃ (g : Fin 256) (j : Fin 10), i = ix2 g j := ⟨i 0, i 1, eq_ix2 i⟩
  exact out_eq x0 x1 x2 x3 x4 x5 x6 x7 x8 g j

end Cert.ReferenceIdeal.RefValue

end
-- ==== Proof.SpecAlgebra.lean ====
/-
  The reference-shaped form of the result is the specification's result when the float inputs are finite.

  The reference appends one self-loop per node to the edge list, weighs every edge by the product of its two
  endpoints' normalising factors and starts every accumulation from zero.  Splitting each sum over the lengthened
  list into the edges and the loops, the loops' part collapses to its single term at the node itself; on an edge
  aimed at node n the target's factor is the factor of n, a real number, and leaves the sum.  That last step is
  distributivity, which needs real (not infinite) summands: hence the finiteness of the inputs.
-/
import proofs.«400167_j37993280700520_3_alg».proof.Proof.SpecRef
import Mathlib.Data.EReal.Basic
import Mathlib.Data.EReal.Operations
import Mathlib.Data.EReal.Inv
import Mathlib.Algebra.BigOperators.Fin
import Mathlib.Algebra.BigOperators.Ring.Finset
import Mathlib.Algebra.Order.BigOperators.Group.Finset

noncomputable section

namespace Cert.GcnSpec

open Idealize.ShloMosaic

/-! ### Real numbers inside the extended reals -/

theorem real_zero : ∃ r : ℝ, (0 : EReal) = (r : EReal) := ⟨0, rfl⟩

theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

theorem real_max_zero {a : EReal} (ha : ∃ r : ℝ, a = (r : EReal)) : ∃ r : ℝ, max a 0 = (r : EReal) := by
  obtain ⟨r, rfl⟩ := ha
  rcases le_total (r : EReal) 0 with h | h
  · exact ⟨0, by rw [max_eq_right h]; rfl⟩
  · exact ⟨r, by rw [max_eq_left h]⟩

theorem real_ite {p : Prop} [Decidable p] {a b : EReal} (ha : ∃ r : ℝ, a = (r : EReal))
    (hb : ∃ r : ℝ, b = (r : EReal)) : ∃ r : ℝ, (if p then a else b) = (r : EReal) := by
  split_ifs
  · exact ha
  · exact hb

/-- The coercion of the reals commutes with finite sums. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl (fun i _ => hg i)⟩

/-- A real factor enters a finite sum of reals. -/
theorem coe_mul_sum {ι : Type*} (s : Finset ι) (c : ℝ) (g : ι → ℝ) :
    (c : EReal) * ∑ i ∈ s, (g i : EReal) = ∑ i ∈ s, ((c * g i : ℝ) : EReal) := by
  rw [← coe_sum, ← EReal.coe_mul, Finset.mul_sum, coe_sum]

/-! ### Index words -/

theorem withLoops_castAdd (r : Fin EE → BitVec 32) (e : Fin EE) : withLoops r (Fin.castAdd NN e) = r e := by
  unfold withLoops
  have h : (Fin.castAdd NN e).val < EE := e.isLt
  rw [dif_pos h]
  rfl

theorem withLoops_natAdd (r : Fin EE → BitVec 32) (j : Fin NN) :
    withLoops r (Fin.natAdd EE j) = BitVec.ofNat 32 j.val := by
  unfold withLoops
  have h : ¬ (Fin.natAdd EE j).val < EE := by
    rw [Fin.coe_natAdd]; omega
  rw [dif_neg h, Fin.coe_natAdd, Nat.add_sub_cancel_left]

/-- A node number written as a 32-bit word reads back, signed, as itself. -/
theorem toInt_ofNat_node (j : Fin NN) : (BitVec.ofNat 32 j.val).toInt = (j.val : Int) := by
  have hj : j.val < 100000 := j.isLt
  rw [BitVec.toInt_ofNat', Int.bmod_def]
  split_ifs <;> omega

/-- A word whose signed value is the node number n reads row n: it is not negative, so it is not raised, and it lies
    inside the table, so it is not clamped. -/
theorem rowOf_of_toInt_eq (z : BitVec 32) (n : Fin NN) (h : z.toInt = (n.val : Int)) : rowOf z = n := by
  have hn : n.val < 100000 := n.isLt
  have hs : z.slt 0#32 = false := by
    simp only [BitVec.slt, BitVec.toInt_zero, decide_eq_false_iff_not, not_lt]
    omega
  apply Fin.ext
  simp only [rowOf, hs, Bool.false_eq_true, if_false, h, Int.toNat_natCast, NN]
  omega

theorem rowOf_ofNat_node (j : Fin NN) : rowOf (BitVec.ofNat 32 j.val) = j :=
  rowOf_of_toInt_eq _ _ (toInt_ofNat_node j)

/-- A sum over the lengthened edge list, restricted to the positions aimed at node n: the edges aimed at n, and the
    one loop at n. -/
theorem sum_withLoops (src dst : Fin EE → BitVec 32) (n : Fin NN) (G : BitVec 32 → BitVec 32 → EReal) :
    (∑ e' : Fin (EE + NN), if (withLoops dst e').toInt = (n.val : Int)
        then G (withLoops src e') (withLoops dst e') else 0)
      = (∑ e : Fin EE, if (dst e).toInt = (n.val : Int) then G (src e) (dst e) else 0)
        + G (BitVec.ofNat 32 n.val) (BitVec.ofNat 32 n.val) := by
  rw [Fin.sum_univ_add]
  refine congrArg₂ HAdd.hAdd ?_ ?_
  · exact Finset.sum_congr rfl (fun e _ => by rw [withLoops_castAdd, withLoops_castAdd])
  · have hterm : ∀ j : Fin NN,
        (if (withLoops dst (Fin.natAdd EE j)).toInt = (n.val : Int)
          then G (withLoops src (Fin.natAdd EE j)) (withLoops dst (Fin.natAdd EE j)) else 0)
        = if j = n then G (BitVec.ofNat 32 j.val) (BitVec.ofNat 32 j.val) else 0 := by
      intro j
      rw [withLoops_natAdd, withLoops_natAdd, toInt_ofNat_node]
      have hiff : ((j.val : Int) = (n.val : Int)) ↔ j = n := by
        constructor
        · intro h; exact Fin.ext (by exact_mod_cast h)
        · intro h; rw [h]
      simp only [hiff]
    rw [Finset.sum_congr rfl (fun j _ => hterm j), Finset.sum_ite_eq' Finset.univ n]
    simp only [Finset.mem_univ, if_true]

/-! ### Degrees and factors -/

section
variable (src dst : Fin EE → BitVec 32) (bat : Fin NN → BitVec 32)
variable (x : Fin NN → Fin 128 → EReal) (W1 : Fin 128 → Fin 16 → EReal) (b1 : Fin 16 → EReal)
  (W2 : Fin 16 → Fin 32 → EReal) (b2 : Fin 32 → EReal) (Wfc : Fin 32 → Fin 10 → EReal) (bfc : Fin 10 → EReal)

theorem cntR_eq (n : Fin NN) : cntR dst n = cnt dst n + 1 := by
  unfold cntR cnt
  exact sum_withLoops dst dst n (fun _ _ => 1)

theorem degR_eq (n : Fin NN) : degR dst n = deg dst n := by
  unfold degR deg
  rw [zero_add, cntR_eq]

theorem dinvR_eq (n : Fin NN) : dinvR dst n = dinv dst n := by
  unfold dinvR dinv
  rw [degR_eq]

/-- The degree is a real number, at least one. -/
theorem deg_real_pos (n : Fin NN) : ∃ r : ℝ, 0 < r ∧ deg dst n = (r : EReal) := by
  refine ⟨(∑ e : Fin EE, if (dst e).toInt = (n.val : Int) then (1 : ℝ) else 0) + 1, ?_, ?_⟩
  · have : (0 : ℝ) ≤ ∑ e : Fin EE, if (dst e).toInt = (n.val : Int) then (1 : ℝ) else 0 :=
      Finset.sum_nonneg (fun e _ => by split_ifs <;> norm_num)
    linarith
  · have hc : ∀ e : Fin EE,
        (((if (dst e).toInt = (n.val : Int) then (1 : ℝ) else 0) : ℝ) : EReal)
          = if (dst e).toInt = (n.val : Int) then (1 : EReal) else 0 := by
      intro e
      split_ifs <;> rfl
    unfold deg cnt
    rw [EReal.coe_add, coe_sum, EReal.coe_one, Finset.sum_congr rfl (fun e _ => hc e)]

theorem dinv_real (n : Fin NN) : ∃ r : ℝ, dinv dst n = (r : EReal) := by
  obtain ⟨r, hr, h⟩ := deg_real_pos dst n
  refine ⟨(Real.sqrt r)⁻¹, ?_⟩
  unfold dinv
  rw [h, Ideal.rsqrt_coe, if_neg (not_lt.mpr hr.le), if_neg (ne_of_gt hr)]

/-! ### One convolution -/

theorem agg_real {C : Nat} (lin : Fin NN → Fin C → EReal) (hlin : ∀ n f, ∃ r : ℝ, lin n f = (r : EReal))
    (n : Fin NN) (f : Fin C) : ∃ r : ℝ, agg src dst lin n f = (r : EReal) := by
  unfold agg
  exact real_sum _ _ (fun e => real_ite (real_mul (hlin _ _) (dinv_real dst _)) real_zero)

theorem conv_real {C : Nat} (lin : Fin NN → Fin C → EReal) (b : Fin C → EReal)
    (hlin : ∀ n f, ∃ r : ℝ, lin n f = (r : EReal)) (hb : ∀ f, ∃ r : ℝ, b f = (r : EReal))
    (n : Fin NN) (f : Fin C) : ∃ r : ℝ, conv src dst lin b n f = (r : EReal) := by
  unfold conv
  exact real_max_zero (real_add (real_add (real_mul (dinv_real dst n) (agg_real src dst lin hlin n f))
    (real_mul (real_mul (hlin n f) (dinv_real dst n)) (dinv_real dst n))) (hb f))

/-- The edges' part of the reference's accumulation: on an edge aimed at n the target's factor is the factor of n,
    a real number common to every term. -/
theorem edges_factor {C : Nat} (lin : Fin NN → Fin C → EReal) (hlin : ∀ n f, ∃ r : ℝ, lin n f = (r : EReal))
    (n : Fin NN) (f : Fin C) :
    (∑ e : Fin EE, if (dst e).toInt = (n.val : Int)
        then lin (rowOf (src e)) f * (dinv dst (rowOf (src e)) * dinv dst (rowOf (dst e))) else 0)
      = dinv dst n * agg src dst lin n f := by
  choose L hL using hlin
  choose D hD using dinv_real dst
  unfold agg
  have hl : ∀ e : Fin EE,
      (if (dst e).toInt = (n.val : Int)
        then lin (rowOf (src e)) f * (dinv dst (rowOf (src e)) * dinv dst (rowOf (dst e))) else 0)
      = ((D n * (if (dst e).toInt = (n.val : Int) then L (rowOf (src e)) f * D (rowOf (src e)) else 0) : ℝ)
          : EReal) := by
    intro e
    split_ifs with h
    · rw [rowOf_of_toInt_eq _ _ h, hL, hD, hD, ← EReal.coe_mul, ← EReal.coe_mul]
      congr 1
      ring
    · rw [mul_zero]; rfl
  have hr : ∀ e : Fin EE,
      (if (dst e).toInt = (n.val : Int) then lin (rowOf (src e)) f * dinv dst (rowOf (src e)) else 0)
      = ((if (dst e).toInt = (n.val : Int) then L (rowOf (src e)) f * D (rowOf (src e)) else 0 : ℝ) : EReal) := by
    intro e
    split_ifs with h
    · rw [hL, hD, ← EReal.coe_mul]
    · rfl
  rw [Finset.sum_congr rfl (fun e _ => hl e), Finset.sum_congr rfl (fun e _ => hr e), hD n, coe_mul_sum]

theorem aggR_eq {C : Nat} (lin : Fin NN → Fin C → EReal) (hlin : ∀ n f, ∃ r : ℝ, lin n f = (r : EReal))
    (n : Fin NN) (f : Fin C) :
    aggR src dst lin n f = dinv dst n * agg src dst lin n f + lin n f * dinv dst n * dinv dst n := by
  have hs := sum_withLoops src dst n
    (fun s d => lin (rowOf s) f * (dinv dst (rowOf s) * dinv dst (rowOf d)))
  unfold aggR normR
  simp only [dinvR_eq]
  rw [zero_add]
  refine hs.trans ?_
  rw [edges_factor src dst lin hlin n f, rowOf_ofNat_node, mul_assoc]

theorem convR_eq {C : Nat} (lin : Fin NN → Fin C → EReal) (b : Fin C → EReal)
    (hlin : ∀ n f, ∃ r : ℝ, lin n f = (r : EReal)) (n : Fin NN) (f : Fin C) :
    convR src dst lin b n f = conv src dst lin b n f := by
  unfold convR conv
  rw [aggR_eq src dst lin hlin n f]

/-! ### The layers -/

theorem lin1_real (hx : ∀ n k, ∃ r : ℝ, x n k = (r : EReal)) (hW1 : ∀ k f, ∃ r : ℝ, W1 k f = (r : EReal))
    (n : Fin NN) (f : Fin 16) : ∃ r : ℝ, lin1 x W1 n f = (r : EReal) := by
  unfold lin1
  exact real_sum _ _ (fun k => real_mul (hx n k) (hW1 k f))

theorem h1_real (hx : ∀ n k, ∃ r : ℝ, x n k = (r : EReal)) (hW1 : ∀ k f, ∃ r : ℝ, W1 k f = (r : EReal))
    (hb1 : ∀ f, ∃ r : ℝ, b1 f = (r : EReal)) (n : Fin NN) (f : Fin 16) :
    ∃ r : ℝ, h1 src dst x W1 b1 n f = (r : EReal) := by
  unfold h1
  exact conv_real src dst _ _ (lin1_real x W1 hx hW1) hb1 n f

theorem lin2_real (hx : ∀ n k, ∃ r : ℝ, x n k = (r : EReal)) (hW1 : ∀ k f, ∃ r : ℝ, W1 k f = (r : EReal))
    (hb1 : ∀ f, ∃ r : ℝ, b1 f = (r : EReal)) (hW2 : ∀ k f, ∃ r : ℝ, W2 k f = (r : EReal))
    (n : Fin NN) (f : Fin 32) : ∃ r : ℝ, lin2 src dst x W1 b1 W2 n f = (r : EReal) := by
  unfold lin2
  exact real_sum _ _ (fun k => real_mul (h1_real src dst x W1 b1 hx hW1 hb1 n k) (hW2 k f))

theorem h2_real (hx : ∀ n k, ∃ r : ℝ, x n k = (r : EReal)) (hW1 : ∀ k f, ∃ r : ℝ, W1 k f = (r : EReal))
    (hb1 : ∀ f, ∃ r : ℝ, b1 f = (r : EReal)) (hW2 : ∀ k f, ∃ r : ℝ, W2 k f = (r : EReal))
    (hb2 : ∀ f, ∃ r : ℝ, b2 f = (r : EReal)) (n : Fin NN) (f : Fin 32) :
    ∃ r : ℝ, h2 src dst x W1 b1 W2 b2 n f = (r : EReal) := by
  unfold h2
  exact conv_real src dst _ _ (lin2_real src dst x W1 b1 W2 hx hW1 hb1 hW2) hb2 n f

theorem h1R_eq (hx : ∀ n k, ∃ r : ℝ, x n k = (r : EReal)) (hW1 : ∀ k f, ∃ r : ℝ, W1 k f = (r : EReal)) :
    h1R src dst x W1 b1 = h1 src dst x W1 b1 := by
  funext n f
  unfold h1R h1
  exact convR_eq src dst _ _ (lin1_real x W1 hx hW1) n f

theorem lin2R_eq (hx : ∀ n k, ∃ r : ℝ, x n k = (r : EReal)) (hW1 : ∀ k f, ∃ r : ℝ, W1 k f = (r : EReal)) :
    lin2R src dst x W1 b1 W2 = lin2 src dst x W1 b1 W2 := by
  funext n f
  unfold lin2R lin2
  rw [h1R_eq src dst x W1 b1 hx hW1]

theorem h2R_eq (hx : ∀ n k, ∃ r : ℝ, x n k = (r : EReal)) (hW1 : ∀ k f, ∃ r : ℝ, W1 k f = (r : EReal))
    (hb1 : ∀ f, ∃ r : ℝ, b1 f = (r : EReal)) (hW2 : ∀ k f, ∃ r : ℝ, W2 k f = (r : EReal)) :
    h2R src dst x W1 b1 W2 b2 = h2 src dst x W1 b1 W2 b2 := by
  funext n f
  unfold h2R h2
  rw [lin2R_eq src dst x W1 b1 W2 hx hW1]
  exact convR_eq src dst _ _ (lin2_real src dst x W1 b1 W2 hx hW1 hb1 hW2) n f

/-! ### Pooling and read-out -/

/-- The two forms agree.  Once the second layer's features agree, the pooling and the read-out are the same expressions
    up to accumulations that start from zero; the second bias enters both forms alike, so its finiteness is assumed
    only for symmetry with the other inputs. -/
theorem outR_eq_out (hx : ∀ n k, ∃ r : ℝ, x n k = (r : EReal)) (hW1 : ∀ k f, ∃ r : ℝ, W1 k f = (r : EReal))
    (hb1 : ∀ f, ∃ r : ℝ, b1 f = (r : EReal)) (hW2 : ∀ k f, ∃ r : ℝ, W2 k f = (r : EReal))
    (hb2 : ∀ f, ∃ r : ℝ, b2 f = (r : EReal)) (g : Fin GG) (j : Fin 10) :
    outR src dst bat x W1 b1 W2 b2 Wfc bfc g j = out src dst bat x W1 b1 W2 b2 Wfc bfc g j := by
  unfold outR out pooledR pooled gsumR gsum gcntR gcnt
  rw [h2R_eq src dst x W1 b1 W2 b2 hx hW1 hb1 hW2]
  simp only [zero_add]

end

end Cert.GcnSpec

end
-- ==== Proof.Finite.lean ====
/-
  From the precondition "every float argument array is finite" to the form the value proofs use: every entry of each
  of the seven float argument arrays is a real number. The precondition is printed as, for each array, the conjunction
  over all entries of the comparison |x| < +∞, the seven conjoined; an extended real whose absolute value is below +∞
  is neither of the two infinities, hence a real.
-/
import proofs.«400167_j37993280700520_3_alg».proof.Defs
import proofs.«400167_j37993280700520_3_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx Idealize.SL.Sem Cert.Pre_finite_inputs

/-- The rank-0 shape has one index. -/
instance subsingleton_scalar_idx : Subsingleton S_.Idx := ⟨fun a b => funext fun d => d.elim0⟩

/-- An extended real whose absolute value max(x, -x) is below +∞ is a real number: at +∞ the maximum is +∞ through
    its first operand, at -∞ through its second. -/
theorem real_of_abs_lt_top (x : EReal) (h : max x (-x) < ⊤) : ∃ r : ℝ, x = (r : EReal) := by
  induction x using EReal.rec with
  | bot => simp at h
  | coe r => exact ⟨r, rfl⟩
  | top => simp at h

/-- The printed element test: the comparison word of |x| < (the value the pattern 0x7F800000 denotes, +∞) being 1 says
    x is a real number. -/
theorem real_of_test (x : Ideal .f32)
    (h : FloatOps.cmpf (F := Ideal) .olt (FloatOps.hostAbsf x) (FloatOps.ofBits .f32 0x7F800000#32) = 1#1) :
    ∃ r : ℝ, x = (r : EReal) := by
  refine real_of_abs_lt_top x ?_
  have h' : Ideal.cmp .olt (max x (-x)) (Ideal.ofBits .f32 0x7F800000#32) = 1#1 := h
  have htop : Ideal.ofBits .f32 0x7F800000#32 = ⊤ := by simp [Ideal.ofBits, Ideal.ieee]
  rw [htop] at h'
  by_contra hn
  simp [Ideal.cmp, hn] at h'

/-- One array: if the conjunction over all entries of the element test is 1, every entry is a real number. -/
theorem all_real {s : Shape} {axes : List (Fin s.rank)} (hb : S_.BroadcastsInDim s (![] : Fin 0 → Fin s.rank))
    (hr : s.ReducesTo axes S_) (hu : 0 < S_.numel) (a : FVec Ideal s .f32) (init : IVec S_ 1)
    (h : Host.reduce IntOp.andi
        (cmpf .olt (Host.absf a) (broadcastInDim s ![] hb (constant S_ .f32 0x7F800000#32))) init hr hu ix0 = 1#1) :
    ∀ i, ∃ r : ℝ, a i = (r : EReal) := fun i =>
  real_of_test (a i) (Host.reduce_andi_all _ init hr hu ix0 h i)

/-- The precondition at one device, for any nine arrays of the argument shapes: every entry of every float array is a
    real number. The two integer arrays are unconstrained. -/
theorem finite_of_pre [Cert.Pre_finite_inputs.Facts]
    (a0 : FVec Ideal Cert.Pre_finite_inputs.S100000x128 .f32) (a1 : IVec Cert.Pre_finite_inputs.S2x3200000 32)
    (a2 : IVec Cert.Pre_finite_inputs.S100000 32) (a3 : FVec Ideal Cert.Pre_finite_inputs.S128x16 .f32)
    (a4 : FVec Ideal Cert.Pre_finite_inputs.S16 .f32) (a5 : FVec Ideal Cert.Pre_finite_inputs.S16x32 .f32)
    (a6 : FVec Ideal Cert.Pre_finite_inputs.S32 .f32) (a7 : FVec Ideal Cert.Pre_finite_inputs.S32x10 .f32)
    (a8 : FVec Ideal Cert.Pre_finite_inputs.S10 .f32)
    (h : Cert.Pre_finite_inputs.fn (F := Ideal) a0 a1 a2 a3 a4 a5 a6 a7 a8 = (fun _ => 1#1)) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal))
      ∧ (∀ i, ∃ r : ℝ, a8 i = (r : EReal)) := by
  have h0 := congrFun h ix0
  dsimp only [fn, fn_part1, andi] at h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  exact ⟨all_real _ _ _ a0 _ h0, all_real _ _ _ a3 _ h3, all_real _ _ _ a4 _ h4, all_real _ _ _ a5 _ h5,
    all_real _ _ _ a6 _ h6, all_real _ _ _ a7 _ h7, all_real _ _ _ a8 _ h8⟩

/-- The kernel program's argument arrays, on every device. -/
theorem finite_KernelIdeal
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.Pre_finite_inputs.S100000x128.Idx, ∃ r : ℝ, m ((c.tc : Thread Cert.KernelIdeal.nD Cert.KernelIdeal.τ).loc Cert.KernelIdeal.main_arg0) i = (r : EReal))
      ∧ (∀ i : Cert.Pre_finite_inputs.S128x16.Idx, ∃ r : ℝ, m ((c.tc : Thread Cert.KernelIdeal.nD Cert.KernelIdeal.τ).loc Cert.KernelIdeal.main_arg3) i = (r : EReal))
      ∧ (∀ i : Cert.Pre_finite_inputs.S16.Idx, ∃ r : ℝ, m ((c.tc : Thread Cert.KernelIdeal.nD Cert.KernelIdeal.τ).loc Cert.KernelIdeal.main_arg4) i = (r : EReal))
      ∧ (∀ i : Cert.Pre_finite_inputs.S16x32.Idx, ∃ r : ℝ, m ((c.tc : Thread Cert.KernelIdeal.nD Cert.KernelIdeal.τ).loc Cert.KernelIdeal.main_arg5) i = (r : EReal))
      ∧ (∀ i : Cert.Pre_finite_inputs.S32.Idx, ∃ r : ℝ, m ((c.tc : Thread Cert.KernelIdeal.nD Cert.KernelIdeal.τ).loc Cert.KernelIdeal.main_arg6) i = (r : EReal))
      ∧ (∀ i : Cert.Pre_finite_inputs.S32x10.Idx, ∃ r : ℝ, m ((c.tc : Thread Cert.KernelIdeal.nD Cert.KernelIdeal.τ).loc Cert.KernelIdeal.main_arg7) i = (r : EReal))
      ∧ (∀ i : Cert.Pre_finite_inputs.S10.Idx, ∃ r : ℝ, m ((c.tc : Thread Cert.KernelIdeal.nD Cert.KernelIdeal.τ).loc Cert.KernelIdeal.main_arg8) i = (r : EReal)) :=
  finite_of_pre _ _ _ _ _ _ _ _ _ (h c)

/-- The reference program's argument arrays, on every device. -/
theorem finite_ReferenceIdeal
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ i : Cert.Pre_finite_inputs.S100000x128.Idx, ∃ r : ℝ, m ((c.tc : Thread Cert.ReferenceIdeal.nD Cert.ReferenceIdeal.τ).loc Cert.ReferenceIdeal.main_arg0) i = (r : EReal))
      ∧ (∀ i : Cert.Pre_finite_inputs.S128x16.Idx, ∃ r : ℝ, m ((c.tc : Thread Cert.ReferenceIdeal.nD Cert.ReferenceIdeal.τ).loc Cert.ReferenceIdeal.main_arg3) i = (r : EReal))
      ∧ (∀ i : Cert.Pre_finite_inputs.S16.Idx, ∃ r : ℝ, m ((c.tc : Thread Cert.ReferenceIdeal.nD Cert.ReferenceIdeal.τ).loc Cert.ReferenceIdeal.main_arg4) i = (r : EReal))
      ∧ (∀ i : Cert.Pre_finite_inputs.S16x32.Idx, ∃ r : ℝ, m ((c.tc : Thread Cert.ReferenceIdeal.nD Cert.ReferenceIdeal.τ).loc Cert.ReferenceIdeal.main_arg5) i = (r : EReal))
      ∧ (∀ i : Cert.Pre_finite_inputs.S32.Idx, ∃ r : ℝ, m ((c.tc : Thread Cert.ReferenceIdeal.nD Cert.ReferenceIdeal.τ).loc Cert.ReferenceIdeal.main_arg6) i = (r : EReal))
      ∧ (∀ i : Cert.Pre_finite_inputs.S32x10.Idx, ∃ r : ℝ, m ((c.tc : Thread Cert.ReferenceIdeal.nD Cert.ReferenceIdeal.τ).loc Cert.ReferenceIdeal.main_arg7) i = (r : EReal))
      ∧ (∀ i : Cert.Pre_finite_inputs.S10.Idx, ∃ r : ℝ, m ((c.tc : Thread Cert.ReferenceIdeal.nD Cert.ReferenceIdeal.τ).loc Cert.ReferenceIdeal.main_arg8) i = (r : EReal)) :=
  finite_of_pre _ _ _ _ _ _ _ _ _ (h c)

end Cert.Finite

end
-- ==== Proof.lean ====
/-
  Two programs compute a two-layer graph convolution with self-loops and symmetric normalisation, a mean pool over
  256 graphs and a linear read-out, on 100000 nodes and 3200000 edges.  The kernel program runs three TensorCore
  regions among host operations: it adds the self-loop analytically (degree = edge count + 1, the loop's message
  lin n · dinv n · dinv n kept as a second output of each matmul region), pre-scales the gathered rows by the
  source's factor and multiplies the aggregate by the target's factor afterwards, and pools by a one-hot product
  accumulated over 25 row tiles.  The reference appends the loops to the index rows and weights every edge by the
  product of its endpoints' factors.  Over the extended reals both are `GcnSpec.out` of the nine argument arrays:
  the kernel structurally (`kernel_value`), the reference up to moving the target's factor out of the edge sum,
  which is distributivity and holds because finite inputs keep every quantity real (`ref_value`, `outR_eq_out`).
  Each program's frame (it runs to the end, faults nowhere, leaves its arguments unchanged) is the run of its
  segments; the word-level kernel's is the same text read at the bit-exact instance.
-/
import proofs.«400167_j37993280700520_3_alg».proof.Defs
import proofs.«400167_j37993280700520_3_alg».proof.Proof.Gen.Kernel
import proofs.«400167_j37993280700520_3_alg».proof.Proof.Gen.KernelIdeal
import proofs.«400167_j37993280700520_3_alg».proof.Proof.Gen.ReferenceIdeal
import proofs.«400167_j37993280700520_3_alg».proof.Proof.Gen.Pre_finite_inputs
import proofs.«400167_j37993280700520_3_alg».proof.Proof.Gen.ReferenceIdeal.Run
import proofs.«400167_j37993280700520_3_alg».proof.Proof.Gen.ReferenceIdeal.Read
import proofs.«400167_j37993280700520_3_alg».proof.Proof.K.Run
import proofs.«400167_j37993280700520_3_alg».proof.Proof.KI.Run
import proofs.«400167_j37993280700520_3_alg».proof.Proof.KI.KernelValue
import proofs.«400167_j37993280700520_3_alg».proof.Proof.RefValue
import proofs.«400167_j37993280700520_3_alg».proof.Proof.SpecAt
import proofs.«400167_j37993280700520_3_alg».proof.Proof.SpecAlgebra
import proofs.«400167_j37993280700520_3_alg».proof.Proof.Finite
import Idealize.ShloMosaic.Adequacy
import Idealize.ShloMosaic.Init

noncomputable section

namespace Cert.Proof

open Idealize.ShloMosaic Idealize.ShloMosaic.ValueIdx Idealize.SL.Sem

/-- The reference's result is the spec of its own argument arrays, when the float arguments are finite: the
    operations read one by one give the reference-shaped form, which the algebra turns into the spec. -/
theorem ref_spec (m' : (ℓ : Loc Cert.ReferenceIdeal.nD Cert.ReferenceIdeal.τ Cert.ReferenceIdeal.sig) → Buf (Elt Ideal) ℓ)
    (hpre : Cert.Pre_ReferenceIdeal m') (c : Dev Cert.ReferenceIdeal.nD) :
    Cert.ReferenceIdeal.Value.res_main_v78 (F := Ideal) m' c
      = Cert.GcnSpec.specOut
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8)) := by
  obtain ⟨h0, h3, h4, h5, h6, _, _⟩ := Cert.Finite.finite_ReferenceIdeal m' hpre c
  rw [Cert.ReferenceIdeal.Read.val_main_v78_eq]
  funext i
  rw [Cert.ReferenceIdeal.RefValue.ref_value]
  unfold Cert.GcnSpec.specOut
  exact Cert.GcnSpec.outR_eq_out _ _ _ _ _ _ _ _ _ _ (fun n k => h0 (ix2 n k)) (fun k f => h3 (ix2 k f))
    (fun f => h4 (ix1 f)) (fun k f => h5 (ix2 k f)) (fun f => h6 (ix1 f)) (i 0) (i 1)

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

theorem frame_k : Cert.frame_Kernel := fun m ρ _ => Cert.Kernel.Frame.frame (F := Bits) m ρ

theorem frame_ki : Cert.frame_KernelIdeal := fun m ρ _ => Cert.KernelIdeal.Frame.frame (F := Ideal) m ρ

/-- From memories that agree on the arguments both programs end with the spec of those arguments in their result
    arrays: the kernel's run pins every buffer to the last boundary's contents, whose result entry is the spec;
    the reference's generated run names its result term, which is the spec under the (shared) finiteness. -/
theorem algebraic : Cert.algebraic_KernelIdeal_ReferenceIdeal := by
  intro m ρ m' ρ' hpre hagree
  refine ⟨fun c => Cert.GcnSpec.specOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Frame.run_all (F := Ideal) m ρ)
    exact ⟨(h c _ (Cert.KernelIdeal.Frame.mem_uc Cert.KernelIdeal.main_v40 (by decide))).trans (Cert.KernelIdeal.Val.kernel_value m ρ c),
      (h c _ (Cert.KernelIdeal.Frame.mem_uc Cert.KernelIdeal.main_arg0 (by decide))).trans (Cert.KernelIdeal.Frame.W6_main_arg0 m ρ c),
      (h c _ (Cert.KernelIdeal.Frame.mem_uc Cert.KernelIdeal.main_arg1 (by decide))).trans (Cert.KernelIdeal.Frame.W6_main_arg1 m ρ c),
      (h c _ (Cert.KernelIdeal.Frame.mem_uc Cert.KernelIdeal.main_arg2 (by decide))).trans (Cert.KernelIdeal.Frame.W6_main_arg2 m ρ c),
      (h c _ (Cert.KernelIdeal.Frame.mem_uc Cert.KernelIdeal.main_arg3 (by decide))).trans (Cert.KernelIdeal.Frame.W6_main_arg3 m ρ c),
      (h c _ (Cert.KernelIdeal.Frame.mem_uc Cert.KernelIdeal.main_arg4 (by decide))).trans (Cert.KernelIdeal.Frame.W6_main_arg4 m ρ c),
      (h c _ (Cert.KernelIdeal.Frame.mem_uc Cert.KernelIdeal.main_arg5 (by decide))).trans (Cert.KernelIdeal.Frame.W6_main_arg5 m ρ c),
      (h c _ (Cert.KernelIdeal.Frame.mem_uc Cert.KernelIdeal.main_arg6 (by decide))).trans (Cert.KernelIdeal.Frame.W6_main_arg6 m ρ c),
      (h c _ (Cert.KernelIdeal.Frame.mem_uc Cert.KernelIdeal.main_arg7 (by decide))).trans (Cert.KernelIdeal.Frame.W6_main_arg7 m ρ c),
      (h c _ (Cert.KernelIdeal.Frame.mem_uc Cert.KernelIdeal.main_arg8 (by decide))).trans (Cert.KernelIdeal.Frame.W6_main_arg8 m ρ c)⟩
  · have hpre' : Cert.Pre_ReferenceIdeal m' := fun c => by
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
      exact hpre c
    refine (θ_run Cert.ReferenceIdeal.defs _ _).mono (fun _ h c => ⟨(h c).1.trans ?_, (h c).2⟩)
      (Cert.ReferenceIdeal.Value.run (F := Ideal) m' ρ')
    rw [ref_spec m' hpre' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
